-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x100 : Shape := ⟨2, ![1048576, 100]⟩
abbrev S1048576 : Shape := ⟨1, ![1048576]⟩
abbrev S1024x1024x3 : Shape := ⟨3, ![1024, 1024, 3]⟩
abbrev S_ : Shape := ⟨0, ![]⟩

class Facts : Prop where
  bcast_S_S1048576x100 : S_.BroadcastsInDim S1048576x100 (![] : Fin 0 → Fin S1048576x100.rank)
  reducesTo_S1048576x100_S_d0_1 : S1048576x100.ReducesTo [0, 1] S_
  h_S_ : 0 < S_.numel
  bcast_S_S1024x1024x3 : S_.BroadcastsInDim S1024x1024x3 (![] : Fin 0 → Fin S1024x1024x3.rank)
  reducesTo_S1024x1024x3_S_d0_1_2 : S1024x1024x3.ReducesTo [0, 1, 2] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1048576x100 .f32) (main_arg1 : IVec S1048576 32) (main_arg2 : FVec F S1024x1024x3 .f32) : IVec S_ 1 :=
  let main_v0 : FVec F S1048576x100 .f32 := Host.absf main_arg0
  let main_cst : FVec F S_ .f32 := constant S_ .f32 0x7F800000#32
  let main_v1 : FVec F S1048576x100 .f32 := broadcastInDim S1048576x100 ![] bcast_S_S1048576x100 main_cst
  let main_v2 : IVec S1048576x100 1 := cmpf .olt main_v0 main_v1
  let main_c : IVec S_ 1 := constantI S_ 1 1#1
  let main_v3 : IVec S_ 1 := (fun x v => Host.reduce IntOp.andi x v reducesTo_S1048576x100_S_d0_1 h_S_) main_v2 main_c
  let main_v4 : FVec F S1024x1024x3 .f32 := Host.absf main_arg2
  let main_cst_0 : FVec F S_ .f32 := constant S_ .f32 0x7F800000#32
  let main_v5 : FVec F S1024x1024x3 .f32 := broadcastInDim S1024x1024x3 ![] bcast_S_S1024x1024x3 main_cst_0
  let main_v6 : IVec S1024x1024x3 1 := cmpf .olt main_v4 main_v5
  let main_c_1 : IVec S_ 1 := constantI S_ 1 1#1
  let main_v7 : IVec S_ 1 := (fun x v => Host.reduce IntOp.andi x v reducesTo_S1024x1024x3_S_d0_1_2 h_S_) main_v6 main_c_1
  let main_v8 : IVec S_ 1 := andi main_v3 main_v7
  let main_c_2 : IVec S_ 32 := constantI S_ 32 0#32
  let main_v9 : IVec S1048576 32 := broadcastInDim S1048576 ![] bcast_S_S1048576 main_c_2
  let main_v10 : IVec S1048576 1 := cmpi .sge main_arg1 main_v9
  let main_c_3 : IVec S_ 1 := constantI S_ 1 1#1
  let main_v11 : IVec S_ 1 := (fun x v => Host.reduce IntOp.andi x v reducesTo_S1048576_S_d0 h_S_) main_v10 main_c_3
  let main_v12 : IVec S_ 1 := andi main_v8 main_v11
  let main_c_4 : IVec S_ 32 := constantI S_ 32 100#32
  let main_v13 : IVec S1048576 32 := broadcastInDim S1048576 ![] bcast_S_S1048576 main_c_4
  let main_v14 : IVec S1048576 1 := cmpi .slt main_arg1 main_v13
  let main_c_5 : IVec S_ 1 := constantI S_ 1 1#1
  let main_v15 : IVec S_ 1 := (fun x v => Host.reduce IntOp.andi x v reducesTo_S1048576_S_d0 h_S_) main_v14 main_c_5
  fn_part1 (F := F) main_v12 main_v15
-- ==== Kernel.lean ====
abbrev S1048576x100 : Shape := ⟨2, ![1048576, 100]⟩
abbrev S1048576 : Shape := ⟨1, ![1048576]⟩
abbrev S1024x1024x3 : Shape := ⟨3, ![1024, 1024, 3]⟩
abbrev S1048576x3 : Shape := ⟨2, ![1048576, 3]⟩
abbrev S1048576x1 : Shape := ⟨2, ![1048576, 1]⟩
abbrev S2x100x3 : Shape := ⟨3, ![2, 100, 3]⟩
abbrev S2x1x1 : Shape := ⟨3, ![2, 1, 1]⟩
abbrev S8192x100 : Shape := ⟨2, ![8192, 100]⟩
abbrev S8192x1 : Shape := ⟨2, ![8192, 1]⟩
abbrev S8192x3 : Shape := ⟨2, ![8192, 3]⟩
abbrev S1x100x3 : Shape := ⟨3, ![1, 100, 3]⟩
abbrev S1x1x1 : Shape := ⟨3, ![1, 1, 1]⟩
abbrev S100x3 : Shape := ⟨2, ![100, 3]⟩
abbrev S1x1 : Shape := ⟨2, ![1, 1]⟩
abbrev S4096x100 : Shape := ⟨2, ![4096, 100]⟩
abbrev S4096x1 : Shape := ⟨2, ![4096, 1]⟩
abbrev S4096x3 : Shape := ⟨2, ![4096, 3]⟩
abbrev S4096 : Shape := ⟨1, ![4096]⟩
abbrev S1 : Shape := ⟨1, ![1]⟩
abbrev S_ : Shape := ⟨0, ![]⟩

abbrev nBuf : Space → Nat
  | .hbm => 41
  | .vmem => 15
  | .smem => 0
  | _ => 0

abbrev bufTy : (tb : Table) → Fin (tcTables nBuf tb) → BufTy
  | .hbm, ⟨0, _⟩ => ⟨S1048576x100, .f32⟩
  | .hbm, ⟨1, _⟩ => ⟨S1048576, .i32⟩
  | .hbm, ⟨2, _⟩ => ⟨S1024x1024x3, .f32⟩
  | .hbm, ⟨3, _⟩ => ⟨S1048576x3, .f32⟩
  | .hbm, ⟨4, _⟩ => ⟨S1048576x1, .i32⟩
  | .hbm, ⟨5, _⟩ => ⟨S2x100x3, .f32⟩
  | .hbm, ⟨6, _⟩ => ⟨S2x100x3, .f32⟩
  | .hbm, ⟨7, _⟩ => ⟨S2x1x1, .f32⟩
  | .hbm, ⟨8, _⟩ => ⟨S_, .f32⟩
  | .hbm, ⟨9, _⟩ => ⟨S100x3, .f32⟩
  | .hbm, ⟨10, _⟩ => ⟨S_, .f32⟩
  | .hbm, ⟨11, _⟩ => ⟨S100x3, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S100x3, .f32⟩
  | .hbm, ⟨16, _⟩ => ⟨S100x3, .f32⟩
  | .hbm, ⟨17, _⟩ => ⟨S_, .f32⟩
  | .hbm, ⟨18, _⟩ => ⟨S100x3, .f32⟩
  | .hbm, ⟨19, _⟩ => ⟨S100x3, .f32⟩
  | .hbm, ⟨20, _⟩ => ⟨S100x3, .f32⟩
  | .hbm, ⟨21, _⟩ => ⟨S100x3, .f32⟩
  | .hbm, ⟨22, _⟩ => ⟨S_, .f32⟩
  | .hbm, ⟨23, _⟩ => ⟨S100x3, .f32⟩
  | .hbm, ⟨24, _⟩ => ⟨S100x3, .f32⟩
  | .hbm, ⟨25, _⟩ => ⟨S100x3, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S8192x100, .f32⟩
  | .local _ .vmem, ⟨1, _⟩ => ⟨S8192x100, .f32⟩
  | .local _ .vmem, ⟨2, _⟩ => ⟨S8192x1, .i32⟩
  | .local _ .vmem, ⟨3, _⟩ => ⟨S8192x1, .i32⟩
  | .local _ .vmem, ⟨4, _⟩ => ⟨S8192x3, .f32⟩
  | .local _ .vmem, ⟨5, _⟩ => ⟨S8192x3, .f32⟩
  | .local _ .vmem, ⟨6, _⟩ => ⟨S1x100x3, .f32⟩
  | .local _ .vmem, ⟨7, _⟩ => ⟨S1x100x3, .f32⟩
  | .local _ .vmem, ⟨8, _⟩ => ⟨S1x100x3, .f32⟩
  | .local _ .vmem, ⟨9, _⟩ => ⟨S1x100x3, .f32⟩
  | .local _ .vmem, ⟨10, _⟩ => ⟨S1x1x1, .f32⟩
  | .local _ .vmem, ⟨11, _⟩ => ⟨S1x1x1, .f32⟩
  | .local _ .vmem, ⟨12, _⟩ => ⟨S100x3, .f32⟩
  | .local _ .vmem, ⟨13, _⟩ => ⟨S100x3, .f32⟩
  | .local _ .vmem, ⟨14, _⟩ => ⟨S1x1, .f32⟩
  | _, _ => ⟨S1048576x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_cst_9 : Ref sig .tc := ⟨.hbm, 36, rfl⟩
abbrev main_v21 : Ref sig .tc := ⟨.hbm, 37, rfl⟩
abbrev main_cst_10 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v97 : BitVec 1 := Scalar.cmpi .eq arg1 c63_i32
  let v98 : BitVec 32 := Scalar.extui v97
  let c0_i32_48 : BitVec 32 := 0#32
  let v99 : BitVec 1 := Scalar.cmpi .ne v98 c0_i32_48
  v99

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x100x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x100x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1024x1024x3_S1048576x3 : S1024x1024x3.ShapeCasts S1048576x3
  shapeCasts_S1048576_S1048576x1 : S1048576.ShapeCasts S1048576x1
  inb_S100x3_S100x3_0_0 : ∀ a, (![0, 0] : Fin 2 → Nat) a + S100x3.size a ≤ S100x3.size a
  h_S100x3 : 0 < S100x3.numel
  shapeCasts_S100x3_S100x3 : S100x3.ShapeCasts S100x3
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x100_S4096x100_0_0 : ∀ a, (![0, 0] : Fin 2 → Nat) a + S4096x100.size a ≤ S8192x100.size a
  h_S4096x100 : 0 < S4096x100.numel
  inb_S8192x1_S4096x1_0_0 : ∀ a, (![0, 0] : Fin 2 → Nat) a + S4096x1.size a ≤ S8192x1.size a
  h_S4096x1 : 0 < S4096x1.numel
  shapeCasts_S4096x1_S4096x1 : S4096x1.ShapeCasts S4096x1
  inb_S8192x3_S4096x3_0_0 : ∀ a, (![0, 0] : Fin 2 → Nat) a + S4096x3.size a ≤ S8192x3.size a
  h_S4096x3 : 0 < S4096x3.numel
  shapeCasts_S4096x3_S4096x3 : S4096x3.ShapeCasts S4096x3
  reduces_S4096x100_S4096 : S4096x100.Reduces [1] S4096
  shapeCasts_S4096_S4096x1 : S4096.ShapeCasts S4096x1
  broadcasts_S4096x1_S4096x100 : S4096x1.Broadcasts S4096x100
  iota_S4096x100_d1_w32 : S4096x100.Iotas .tc 32 [1]
  reduces_S4096x1_S1 : S4096x1.Reduces [0] S1
  shapeCasts_S1_S1x1 : S1.ShapeCasts S1x1
  natLt_1_32 : 1 < 32
  bitsLt_bf16_f32 : FTy.bits .bf16 < FTy.bits .f32
  inb_S8192x100_S4096x100_4096_0 : ∀ a, (![4096, 0] : Fin 2 → Nat) a + S4096x100.size a ≤ S8192x100.size a
  inb_S8192x1_S4096x1_4096_0 : ∀ a, (![4096, 0] : Fin 2 → Nat) a + S4096x1.size a ≤ S8192x1.size a
  inb_S8192x3_S4096x3_4096_0 : ∀ a, (![4096, 0] : Fin 2 → Nat) a + S4096x3.size a ≤ S8192x3.size a
  inb_S1x100x3_S1x100x3_0_0_0 : ∀ a, (![0, 0, 0] : Fin 3 → Nat) a + S1x100x3.size a ≤ S1x100x3.size a
  h_S1x100x3 : 0 < S1x100x3.numel
  shapeCasts_S1x100x3_S100x3 : S1x100x3.ShapeCasts S100x3
  shapeCasts_S100x3_S1x100x3 : S100x3.ShapeCasts S1x100x3
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x100x3_S100x3_d0 : S2x100x3.ReducesTo [0] S100x3
  h_S_ : 0 < S_.numel
  reducesTo_S2x1x1_S_d0_1_2 : S2x1x1.ReducesTo [0, 1, 2] S_
  bcast_S_S100x3 : S_.BroadcastsInDim S100x3 (![] : Fin 0 → Fin S100x3.rank)
  reducesTo_S100x3_S_d0_1 : S100x3.ReducesTo [0, 1] S_
  dot_S4096x100_S4096x3_S100x3_0_0_1_1_n_n_wf : DotDims.WF S4096x100 S4096x3 S100x3 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x100.size a ≤ S1048576x100.size a
  hwx0_0 : ∀ i : grid0.Coords, EltTy.bits .f32 = 32 ∨ (Rect.block (s := S1048576x100) S8192x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S1048576x1.size a
  hwx0_1 : ∀ i : grid0.Coords, EltTy.bits .i32 = 32 ∨ (Rect.block (s := S1048576x1) S8192x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x3.size a ≤ S1048576x3.size a
  hwx0_2 : ∀ i : grid0.Coords, EltTy.bits .f32 = 32 ∨ (Rect.block (s := S1048576x3) S8192x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x100x3.size a ≤ S2x100x3.size a
  hwx0_3 : ∀ i : grid0.Coords, EltTy.bits .f32 = 32 ∨ (Rect.block (s := S2x100x3) S1x100x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x100x3.size a ≤ S2x100x3.size a
  hwx0_4 : ∀ i : grid0.Coords, EltTy.bits .f32 = 32 ∨ (Rect.block (s := S2x100x3) S1x100x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def dot_S4096x100_S4096x3_S100x3_0_0_1_1_n_n : DotDims S4096x100 S4096x3 S100x3 where
  lhsContracting := [0]
  rhsContracting := [0]
  lhsNonContracting := [1]
  rhsNonContracting := [1]
  lhsBatch := []
  rhsBatch := []
  wf := dot_S4096x100_S4096x3_S100x3_0_0_1_1_n_n_wf

abbrev win0_0 : Pipeline.Window sig grid0 :=
  Pipeline.Window.ofSpec (Memref.whole main_arg0) S8192x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x100x3.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x100x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1048576x100 : Shape := ⟨2, ![1048576, 100]⟩
abbrev S1048576 : Shape := ⟨1, ![1048576]⟩
abbrev S1024x1024x3 : Shape := ⟨3, ![1024, 1024, 3]⟩
abbrev S_ : Shape := ⟨0, ![]⟩
abbrev S1048576x1 : Shape := ⟨2, ![1048576, 1]⟩
abbrev S1048576x1x1 : Shape := ⟨3, ![1048576, 1, 1]⟩
abbrev S1 : Shape := ⟨1, ![1]⟩
abbrev S1x1x1 : Shape := ⟨3, ![1, 1, 1]⟩
abbrev S1048576x3 : Shape := ⟨2, ![1048576, 3]⟩
abbrev S100x3 : Shape := ⟨2, ![100, 3]⟩

abbrev nBuf : Space → Nat
  | .hbm => 81
  | .vmem => 0
  | .smem => 0
  | _ => 0

abbrev bufTy : (tb : Table) → Fin (tcTables nBuf tb) → BufTy
  | .hbm, ⟨0, _⟩ => ⟨S1048576x100, .f32⟩
  | .hbm, ⟨1, _⟩ => ⟨S1048576, .i32⟩
  | .hbm, ⟨2, _⟩ => ⟨S1024x1024x3, .f32⟩
  | .hbm, ⟨3, _⟩ => ⟨S_, .f32⟩
  | .hbm, ⟨4, _⟩ => ⟨S1048576, .f32⟩
  | .hbm, ⟨5, _⟩ => ⟨S_, .f32⟩
  | .hbm, ⟨6, _⟩ => ⟨S1048576, .f32⟩
  | .hbm, ⟨7, _⟩ => ⟨S1048576, .f32⟩
  | .hbm, ⟨8, _⟩ => ⟨S1048576x1, .f32⟩
  | .hbm, ⟨9, _⟩ => ⟨S1048576x100, .f32⟩
  | .hbm, ⟨10, _⟩ => ⟨S1048576x100, .f32⟩
  | .hbm, ⟨11, _⟩ => ⟨S1048576x100, .f32⟩
  | .hbm, ⟨12, _⟩ => ⟨S_, .f32⟩
  | .hbm, ⟨13, _⟩ => ⟨S1048576, .f32⟩
  | .hbm, ⟨14, _⟩ => ⟨S1048576x1, .f32⟩
  | .hbm, ⟨15, _⟩ => ⟨S1048576x1, .f32⟩
  | .hbm, ⟨16, _⟩ => ⟨S1048576x100, .f32⟩
  | .hbm, ⟨17, _⟩ => ⟨S1048576x100, .f32⟩
  | .hbm, ⟨18, _⟩ => ⟨S1048576x1, .i32⟩
  | .hbm, ⟨19, _⟩ => ⟨S_, .i32⟩
  | .hbm, ⟨20, _⟩ => ⟨S1048576x1, .i32⟩
  | .hbm, ⟨21, _⟩ => ⟨S1048576x1, .i1⟩
  | .hbm, ⟨22, _⟩ => ⟨S_, .i32⟩
  | .hbm, ⟨23, _⟩ => ⟨S1048576x1, .i32⟩
  | .hbm, ⟨24, _⟩ => ⟨S1048576x1, .i32⟩
  | .hbm, ⟨25, _⟩ => ⟨S1048576x1, .i32⟩
  | .hbm, ⟨26, _⟩ => ⟨S1048576x1x1, .i32⟩
  | .hbm, ⟨27, _⟩ => ⟨S1, .i32⟩
  | .hbm, ⟨28, _⟩ => ⟨S_, .i32⟩
  | .hbm, ⟨29, _⟩ => ⟨S1048576x1x1, .i32⟩
  | .hbm, ⟨30, _⟩ => ⟨S1048576x1x1, .i1⟩
  | .hbm, ⟨31, _⟩ => ⟨S1x1x1, .i32⟩
  | .hbm, ⟨32, _⟩ => ⟨S1048576x1x1, .i32⟩
  | .hbm, ⟨33, _⟩ => ⟨S1048576x1x1, .i1⟩
  | .hbm, ⟨34, _⟩ => ⟨S1048576x1x1, .i1⟩
  | .hbm, ⟨35, _⟩ => ⟨S_, .i1⟩
  | .hbm, ⟨36, _⟩ => ⟨S1048576x1, .i1⟩
  | .hbm, ⟨37, _⟩ => ⟨S1048576x1, .f32⟩
  | .hbm, ⟨38, _⟩ => ⟨S_, .f32⟩
  | .hbm, ⟨39, _⟩ => ⟨S1048576x1, .f32⟩
  | .hbm, ⟨40, _⟩ => ⟨S1048576x1, .f32⟩
  | .hbm, ⟨41, _⟩ => ⟨S1048576x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1048576x3, .f32⟩
  | .hbm, ⟨47, _⟩ => ⟨S_, .f32⟩
  | .hbm, ⟨48, _⟩ => ⟨S100x3, .f32⟩
  | .hbm, ⟨49, _⟩ => ⟨S1048576x1, .i32⟩
  | .hbm, ⟨50, _⟩ => ⟨S100x3, .f32⟩
  | .hbm, ⟨51, _⟩ => ⟨S1048576x3, .f32⟩
  | .hbm, ⟨52, _⟩ => ⟨S_, .f32⟩
  | .hbm, ⟨53, _⟩ => ⟨S100x3, .f32⟩
  | .hbm, ⟨54, _⟩ => ⟨S1048576x1, .i32⟩
  | .hbm, ⟨55, _⟩ => ⟨S100x3, .f32⟩
  | .hbm, ⟨56, _⟩ => ⟨S_, .f32⟩
  | .hbm, ⟨57, _⟩ => ⟨S100x3, .f32⟩
  | .hbm, ⟨58, _⟩ => ⟨S100x3, .f32⟩
  | .hbm, ⟨59, _⟩ => ⟨S_, .f32⟩
  | .hbm, ⟨60, _⟩ => ⟨S100x3, .f32⟩
  | .hbm, ⟨61, _⟩ => ⟨S100x3, .f32⟩
  | .hbm, ⟨62, _⟩ => ⟨S100x3, .f32⟩
  | .hbm, ⟨63, _⟩ => ⟨S100x3, .f32⟩
  | .hbm, ⟨64, _⟩ => ⟨S_, .f32⟩
  | .hbm, ⟨65, _⟩ => ⟨S100x3, .f32⟩
  | .hbm, ⟨66, _⟩ => ⟨S100x3, .f32⟩
  | .hbm, ⟨67, _⟩ => ⟨S100x3, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S1048576x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_cst : Ref sig .tc := ⟨.hbm, 42, rfl⟩
abbrev main_v4 : Ref sig .tc := ⟨.hbm, 43, rfl⟩
abbrev main_cst_0 : Ref sig .tc := ⟨.hbm, 44, rfl⟩
abbrev main_v5 : Ref sig .tc := ⟨.hbm, 45, rfl⟩
abbrev main_v6 : Ref sig .tc := ⟨.hbm, 46, rfl⟩
abbrev main_cst_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst_2 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst_3 : Ref sig .tc := ⟨.hbm, 56, rfl⟩
abbrev main_v14 : Ref sig .tc := ⟨.hbm, 57, rfl⟩
abbrev main_v15 : Ref sig .tc := ⟨.hbm, 58, rfl⟩
abbrev main_cst_4 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst_5 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_6 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_7 : Ref sig .tc := ⟨.hbm, 72, rfl⟩
abbrev main_v26 : Ref sig .tc := ⟨.hbm, 73, rfl⟩
abbrev main_cst_8 : Ref sig .tc := ⟨.hbm, 74, rfl⟩
abbrev main_v27 : Ref sig .tc := ⟨.hbm, 75, rfl⟩
abbrev main_cst_9 : Ref sig .tc := ⟨.hbm, 76, rfl⟩
abbrev main_v28 : Ref sig .tc := ⟨.hbm, 77, rfl⟩
abbrev main_cst_10 : Ref sig .tc := ⟨.hbm, 78, rfl⟩
abbrev main_v29 : Ref sig .tc := ⟨.hbm, 79, rfl⟩
abbrev main_v30 : Ref sig .tc := ⟨.hbm, 80, rfl⟩

abbrev nD : Nat := 1
abbrev τ : Topo := Topo.v7x

variable {F : FTy → Type} [FloatOps F]

class Facts₀ : Prop where
  reducesTo_S1048576x100_S1048576_d1 : S1048576x100.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x100_0_1 : S1048576x1.BroadcastsInDim S1048576x100 (![0, 1] : Fin 2 → Fin S1048576x100.rank)
  bcast_S_S1048576x1 : S_.BroadcastsInDim S1048576x1 (![] : Fin 0 → Fin S1048576x1.rank)
  shapeCasts_S1048576x1_S1048576x1x1 : S1048576x1.ShapeCasts S1048576x1x1
  bcast_S_S1048576x1x1 : S_.BroadcastsInDim S1048576x1x1 (![] : Fin 0 → Fin S1048576x1x1.rank)
  bcast_S1_S1x1x1_2 : S1.BroadcastsInDim S1x1x1 (![2] : Fin 1 → Fin S1x1x1.rank)
  bcast_S1x1x1_S1048576x1x1_0_1_2 : S1x1x1.BroadcastsInDim S1048576x1x1 (![0, 1, 2] : Fin 3 → Fin S1048576x1x1.rank)
  reducesTo_S1048576x1x1_S1048576x1_d2 : S1048576x1x1.ReducesTo [2] S1048576x1
  reducesTo_S1048576x1_S_d0_1 : S1048576x1.ReducesTo [0, 1] S_
  shapeCasts_S1024x1024x3_S1048576x3 : S1024x1024x3.ShapeCasts S1048576x3
  bcast_S_S100x3 : S_.BroadcastsInDim S100x3 (![] : Fin 0 → Fin S100x3.rank)
  reducesTo_S100x3_S_d0_1 : S100x3.ReducesTo [0, 1] S_
  gather_S1048576x100_S1048576x1x1_S1048576x1_n_1_0_0_1_2_11_wf : GatherDims.WF S1048576x100 S1048576x1x1 S1048576x1 [] [1] [0] [1] [0] 2 ![1, 1]
  scatter_S100x3_S1048576x1_S1048576x3_1_0_0_1_wf : ScatterDims.WF S100x3 S1048576x1 S1048576x3 [1] [0] [0] 1

variable [Facts₀]

def gather_S1048576x100_S1048576x1x1_S1048576x1_n_1_0_0_1_2_11 : GatherDims S1048576x100 S1048576x1x1 S1048576x1 where
  offsetDims := []
  collapsedSliceDims := [1]
  operandBatchingDims := [0]
  startIndicesBatchingDims := [0]
  startIndexMap := [1]
  indexVectorDim := 2
  sliceSizes := ![1, 1]
  wf := gather_S1048576x100_S1048576x1x1_S1048576x1_n_1_0_0_1_2_11_wf
def scatter_S100x3_S1048576x1_S1048576x3_1_0_0_1 : ScatterDims S100x3 S1048576x1 S1048576x3 where
  updateWindowDims := [1]
  insertedWindowDims := [0]
  scatterDimsToOperandDims := [0]
  indexVectorDim := 1
  wf := scatter_S100x3_S1048576x1_S1048576x3_1_0_0_1_wf

class Facts : Prop extends Facts₀ where

variable [Facts]
-- ==== Proof.RefStages.lean ====
import proofs.«403517_j57982058496130_3_alg».proof.Proof.RefRead
import Idealize.ShloMosaic.Lib.StableHlo.Run

noncomputable section

/-!
# The reference program's list of operations, folded stretch by stretch

The reference program is a straight line of 78 tensor operations; what a buffer holds after the line is the
fold of the operations over the contents at the start. This module reads that fold at the result buffer as the
last of the program's named stages. The list is cut into five consecutive stretches (the log-softmax of the
scores; the pick of the label's entry; the mean over the pixels; the two per-label sums; the closing
arithmetic). Each stretch is run from ARBITRARY contents `W`: what it writes is a named stage of what it reads
in `W`, and what it does not write it leaves as it was. The five facts then compose along the line, the
contents between two stretches being carried as an opaque variable that is known only at the few buffers the
later stretches read.

A called function's operations read and write through typed references, which move a value between its own
type and its buffer's along an equation of types; at a literal reference that equation holds by computation and
the move is the identity (`ofBuf_toBuf` and the local facts `e…` in the proofs below).
-/

namespace Cert.ReferenceIdeal.RefStages

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## The list of operations, cut into five stretches -/

/-- Operations 1 to 15 of the list. -/
abbrev s1 : List (HloOp τ sig (Elt F)) :=
  [ TRef.nullary (TRef.of (T := ⟨S_, .f32⟩) main_call0_cst) (constant S_ .f32 0xFF800000#32),
    TRef.binary (TRef.of (T := ⟨S1048576x100, .f32⟩) main_arg0) (TRef.of (T := ⟨S_, .f32⟩) main_call0_cst) (TRef.of (T := ⟨S1048576, .f32⟩) main_call0_v0) (fun x v => Host.reduce FloatOps.maximumf x v reducesTo_S1048576x100_S1048576_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1048576, .f32⟩) main_call0_v1) (broadcastInDim S1048576 ![] bcast_S_S1048576),
    TRef.binary (TRef.of (T := ⟨S1048576, .f32⟩) main_call0_v1) (TRef.of (T := ⟨S1048576, .f32⟩) main_call0_v0) (TRef.of (T := ⟨S1048576, .f32⟩) main_call0_v2) maximumf,
    TRef.unary (TRef.of (T := ⟨S1048576, .f32⟩) main_call0_v2) (TRef.of (T := ⟨S1048576x1, .f32⟩) main_call0_v3) (broadcastInDim S1048576x1 ![0] bcast_S1048576_S1048576x1_0),
    TRef.unary (TRef.of (T := ⟨S1048576x1, .f32⟩) main_call0_v3) (TRef.of (T := ⟨S1048576x100, .f32⟩) main_call0_v4) (broadcastInDim S1048576x100 ![0, 1] bcast_S1048576x1_S1048576x100_0_1),
    TRef.binary (TRef.of (T := ⟨S1048576x100, .f32⟩) main_arg0) (TRef.of (T := ⟨S1048576x100, .f32⟩) main_call0_v4) (TRef.of (T := ⟨S1048576x100, .f32⟩) main_call0_v5) subf,
    TRef.unary (TRef.of (T := ⟨S1048576x100, .f32⟩) main_call0_v5) (TRef.of (T := ⟨S1048576x100, .f32⟩) main_call0_v6) Host.exp,
    TRef.nullary (TRef.of (T := ⟨S_, .f32⟩) main_call0_cst_1) (constant S_ .f32 0x00000000#32),
    TRef.binary (TRef.of (T := ⟨S1048576x100, .f32⟩) main_call0_v6) (TRef.of (T := ⟨S_, .f32⟩) main_call0_cst_1) (TRef.of (T := ⟨S1048576, .f32⟩) main_call0_v7) (fun x v => Host.reduceAdd x v reducesTo_S1048576x100_S1048576_d1 h_S_),
    TRef.unary (TRef.of (T := ⟨S1048576, .f32⟩) main_call0_v7) (TRef.of (T := ⟨S1048576x1, .f32⟩) main_call0_v8) (broadcastInDim S1048576x1 ![0] bcast_S1048576_S1048576x1_0),
    TRef.unary (TRef.of (T := ⟨S1048576x1, .f32⟩) main_call0_v8) (TRef.of (T := ⟨S1048576x1, .f32⟩) main_call0_v9) Host.log,
    TRef.unary (TRef.of (T := ⟨S1048576x1, .f32⟩) main_call0_v9) (TRef.of (T := ⟨S1048576x100, .f32⟩) main_call0_v10) (broadcastInDim S1048576x100 ![0, 1] bcast_S1048576x1_S1048576x100_0_1),
    TRef.binary (TRef.of (T := ⟨S1048576x100, .f32⟩) main_call0_v5) (TRef.of (T := ⟨S1048576x100, .f32⟩) main_call0_v10) (TRef.of (T := ⟨S1048576x100, .f32⟩) main_v0) subf ]

/-- Operations 16 to 38 of the list. -/
abbrev s2 : List (HloOp τ sig (Elt F)) :=
  [ unary main_arg1 main_v1 (broadcastInDim S1048576x1 ![0] bcast_S1048576_S1048576x1_0 : (⟨S1048576, .i32⟩ : BufTy).Contents (Elt F) → (⟨S1048576x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1048576x1, .i32⟩) main_call1_v0) (broadcastInDim S1048576x1 ![] bcast_S_S1048576x1),
    TRef.binary (TRef.of (T := ⟨S1048576x1, .i32⟩) main_v1) (TRef.of (T := ⟨S1048576x1, .i32⟩) main_call1_v0) (TRef.of (T := ⟨S1048576x1, .i1⟩) main_call1_v1) (cmpi .slt),
    TRef.nullary (TRef.of (T := ⟨S_, .i32⟩) main_call1_c_0) (constantI S_ 32 100#32),
    TRef.unary (TRef.of (T := ⟨S_, .i32⟩) main_call1_c_0) (TRef.of (T := ⟨S1048576x1, .i32⟩) main_call1_v2) (broadcastInDim S1048576x1 ![] bcast_S_S1048576x1),
    TRef.binary (TRef.of (T := ⟨S1048576x1, .i32⟩) main_v1) (TRef.of (T := ⟨S1048576x1, .i32⟩) main_call1_v2) (TRef.of (T := ⟨S1048576x1, .i32⟩) main_call1_v3) addi,
    TRef.ternary (TRef.of (T := ⟨S1048576x1, .i1⟩) main_call1_v1) (TRef.of (T := ⟨S1048576x1, .i32⟩) main_call1_v3) (TRef.of (T := ⟨S1048576x1, .i32⟩) main_v1) (TRef.of (T := ⟨S1048576x1, .i32⟩) main_call1_v4) select,
    TRef.reshape (TRef.of (T := ⟨S1048576x1, .i32⟩) main_call1_v4) (TRef.of (T := ⟨S1048576x1x1, .i32⟩) main_call1_v5) rfl shapeCasts_S1048576x1_S1048576x1x1,
    TRef.nullary (TRef.of (T := ⟨S1, .i32⟩) main_call1_c_1) (constantI S1 32 99#32),
    TRef.nullary (TRef.of (T := ⟨S_, .i32⟩) main_call1_c_2) (constantI S_ 32 0#32),
    TRef.unary (TRef.of (T := ⟨S_, .i32⟩) main_call1_c_2) (TRef.of (T := ⟨S1048576x1x1, .i32⟩) main_call1_v6) (broadcastInDim S1048576x1x1 ![] bcast_S_S1048576x1x1),
    TRef.binary (TRef.of (T := ⟨S1048576x1x1, .i32⟩) main_call1_v5) (TRef.of (T := ⟨S1048576x1x1, .i32⟩) main_call1_v6) (TRef.of (T := ⟨S1048576x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1048576x1x1, .i32⟩) main_call1_v9) (broadcastInDim S1048576x1x1 ![0, 1, 2] bcast_S1x1x1_S1048576x1x1_0_1_2),
    TRef.binary (TRef.of (T := ⟨S1048576x1x1, .i32⟩) main_call1_v5) (TRef.of (T := ⟨S1048576x1x1, .i32⟩) main_call1_v9) (TRef.of (T := ⟨S1048576x1x1, .i1⟩) main_call1_v10) (cmpi .sle),
    TRef.binary (TRef.of (T := ⟨S1048576x1x1, .i1⟩) main_call1_v7) (TRef.of (T := ⟨S1048576x1x1, .i1⟩) main_call1_v10) (TRef.of (T := ⟨S1048576x1x1, .i1⟩) main_call1_v11) andi,
    TRef.nullary (TRef.of (T := ⟨S_, .i1⟩) main_call1_c_3) (constantI S_ 1 1#1),
    TRef.binary (TRef.of (T := ⟨S1048576x1x1, .i1⟩) main_call1_v11) (TRef.of (T := ⟨S_, .i1⟩) main_call1_c_3) (TRef.of (T := ⟨S1048576x1, .i1⟩) main_call1_v12) (fun x v => Host.reduce IntOp.andi x v reducesTo_S1048576x1x1_S1048576x1_d2 h_S_),
    TRef.binary (TRef.of (T := ⟨S1048576x100, .f32⟩) main_v0) (TRef.of (T := ⟨S1048576x1x1, .i32⟩) main_call1_v5) (TRef.of (T := ⟨S1048576x1, .f32⟩) main_call1_v13) (fun x i => Host.gather gather_S1048576x100_S1048576x1x1_S1048576x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1048576x1, .f32⟩) main_call1_v14) (broadcastInDim S1048576x1 ![] bcast_S_S1048576x1),
    TRef.ternary (TRef.of (T := ⟨S1048576x1, .i1⟩) main_call1_v12) (TRef.of (T := ⟨S1048576x1, .f32⟩) main_call1_v13) (TRef.of (T := ⟨S1048576x1, .f32⟩) main_call1_v14) (TRef.of (T := ⟨S1048576x1, .f32⟩) main_v2) select ]

/-- Operations 39 to 43 of the list. -/
abbrev s3 : List (HloOp τ sig (Elt F)) :=
  [ unary main_v2 main_v3 (Host.negf : (⟨S1048576x1, .f32⟩ : BufTy).Contents (Elt F) → (⟨S1048576x1, .f32⟩ : BufTy).Contents (Elt F)),
    nullary main_cst (constant S_ .f32 0x00000000#32),
    binary main_v3 main_cst main_v4 ((fun x v => Host.reduceAdd x v reducesTo_S1048576x1_S_d0_1 h_S_) : (⟨S1048576x1, .f32⟩ : BufTy).Contents (Elt F) → (⟨S_, .f32⟩ : BufTy).Contents (Elt F) → (⟨S_, .f32⟩ : BufTy).Contents (Elt F)),
    nullary main_cst_0 (constant S_ .f32 0x49800000#32),
    binary main_v4 main_cst_0 main_v5 (Host.divf : (⟨S_, .f32⟩ : BufTy).Contents (Elt F) → (⟨S_, .f32⟩ : BufTy).Contents (Elt F) → (⟨S_, .f32⟩ : BufTy).Contents (Elt F)) ]

/-- Operations 44 to 53 of the list. -/
abbrev s4 : List (HloOp τ sig (Elt F)) :=
  [ reshape main_arg2 main_v6 rfl shapeCasts_S1024x1024x3_S1048576x3,
    nullary main_cst_1 (constant S_ .f32 0x00000000#32),
    unary main_cst_1 main_v7 (broadcastInDim S100x3 ![] bcast_S_S100x3 : (⟨S_, .f32⟩ : BufTy).Contents (Elt F) → (⟨S100x3, .f32⟩ : BufTy).Contents (Elt F)),
    unary main_arg1 main_v8 (broadcastInDim S1048576x1 ![0] bcast_S1048576_S1048576x1_0 : (⟨S1048576, .i32⟩ : BufTy).Contents (Elt F) → (⟨S1048576x1, .i32⟩ : BufTy).Contents (Elt F)),
    ternary main_v7 main_v8 main_v6 main_v9 ((fun x i u => Host.scatterAdd scatter_S100x3_S1048576x1_S1048576x3_1_0_0_1 x i u) : (⟨S100x3, .f32⟩ : BufTy).Contents (Elt F) → (⟨S1048576x1, .i32⟩ : BufTy).Contents (Elt F) → (⟨S1048576x3, .f32⟩ : BufTy).Contents (Elt F) → (⟨S100x3, .f32⟩ : BufTy).Contents (Elt F)),
    binary main_v6 main_v6 main_v10 (mulf : (⟨S1048576x3, .f32⟩ : BufTy).Contents (Elt F) → (⟨S1048576x3, .f32⟩ : BufTy).Contents (Elt F) → (⟨S1048576x3, .f32⟩ : BufTy).Contents (Elt F)),
    nullary main_cst_2 (constant S_ .f32 0x00000000#32),
    unary main_cst_2 main_v11 (broadcastInDim S100x3 ![] bcast_S_S100x3 : (⟨S_, .f32⟩ : BufTy).Contents (Elt F) → (⟨S100x3, .f32⟩ : BufTy).Contents (Elt F)),
    unary main_arg1 main_v12 (broadcastInDim S1048576x1 ![0] bcast_S1048576_S1048576x1_0 : (⟨S1048576, .i32⟩ : BufTy).Contents (Elt F) → (⟨S1048576x1, .i32⟩ : BufTy).Contents (Elt F)),
    ternary main_v11 main_v12 main_v10 main_v13 ((fun x i u => Host.scatterAdd scatter_S100x3_S1048576x1_S1048576x3_1_0_0_1 x i u) : (⟨S100x3, .f32⟩ : BufTy).Contents (Elt F) → (⟨S1048576x1, .i32⟩ : BufTy).Contents (Elt F) → (⟨S1048576x3, .f32⟩ : BufTy).Contents (Elt F) → (⟨S100x3, .f32⟩ : BufTy).Contents (Elt F)) ]

/-- Operations 54 to 78 of the list. -/
abbrev s5 : List (HloOp τ sig (Elt F)) :=
  [ nullary main_cst_3 (constant S_ .f32 0x49800000#32),
    unary main_cst_3 main_v14 (broadcastInDim S100x3 ![] bcast_S_S100x3 : (⟨S_, .f32⟩ : BufTy).Contents (Elt F) → (⟨S100x3, .f32⟩ : BufTy).Contents (Elt F)),
    binary main_v9 main_v14 main_v15 (Host.divf : (⟨S100x3, .f32⟩ : BufTy).Contents (Elt F) → (⟨S100x3, .f32⟩ : BufTy).Contents (Elt F) → (⟨S100x3, .f32⟩ : BufTy).Contents (Elt F)),
    nullary main_cst_4 (constant S_ .f32 0x49800000#32),
    unary main_cst_4 main_v16 (broadcastInDim S100x3 ![] bcast_S_S100x3 : (⟨S_, .f32⟩ : BufTy).Contents (Elt F) → (⟨S100x3, .f32⟩ : BufTy).Contents (Elt F)),
    binary main_v13 main_v16 main_v17 (Host.divf : (⟨S100x3, .f32⟩ : BufTy).Contents (Elt F) → (⟨S100x3, .f32⟩ : BufTy).Contents (Elt F) → (⟨S100x3, .f32⟩ : BufTy).Contents (Elt F)),
    binary main_v15 main_v15 main_v18 (mulf : (⟨S100x3, .f32⟩ : BufTy).Contents (Elt F) → (⟨S100x3, .f32⟩ : BufTy).Contents (Elt F) → (⟨S100x3, .f32⟩ : BufTy).Contents (Elt F)),
    binary main_v17 main_v18 main_v19 (subf : (⟨S100x3, .f32⟩ : BufTy).Contents (Elt F) → (⟨S100x3, .f32⟩ : BufTy).Contents (Elt F) → (⟨S100x3, .f32⟩ : BufTy).Contents (Elt F)),
    nullary main_cst_5 (constant S_ .f32 0x00000000#32),
    unary main_cst_5 main_v20 (broadcastInDim S100x3 ![] bcast_S_S100x3 : (⟨S_, .f32⟩ : BufTy).Contents (Elt F) → (⟨S100x3, .f32⟩ : BufTy).Contents (Elt F)),
    binary main_v19 main_v20 main_v21 (maximumf : (⟨S100x3, .f32⟩ : BufTy).Contents (Elt F) → (⟨S100x3, .f32⟩ : BufTy).Contents (Elt F) → (⟨S100x3, .f32⟩ : BufTy).Contents (Elt F)),
    unary main_v21 main_v22 (Host.sqrt : (⟨S100x3, .f32⟩ : BufTy).Contents (Elt F) → (⟨S100x3, .f32⟩ : BufTy).Contents (Elt F)),
    nullary main_cst_6 (constant S_ .f32 0x00000000#32),
    binary main_v22 main_cst_6 main_v23 ((fun x v => Host.reduceAdd x v reducesTo_S100x3_S_d0_1 h_S_) : (⟨S100x3, .f32⟩ : BufTy).Contents (Elt F) → (⟨S_, .f32⟩ : BufTy).Contents (Elt F) → (⟨S_, .f32⟩ : BufTy).Contents (Elt F)),
    unary main_v23 main_v24 (Host.negf : (⟨S_, .f32⟩ : BufTy).Contents (Elt F) → (⟨S_, .f32⟩ : BufTy).Contents (Elt F)),
    unary main_v24 main_v25 (Host.exp : (⟨S_, .f32⟩ : BufTy).Contents (Elt F) → (⟨S_, .f32⟩ : BufTy).Contents (Elt F)),
    nullary main_cst_7 (constant S_ .f32 0x3F800000#32),
    binary main_cst_7 main_v25 main_v26 (addf : (⟨S_, .f32⟩ : BufTy).Contents (Elt F) → (⟨S_, .f32⟩ : BufTy).Contents (Elt F) → (⟨S_, .f32⟩ : BufTy).Contents (Elt F)),
    nullary main_cst_8 (constant S_ .f32 0x3F800000#32),
    binary main_cst_8 main_v26 main_v27 (Host.divf : (⟨S_, .f32⟩ : BufTy).Contents (Elt F) → (⟨S_, .f32⟩ : BufTy).Contents (Elt F) → (⟨S_, .f32⟩ : BufTy).Contents (Elt F)),
    nullary main_cst_9 (constant S_ .f32 0x3F333333#32),
    binary main_cst_9 main_v5 main_v28 (mulf : (⟨S_, .f32⟩ : BufTy).Contents (Elt F) → (⟨S_, .f32⟩ : BufTy).Contents (Elt F) → (⟨S_, .f32⟩ : BufTy).Contents (Elt F)),
    nullary main_cst_10 (constant S_ .f32 0x3E99999A#32),
    binary main_cst_10 main_v27 main_v29 (mulf : (⟨S_, .f32⟩ : BufTy).Contents (Elt F) → (⟨S_, .f32⟩ : BufTy).Contents (Elt F) → (⟨S_, .f32⟩ : BufTy).Contents (Elt F)),
    binary main_v28 main_v29 main_v30 (addf : (⟨S_, .f32⟩ : BufTy).Contents (Elt F) → (⟨S_, .f32⟩ : BufTy).Contents (Elt F) → (⟨S_, .f32⟩ : BufTy).Contents (Elt F)) ]

/-- The list is the five stretches in a row. -/
theorem ops_split : ops (F := F) = s1 ++ s2 ++ s3 ++ s4 ++ s5 := rfl

/-- The contents after two lines in a row are the second line's after the first's. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- Reading back at the value's type what was stored at the buffer's type gives the value. -/
theorem ofBuf_toBuf {T : BufTy} (x : TRef sig T) (v : T.Contents (Elt F)) : x.ofBuf (x.toBuf v) = v := by
  obtain ⟨r, rfl, _, _⟩ := x
  rfl

/-! ## Each stretch, from any contents -/

section Stretches

variable (W : Valuation τ sig (Elt F))

/-- The first stretch computes the log-softmax of the scores. -/
theorem S1 (x0 : (⟨S1048576x100, .f32⟩ : BufTy).Contents (Elt F)) (h0 : W (Proc.devRef .tc main_arg0) = x0) :
    StableHlo.after s1 W (Proc.devRef .tc main_v0) = val_main_v0 (F := F) x0 := by
  unfold s1
  after_results_simp
  simp only [ofBuf_toBuf]
  have h0' : (TRef.of (T := ⟨S1048576x100, .f32⟩) main_arg0).ofBuf (W (Proc.devRef .tc main_arg0)) = x0 := h0
  have e0 : ∀ z : (⟨S1048576x100, .f32⟩ : BufTy).Contents (Elt F),
      (TRef.of (T := ⟨S1048576x100, .f32⟩) main_v0).toBuf z = z := fun _ => rfl
  rw [h0', e0]
  rfl

/-- The first stretch leaves the labels alone. -/
theorem P1_arg1 : StableHlo.after s1 W (Proc.devRef .tc main_arg1) = W (Proc.devRef .tc main_arg1) := by
  unfold s1
  after_results_simp

/-- The first stretch leaves the image alone. -/
theorem P1_arg2 : StableHlo.after s1 W (Proc.devRef .tc main_arg2) = W (Proc.devRef .tc main_arg2) := by
  unfold s1
  after_results_simp

/-- The second stretch picks, per pixel, the log-softmax at the pixel's label (masked by "the label is in range"). -/
theorem S2 (x0 : (⟨S1048576x100, .f32⟩ : BufTy).Contents (Elt F)) (x1 : (⟨S1048576, .i32⟩ : BufTy).Contents (Elt F))
    (h1 : W (Proc.devRef .tc main_arg1) = x1) (hv0 : W (Proc.devRef .tc main_v0) = val_main_v0 (F := F) x0) :
    StableHlo.after s2 W (Proc.devRef .tc main_v2) = val_main_v2 (F := F) x0 x1 := by
  unfold s2
  after_results_simp
  simp only [ofBuf_toBuf]
  have e1 : ∀ z : (⟨S1048576x1, .i32⟩ : BufTy).Contents (Elt F),
      (TRef.of (T := ⟨S1048576x1, .i32⟩) main_v1).ofBuf z = z := fun _ => rfl
  have e4 : ∀ z : (⟨S1048576x1, .i32⟩ : BufTy).Contents (Elt F),
      (TRef.of (T := ⟨S1048576x1, .i32⟩) main_call1_v4).toBuf z = z := fun _ => rfl
  have e5 : ∀ z : (⟨S1048576x1x1, .i32⟩ : BufTy).Contents (Elt F),
      (TRef.of (T := ⟨S1048576x1x1, .i32⟩) main_call1_v5).ofBuf z = z := fun _ => rfl
  have hv0' : (TRef.of (T := ⟨S1048576x100, .f32⟩) main_v0).ofBuf (W (Proc.devRef .tc main_v0)) = val_main_v0 (F := F) x0 := hv0
  have e2 : ∀ z : (⟨S1048576x1, .f32⟩ : BufTy).Contents (Elt F),
      (TRef.of (T := ⟨S1048576x1, .f32⟩) main_v2).toBuf z = z := fun _ => rfl
  simp only [e1, e4, e5, e2]
  rw [hv0', h1]
  unfold val_main_v2 val_main_call1_v13
  generalize val_main_v0 (F := F) x0 = y
  rfl

/-- The second stretch leaves the labels alone. -/
theorem P2_arg1 : StableHlo.after s2 W (Proc.devRef .tc main_arg1) = W (Proc.devRef .tc main_arg1) := by
  unfold s2
  after_results_simp

/-- The second stretch leaves the image alone. -/
theorem P2_arg2 : StableHlo.after s2 W (Proc.devRef .tc main_arg2) = W (Proc.devRef .tc main_arg2) := by
  unfold s2
  after_results_simp

/-- The third stretch negates, sums over the pixels and divides by their number. -/
theorem S3 (x0 : (⟨S1048576x100, .f32⟩ : BufTy).Contents (Elt F)) (x1 : (⟨S1048576, .i32⟩ : BufTy).Contents (Elt F))
    (hv2 : W (Proc.devRef .tc main_v2) = val_main_v2 (F := F) x0 x1) :
    StableHlo.after s3 W (Proc.devRef .tc main_v5) = val_main_v5 (F := F) x0 x1 := by
  unfold s3
  after_results_simp
  rw [hv2]
  unfold val_main_v5 val_main_v4 val_main_v3
  generalize val_main_v2 (F := F) x0 x1 = y
  rfl

/-- The third stretch leaves the labels alone. -/
theorem P3_arg1 : StableHlo.after s3 W (Proc.devRef .tc main_arg1) = W (Proc.devRef .tc main_arg1) := by
  unfold s3
  after_results_simp

/-- The third stretch leaves the image alone. -/
theorem P3_arg2 : StableHlo.after s3 W (Proc.devRef .tc main_arg2) = W (Proc.devRef .tc main_arg2) := by
  unfold s3
  after_results_simp

/-- The fourth stretch's first scatter-add: the per-label sums of the flattened image. -/
theorem S4_v9 (x1 : (⟨S1048576, .i32⟩ : BufTy).Contents (Elt F)) (x2 : (⟨S1024x1024x3, .f32⟩ : BufTy).Contents (Elt F))
    (h1 : W (Proc.devRef .tc main_arg1) = x1) (h2 : W (Proc.devRef .tc main_arg2) = x2) :
    StableHlo.after s4 W (Proc.devRef .tc main_v9) = val_main_v9 (F := F) x1 x2 := by
  unfold s4
  after_results_simp
  rw [h1, h2]
  rfl

/-- The fourth stretch's second scatter-add: the per-label sums of the flattened image's square. -/
theorem S4_v13 (x1 : (⟨S1048576, .i32⟩ : BufTy).Contents (Elt F)) (x2 : (⟨S1024x1024x3, .f32⟩ : BufTy).Contents (Elt F))
    (h1 : W (Proc.devRef .tc main_arg1) = x1) (h2 : W (Proc.devRef .tc main_arg2) = x2) :
    StableHlo.after s4 W (Proc.devRef .tc main_v13) = val_main_v13 (F := F) x1 x2 := by
  unfold s4
  after_results_simp
  rw [h1, h2]
  rfl

/-- The fourth stretch leaves the mean cross entropy alone. -/
theorem P4_v5 : StableHlo.after s4 W (Proc.devRef .tc main_v5) = W (Proc.devRef .tc main_v5) := by
  unfold s4
  after_results_simp

/-- The fifth stretch is the closing arithmetic on the mean cross entropy and the two tables of sums. -/
theorem S5 (x0 : (⟨S1048576x100, .f32⟩ : BufTy).Contents (Elt F)) (x1 : (⟨S1048576, .i32⟩ : BufTy).Contents (Elt F))
    (x2 : (⟨S1024x1024x3, .f32⟩ : BufTy).Contents (Elt F))
    (hv5 : W (Proc.devRef .tc main_v5) = val_main_v5 (F := F) x0 x1)
    (hv9 : W (Proc.devRef .tc main_v9) = val_main_v9 (F := F) x1 x2)
    (hv13 : W (Proc.devRef .tc main_v13) = val_main_v13 (F := F) x1 x2) :
    StableHlo.after s5 W (Proc.devRef .tc main_v30) = val_main_v30 (F := F) x0 x1 x2 := by
  unfold s5
  after_results_simp
  rw [hv5, hv9, hv13]
  unfold val_main_v30 val_main_v29 val_main_v28 val_main_v27 val_main_v26 val_main_v25 val_main_v24 val_main_v23
    val_main_v22 val_main_v21 val_main_v20 val_main_v19 val_main_v18 val_main_v17 val_main_v16 val_main_v15 val_main_v14
  generalize val_main_v5 (F := F) x0 x1 = n
  generalize val_main_v9 (F := F) x1 x2 = a
  generalize val_main_v13 (F := F) x1 x2 = b
  rfl

end Stretches

/-! ## The whole list -/

/-- The 78 operations' fold, read at the result buffer, is the last stage of the three arguments. -/
theorem fold_eq {F : FTy → Type} [FloatOps F] (m : (ℓ : Loc nD τ sig) → Buf (Elt F) ℓ) (c : Dev nD) :
    StableHlo.after (ops (F := F)) (launchContents m c) (Proc.devRef .tc main_v30)
      = val_main_v30 (F := F) (m ((c.tc : Thread nD τ).loc main_arg0)) (m ((c.tc : Thread nD τ).loc main_arg1)) (m ((c.tc : Thread nD τ).loc main_arg2)) := by
  rw [ops_split, after_app, after_app, after_app, after_app]
  have a0 : launchContents m c (Proc.devRef .tc main_arg0) = m ((c.tc : Thread nD τ).loc main_arg0) := rfl
  have a1 : launchContents m c (Proc.devRef .tc main_arg1) = m ((c.tc : Thread nD τ).loc main_arg1) := rfl
  have a2 : launchContents m c (Proc.devRef .tc main_arg2) = m ((c.tc : Thread nD τ).loc main_arg2) := rfl
  generalize launchContents m c = V0 at a0 a1 a2 ⊢
  -- after the first stretch
  have v0 := S1 V0 _ a0
  have b1 := (P1_arg1 V0).trans a1
  have b2 := (P1_arg2 V0).trans a2
  generalize StableHlo.after s1 V0 = V1 at v0 b1 b2 ⊢
  -- after the second
  have v2 := S2 V1 _ _ b1 v0
  have c1 := (P2_arg1 V1).trans b1
  have c2 := (P2_arg2 V1).trans b2
  generalize StableHlo.after s2 V1 = V2 at v2 c1 c2 ⊢
  -- after the third
  have v5 := S3 V2 _ _ v2
  have d1 := (P3_arg1 V2).trans c1
  have d2 := (P3_arg2 V2).trans c2
  generalize StableHlo.after s3 V2 = V3 at v5 d1 d2 ⊢
  -- after the fourth
  have v9 := S4_v9 V3 _ _ d1 d2
  have v13 := S4_v13 V3 _ _ d1 d2
  have v5' := (P4_v5 V3).trans v5
  generalize StableHlo.after s4 V3 = V4 at v9 v13 v5' ⊢
  -- the fifth
  exact S5 V4 _ _ _ v5' v9 v13

end Cert.ReferenceIdeal.RefStages

end
-- ==== Proof.KSteps.lean ====
import proofs.«403517_j57982058496130_3_alg».proof.Proof.Gen.KernelIdeal.Frame
import Idealize.ShloMosaic.Lib.Pipeline.Value
import Idealize.ShloMosaic.Lib.Tactic

/-!
# What one grid point does to the three accumulators

The kernel keeps three accumulators between grid points: the per-label sums of the image and of its
square (100 × 3 each) and the summed cross entropy (1 × 1). At a grid point it walks its block of
8192 pixels as two halves of 4096; each half adds to each accumulator that half's contribution. So
the accumulators after a point are a fixed function — `step1`, `step2`, `stepN` below — of the
point's three input blocks and of the accumulators before it, where at the first point of a core's
run "before" is the zero the kernel has just stored. At a core's last point the three outputs receive
the accumulators, re-laid with a leading unit axis.
-/

set_option maxRecDepth 16384

noncomputable section

open Idealize.ShloMosaic Idealize.ShloMosaic.TcCoe Idealize.SL.Sem

namespace Cert.KernelIdeal.KV

open Cert.KernelIdeal Cert.KernelIdeal.Gen

variable {F : FTy → Type} [FloatOps F]

theorem hz3 : (![0, 0, 0] : Fin 3 → Nat) = fun _ => 0 := funext fun a => by fin_cases a <;> rfl

theorem hz2 : (![0, 0] : Fin 2 → Nat) = fun _ => 0 := funext fun a => by fin_cases a <;> rfl

/-- A load of the whole buffer after a list of stores whose LAST one wrote the whole buffer reads that store's value. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The first half (pixels 0 … 4095) of a block of scores, labels, pixels. -/
abbrev lo0 (x0 : Vec F S8192x100 .f32) : Vec F S4096x100 .f32 := View.ld x0 (Rect.unit ![0, 0] S4096x100.size inb_S8192x100_S4096x100_0_0)
abbrev lo1 (x1 : Vec F S8192x1 .i32) : Vec F S4096x1 .i32 := View.ld x1 (Rect.unit ![0, 0] S4096x1.size inb_S8192x1_S4096x1_0_0)
abbrev lo2 (x2 : Vec F S8192x3 .f32) : Vec F S4096x3 .f32 := View.ld x2 (Rect.unit ![0, 0] S4096x3.size inb_S8192x3_S4096x3_0_0)
/-- The second half (pixels 4096 … 8191). -/
abbrev hi0 (x0 : Vec F S8192x100 .f32) : Vec F S4096x100 .f32 := View.ld x0 (Rect.unit ![4096, 0] S4096x100.size inb_S8192x100_S4096x100_4096_0)
abbrev hi1 (x1 : Vec F S8192x1 .i32) : Vec F S4096x1 .i32 := View.ld x1 (Rect.unit ![4096, 0] S4096x1.size inb_S8192x1_S4096x1_4096_0)
abbrev hi2 (x2 : Vec F S8192x3 .f32) : Vec F S4096x3 .f32 := View.ld x2 (Rect.unit ![4096, 0] S4096x3.size inb_S8192x3_S4096x3_4096_0)

/-- The image-sum accumulator after a point: the accumulator before, plus the first half's one-hot product, plus the second half's. -/
def step1 (x1 : Vec F S8192x1 .i32) (x2 : Vec F S8192x3 .f32) (acc : Vec F S100x3 .f32) : Vec F S100x3 .f32 :=
  k0_pay3 (k0_pay19 (hi2 x2)) (k0_pay20 (hi1 x1))
    (k0_pay17 (k0_pay14 (lo1 x1)) (k0_pay15 (lo2 x2)) (constant S100x3 .f32 0#32) acc)

/-- The squared-image-sum accumulator after a point. -/
def step2 (x1 : Vec F S8192x1 .i32) (x2 : Vec F S8192x3 .f32) (acc : Vec F S100x3 .f32) : Vec F S100x3 .f32 :=
  k0_pay4 (k0_pay19 (hi2 x2)) (k0_pay20 (hi1 x1))
    (k0_pay18 (k0_pay14 (lo1 x1)) (k0_pay16 (lo2 x2)) acc)

/-- The cross-entropy accumulator after a point. -/
def stepN (x0 : Vec F S8192x100 .f32) (x1 : Vec F S8192x1 .i32) (acc : Vec F S1x1 .f32) : Vec F S1x1 .f32 :=
  k0_pay1 (k0_pay13 (lo0 x0) (lo1 x1) acc) (k0_pay21 (hi0 x0) (hi1 x1))

/-! ## A core's first point: the accumulators start from the stored zeros -/

theorem sout_A_0 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : cond0_0 i) (hc1 : ¬cond0_1 i)
    (x0 : Vec F S8192x100 .f32) (x1 : Vec F S8192x1 .i32) (x2 : Vec F S8192x3 .f32) :
    sout0_A_0 c i arg2 harg2 arg3 harg3 arg4 harg4 arg5 harg5 arg6 harg6 arg7 harg7 arg8 harg8 arg9 harg9 arg10 harg10 hc0 hc1 x0 x1 x2 = step1 x1 x2 (k0_pay8 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S100x3) hz2]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

theorem sout_A_1 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : cond0_0 i) (hc1 : ¬cond0_1 i)
    (x0 : Vec F S8192x100 .f32) (x1 : Vec F S8192x1 .i32) (x2 : Vec F S8192x3 .f32) :
    sout0_A_1 c i arg2 harg2 arg3 harg3 arg4 harg4 arg5 harg5 arg6 harg6 arg7 harg7 arg8 harg8 arg9 harg9 arg10 harg10 hc0 hc1 x0 x1 x2 = step2 x1 x2 (k0_pay9 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S100x3) hz2]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

theorem sout_A_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : cond0_0 i) (hc1 : ¬cond0_1 i)
    (x0 : Vec F S8192x100 .f32) (x1 : Vec F S8192x1 .i32) (x2 : Vec F S8192x3 .f32) :
    sout0_A_2 c i arg2 harg2 arg3 harg3 arg4 harg4 arg5 harg5 arg6 harg6 arg7 harg7 arg8 harg8 arg9 harg9 arg10 harg10 hc0 hc1 x0 x1 x2 = stepN x0 x1 (k0_pay10 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz2]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

/-! ## A middle point: the accumulators continue from what the point before left -/

theorem sout_B_0 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : ¬cond0_0 i) (hc1 : ¬cond0_1 i)
    (x0 : Vec F S8192x100 .f32) (x1 : Vec F S8192x1 .i32) (x2 : Vec F S8192x3 .f32) (xs0 : Vec F S100x3 .f32) (xs1 : Vec F S100x3 .f32) (xs2 : Vec F S1x1 .f32) :
    sout0_B_0 c i arg2 harg2 arg3 harg3 arg4 harg4 arg5 harg5 arg6 harg6 arg7 harg7 arg8 harg8 arg9 harg9 arg10 harg10 hc0 hc1 x0 x1 x2 xs0 xs1 xs2 = step1 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_cons_unit_zero (S := S100x3) hz2]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

theorem sout_B_1 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : ¬cond0_0 i) (hc1 : ¬cond0_1 i)
    (x0 : Vec F S8192x100 .f32) (x1 : Vec F S8192x1 .i32) (x2 : Vec F S8192x3 .f32) (xs0 : Vec F S100x3 .f32) (xs1 : Vec F S100x3 .f32) (xs2 : Vec F S1x1 .f32) :
    sout0_B_1 c i arg2 harg2 arg3 harg3 arg4 harg4 arg5 harg5 arg6 harg6 arg7 harg7 arg8 harg8 arg9 harg9 arg10 harg10 hc0 hc1 x0 x1 x2 xs0 xs1 xs2 = step2 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_cons_unit_zero (S := S100x3) hz2]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

theorem sout_B_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : ¬cond0_0 i) (hc1 : ¬cond0_1 i)
    (x0 : Vec F S8192x100 .f32) (x1 : Vec F S8192x1 .i32) (x2 : Vec F S8192x3 .f32) (xs0 : Vec F S100x3 .f32) (xs1 : Vec F S100x3 .f32) (xs2 : Vec F S1x1 .f32) :
    sout0_B_2 c i arg2 harg2 arg3 harg3 arg4 harg4 arg5 harg5 arg6 harg6 arg7 harg7 arg8 harg8 arg9 harg9 arg10 harg10 hc0 hc1 x0 x1 x2 xs0 xs1 xs2 = stepN x0 x1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_cons_unit_zero (S := S1x1) hz2]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

/-! ## A core's last point: the same, and the outputs receive the accumulators -/

theorem sout_C_0 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : ¬cond0_0 i) (hc1 : cond0_1 i)
    (x0 : Vec F S8192x100 .f32) (x1 : Vec F S8192x1 .i32) (x2 : Vec F S8192x3 .f32) (xs0 : Vec F S100x3 .f32) (xs1 : Vec F S100x3 .f32) (xs2 : Vec F S1x1 .f32) :
    sout0_C_0 c i arg2 harg2 arg3 harg3 arg4 harg4 arg5 harg5 arg6 harg6 arg7 harg7 arg8 harg8 arg9 harg9 arg10 harg10 hc0 hc1 x0 x1 x2 xs0 xs1 xs2 = step1 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_cons_unit_zero (S := S100x3) hz2]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

theorem sout_C_1 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : ¬cond0_0 i) (hc1 : cond0_1 i)
    (x0 : Vec F S8192x100 .f32) (x1 : Vec F S8192x1 .i32) (x2 : Vec F S8192x3 .f32) (xs0 : Vec F S100x3 .f32) (xs1 : Vec F S100x3 .f32) (xs2 : Vec F S1x1 .f32) :
    sout0_C_1 c i arg2 harg2 arg3 harg3 arg4 harg4 arg5 harg5 arg6 harg6 arg7 harg7 arg8 harg8 arg9 harg9 arg10 harg10 hc0 hc1 x0 x1 x2 xs0 xs1 xs2 = step2 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_cons_unit_zero (S := S100x3) hz2]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

theorem sout_C_2 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : ¬cond0_0 i) (hc1 : cond0_1 i)
    (x0 : Vec F S8192x100 .f32) (x1 : Vec F S8192x1 .i32) (x2 : Vec F S8192x3 .f32) (xs0 : Vec F S100x3 .f32) (xs1 : Vec F S100x3 .f32) (xs2 : Vec F S1x1 .f32) :
    sout0_C_2 c i arg2 harg2 arg3 harg3 arg4 harg4 arg5 harg5 arg6 harg6 arg7 harg7 arg8 harg8 arg9 harg9 arg10 harg10 hc0 hc1 x0 x1 x2 xs0 xs1 xs2 = stepN x0 x1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_cons_unit_zero (S := S1x1) hz2]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

theorem out_C_3 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : ¬cond0_0 i) (hc1 : cond0_1 i)
    (x0 : Vec F S8192x100 .f32) (x1 : Vec F S8192x1 .i32) (x2 : Vec F S8192x3 .f32) (xs0 : Vec F S100x3 .f32) (xs1 : Vec F S100x3 .f32) (xs2 : Vec F S1x1 .f32) :
    out0_C_3 c i arg2 harg2 arg3 harg3 arg4 harg4 arg5 harg5 arg6 harg6 arg7 harg7 arg8 harg8 arg9 harg9 arg10 harg10 hc0 hc1 x0 x1 x2 xs0 xs1 xs2 = k0_pay5 (step1 x1 x2 xs0) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x100x3) hz3]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

theorem out_C_4 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : ¬cond0_0 i) (hc1 : cond0_1 i)
    (x0 : Vec F S8192x100 .f32) (x1 : Vec F S8192x1 .i32) (x2 : Vec F S8192x3 .f32) (xs0 : Vec F S100x3 .f32) (xs1 : Vec F S100x3 .f32) (xs2 : Vec F S1x1 .f32) :
    out0_C_4 c i arg2 harg2 arg3 harg3 arg4 harg4 arg5 harg5 arg6 harg6 arg7 harg7 arg8 harg8 arg9 harg9 arg10 harg10 hc0 hc1 x0 x1 x2 xs0 xs1 xs2 = k0_pay6 (step2 x1 x2 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x100x3) hz3]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

theorem out_C_5 (c : Dev nD) (i : grid0.Coords) (arg2 : Memref sig .tc .vmem S8192x100 .f32) (harg2 : arg2.IsWhole) (arg3 : Memref sig .tc .vmem S8192x1 .i32) (harg3 : arg3.IsWhole) (arg4 : Memref sig .tc .vmem S8192x3 .f32) (harg4 : arg4.IsWhole) (arg5 : Memref sig .tc .vmem S1x100x3 .f32) (harg5 : arg5.IsWhole) (arg6 : Memref sig .tc .vmem S1x100x3 .f32) (harg6 : arg6.IsWhole) (arg7 : Memref sig .tc .vmem S1x1x1 .f32) (harg7 : arg7.IsWhole) (arg8 : Memref sig .tc .vmem S100x3 .f32) (harg8 : arg8.IsWhole) (arg9 : Memref sig .tc .vmem S100x3 .f32) (harg9 : arg9.IsWhole) (arg10 : Memref sig .tc .vmem S1x1 .f32) (harg10 : arg10.IsWhole) (hc0 : ¬cond0_0 i) (hc1 : cond0_1 i)
    (x0 : Vec F S8192x100 .f32) (x1 : Vec F S8192x1 .i32) (x2 : Vec F S8192x3 .f32) (xs0 : Vec F S100x3 .f32) (xs1 : Vec F S100x3 .f32) (xs2 : Vec F S1x1 .f32) :
    out0_C_5 c i arg2 harg2 arg3 harg3 arg4 harg4 arg5 harg5 arg6 harg6 arg7 harg7 arg8 harg8 arg9 harg9 arg10 harg10 hc0 hc1 x0 x1 x2 xs0 xs1 xs2 = k0_pay7 (stepN x0 x1 xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x1x1) hz3]
  simp only [View.readCov_unit_zero (S := S100x3) _ hz2, View.readCov_unit_zero (S := S1x1) _ hz2, readCov_cons_unit_zero (S := S100x3) _ hz2, readCov_cons_unit_zero (S := S1x1) _ hz2, View.readAt_eq_ld, harg2.read_unread, harg3.read_unread, harg4.read_unread, harg8.read_unread, harg9.read_unread, harg10.read_unread, View.ld_unit_zero (S := S100x3) hz2, View.ld_unit_zero (S := S1x1) hz2]
  rfl

end Cert.KernelIdeal.KV

end
-- ==== Proof.KBlk.lean ====
import proofs.«403517_j57982058496130_3_alg».proof.Proof.Gen.KernelIdeal.Frame

/-!
# A grid point's three input blocks, by their literal shapes

Point `t` of the grid reads block `t` of the scores (8192 × 100), of the label column (8192 × 1) and of
the flattened image (8192 × 3). The names below fix those three blocks' types once, so that statements
about their entries do arithmetic on plain extended reals and words.
-/

noncomputable section

open Idealize.ShloMosaic Idealize.ShloMosaic.TcCoe Idealize.SL.Sem

namespace Cert.KernelIdeal.KV

open Cert.KernelIdeal Cert.KernelIdeal.Gen

variable {F : FTy → Type} [FloatOps F]
variable (m : (ℓ : Loc nD τ sig) → Buf (Elt F) ℓ)

/-- Block `t` of the scores. -/
abbrev blk0 (c : Dev nD) (t : Fin cfg0.N) : Vec F S8192x100 .f32 := iblk m c 0 t
/-- Block `t` of the label column. -/
abbrev blk1 (c : Dev nD) (t : Fin cfg0.N) : Vec F S8192x1 .i32 := iblk m c 1 t
/-- Block `t` of the flattened image. -/
abbrev blk2 (c : Dev nD) (t : Fin cfg0.N) : Vec F S8192x3 .f32 := iblk m c 2 t

end Cert.KernelIdeal.KV

end
-- ==== Proof.KComponents.lean ====
import proofs.«403517_j57982058496130_3_alg».proof.Proof.KSteps
import proofs.«403517_j57982058496130_3_alg».proof.Proof.KBlk

/-!
# The accumulators after each grid point, case by case

The 128 grid points run as two runs of 64 (one per core). Within a run, the first point starts the
three accumulators from zero, every later point continues from what the point before left, and the
last point also hands the accumulators to the three outputs. Here each of those statements is read off
the point-by-point description of the run: after point `t` each accumulator is the step function of
the point's blocks applied to the stored zero (first point of a run) or to the accumulator after point
`t − 1` (any other point).
-/

set_option maxRecDepth 16384

noncomputable section

open Idealize.ShloMosaic Idealize.ShloMosaic.TcCoe Idealize.SL.Sem

namespace Cert.KernelIdeal.KV

open Cert.KernelIdeal Cert.KernelIdeal.Gen

variable {F : FTy → Type} [FloatOps F]
variable (m : (ℓ : Loc nD τ sig) → Buf (Elt F) ℓ)

/-- What the buffers hold after the point before `t`. -/
abbrev prevAt (c : Dev nD) (t : Fin cfg0.N) :=
  outsAt0 m c (t.val - 1) (Nat.lt_of_le_of_lt (Nat.sub_le _ _) t.isLt)

theorem acc0_A (c : Dev nD) (t : Fin cfg0.N) (h0 : t.val % 64 = 0) (h1 : ¬t.val % 64 = 63) :
    (outsAt0 m c t.val t.isLt).2.2.2.1 = step1 (blk1 m c t) (blk2 m c t) (k0_pay8 (F := F)) := by
  rw [outsAt0_A m c t h0 h1]
  dsimp only
  exact sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem acc1_A (c : Dev nD) (t : Fin cfg0.N) (h0 : t.val % 64 = 0) (h1 : ¬t.val % 64 = 63) :
    (outsAt0 m c t.val t.isLt).2.2.2.2.1 = step2 (blk1 m c t) (blk2 m c t) (k0_pay9 (F := F)) := by
  rw [outsAt0_A m c t h0 h1]
  dsimp only
  exact sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem acc2_A (c : Dev nD) (t : Fin cfg0.N) (h0 : t.val % 64 = 0) (h1 : ¬t.val % 64 = 63) :
    (outsAt0 m c t.val t.isLt).2.2.2.2.2 = stepN (blk0 m c t) (blk1 m c t) (k0_pay10 (F := F)) := by
  rw [outsAt0_A m c t h0 h1]
  dsimp only
  exact sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem acc0_B (c : Dev nD) (t : Fin cfg0.N) (h0 : ¬t.val % 64 = 0) (h1 : ¬t.val % 64 = 63) :
    (outsAt0 m c t.val t.isLt).2.2.2.1 = step1 (blk1 m c t) (blk2 m c t) (prevAt m c t).2.2.2.1 := by
  rw [outsAt0_B m c t h0 h1]
  dsimp only
  exact sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevAt m c t).2.2.2.1 (prevAt m c t).2.2.2.2.1 (prevAt m c t).2.2.2.2.2

theorem acc1_B (c : Dev nD) (t : Fin cfg0.N) (h0 : ¬t.val % 64 = 0) (h1 : ¬t.val % 64 = 63) :
    (outsAt0 m c t.val t.isLt).2.2.2.2.1 = step2 (blk1 m c t) (blk2 m c t) (prevAt m c t).2.2.2.2.1 := by
  rw [outsAt0_B m c t h0 h1]
  dsimp only
  exact sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevAt m c t).2.2.2.1 (prevAt m c t).2.2.2.2.1 (prevAt m c t).2.2.2.2.2

theorem acc2_B (c : Dev nD) (t : Fin cfg0.N) (h0 : ¬t.val % 64 = 0) (h1 : ¬t.val % 64 = 63) :
    (outsAt0 m c t.val t.isLt).2.2.2.2.2 = stepN (blk0 m c t) (blk1 m c t) (prevAt m c t).2.2.2.2.2 := by
  rw [outsAt0_B m c t h0 h1]
  dsimp only
  exact sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevAt m c t).2.2.2.1 (prevAt m c t).2.2.2.2.1 (prevAt m c t).2.2.2.2.2

theorem acc0_C (c : Dev nD) (t : Fin cfg0.N) (h0 : ¬t.val % 64 = 0) (h1 : t.val % 64 = 63) :
    (outsAt0 m c t.val t.isLt).2.2.2.1 = step1 (blk1 m c t) (blk2 m c t) (prevAt m c t).2.2.2.1 := by
  rw [outsAt0_C m c t h0 h1]
  dsimp only
  exact sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevAt m c t).2.2.2.1 (prevAt m c t).2.2.2.2.1 (prevAt m c t).2.2.2.2.2

theorem acc1_C (c : Dev nD) (t : Fin cfg0.N) (h0 : ¬t.val % 64 = 0) (h1 : t.val % 64 = 63) :
    (outsAt0 m c t.val t.isLt).2.2.2.2.1 = step2 (blk1 m c t) (blk2 m c t) (prevAt m c t).2.2.2.2.1 := by
  rw [outsAt0_C m c t h0 h1]
  dsimp only
  exact sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevAt m c t).2.2.2.1 (prevAt m c t).2.2.2.2.1 (prevAt m c t).2.2.2.2.2

theorem acc2_C (c : Dev nD) (t : Fin cfg0.N) (h0 : ¬t.val % 64 = 0) (h1 : t.val % 64 = 63) :
    (outsAt0 m c t.val t.isLt).2.2.2.2.2 = stepN (blk0 m c t) (blk1 m c t) (prevAt m c t).2.2.2.2.2 := by
  rw [outsAt0_C m c t h0 h1]
  dsimp only
  exact sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevAt m c t).2.2.2.1 (prevAt m c t).2.2.2.2.1 (prevAt m c t).2.2.2.2.2

theorem out3_C (c : Dev nD) (t : Fin cfg0.N) (h0 : ¬t.val % 64 = 0) (h1 : t.val % 64 = 63) :
    (outsAt0 m c t.val t.isLt).1 = k0_pay5 (step1 (blk1 m c t) (blk2 m c t) (prevAt m c t).2.2.2.1) := by
  rw [outsAt0_C m c t h0 h1]
  dsimp only
  exact out_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevAt m c t).2.2.2.1 (prevAt m c t).2.2.2.2.1 (prevAt m c t).2.2.2.2.2

theorem out4_C (c : Dev nD) (t : Fin cfg0.N) (h0 : ¬t.val % 64 = 0) (h1 : t.val % 64 = 63) :
    (outsAt0 m c t.val t.isLt).2.1 = k0_pay6 (step2 (blk1 m c t) (blk2 m c t) (prevAt m c t).2.2.2.2.1) := by
  rw [outsAt0_C m c t h0 h1]
  dsimp only
  exact out_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevAt m c t).2.2.2.1 (prevAt m c t).2.2.2.2.1 (prevAt m c t).2.2.2.2.2

theorem out5_C (c : Dev nD) (t : Fin cfg0.N) (h0 : ¬t.val % 64 = 0) (h1 : t.val % 64 = 63) :
    (outsAt0 m c t.val t.isLt).2.2.1 = k0_pay7 (stepN (blk0 m c t) (blk1 m c t) (prevAt m c t).2.2.2.2.2) := by
  rw [outsAt0_C m c t h0 h1]
  dsimp only
  exact out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevAt m c t).2.2.2.1 (prevAt m c t).2.2.2.2.1 (prevAt m c t).2.2.2.2.2

end Cert.KernelIdeal.KV

end
-- ==== Proof.Spec.lean ====
import Idealize.ShloMosaic.PureOps.Ideal
import Idealize.ShloMosaic.PureOps.Ideal.Laws
import Idealize.ShloMosaic.Lib.ValueIdx
import Mathlib.Algebra.BigOperators.Intervals
import Mathlib.Algebra.BigOperators.Fin

/-!
# The loss, as one function of the three inputs

Inputs: a score matrix `X` (1048576 pixels by 100 labels), a label `T` per pixel, and an image `G`
(1048576 pixels by 3 channels). The loss is `0.7 · (∑ᵣ nll r) / 1048576 + 0.3 · sigmoid (∑ₗ,c std l c)` where

* `nll r = logsumexp (X r) − X r (T r)`, the cross entropy of pixel `r`; here `logsumexp` is taken with
  the row maximum shifted out, `log (∑ₗ exp (X r l − M)) + M`, and the picked score is written as the
  sum over labels of the score masked by "this label is the pixel's";
* `s1 l c = ∑ᵣ [T r = l] · G r c` and `s2 l c = ∑ᵣ [T r = l] · (G r c)²` are the per-label sums of the
  image and of its square, from which the per-label population standard deviation is taken.

This module states the three accumulated quantities as sums over an interval of pixel numbers of a
function of the pixel number that is `0` past the last pixel. A sum over consecutive intervals is then the
sum over their union, which is all the algebra the kernel's block-by-block accumulation needs.
-/

noncomputable section

open scoped BigOperators

namespace Cert.SegLoss

open Idealize.ShloMosaic

/-- The number of pixels. -/
abbrev NPix : Nat := 1048576

/-- The indicator that pixel label `t` is label `l`, as an extended real: `1` or `0`. -/
def hot (t : BitVec 32) (l : Fin 100) : EReal := if t = BitVec.ofNat 32 l.val then 1 else 0

/-- The maximum of a row of scores (the fold of `max` from `−∞`). -/
def rowMax (x : Fin 100 → EReal) : EReal := (Finset.univ : Finset (Fin 100)).fold max ⊥ x

/-- `logsumexp` of a row with the row maximum shifted out. -/
def rowLse (x : Fin 100 → EReal) : EReal :=
  Ideal.log (∑ l : Fin 100, Ideal.exp (x l - rowMax x)) + rowMax x

/-- The score of the pixel's own label, as a masked sum over the labels. -/
def rowPick (x : Fin 100 → EReal) (t : BitVec 32) : EReal :=
  ∑ l : Fin 100, if t = BitVec.ofNat 32 l.val then x l else 0

/-- The cross entropy of one pixel. -/
def rowNll (x : Fin 100 → EReal) (t : BitVec 32) : EReal := rowLse x - rowPick x t

section totals

variable (X : Fin NPix → Fin 100 → EReal) (T : Fin NPix → BitVec 32) (G : Fin NPix → Fin 3 → EReal)

/-- Pixel `r`'s cross entropy; `0` past the last pixel. -/
def nllAt (r : ℕ) : EReal := if h : r < NPix then rowNll (X ⟨r, h⟩) (T ⟨r, h⟩) else 0

/-- Pixel `r`'s contribution to label `l`'s sum of channel `c`; `0` past the last pixel. -/
def s1At (l : Fin 100) (c : Fin 3) (r : ℕ) : EReal :=
  if h : r < NPix then hot (T ⟨r, h⟩) l * G ⟨r, h⟩ c else 0

/-- Pixel `r`'s contribution to label `l`'s sum of the square of channel `c`; `0` past the last pixel. -/
def s2At (l : Fin 100) (c : Fin 3) (r : ℕ) : EReal :=
  if h : r < NPix then hot (T ⟨r, h⟩) l * (G ⟨r, h⟩ c * G ⟨r, h⟩ c) else 0

end totals

/-- The score matrix as a function of pixel and label. -/
def Xof (x : FVec Ideal ⟨2, ![1048576, 100]⟩ .f32) : Fin NPix → Fin 100 → EReal := fun r l => x (ValueIdx.ix2 r l)

/-- The labels, given as a vector, as a function of the pixel. -/
def Tof (t : IVec ⟨1, ![1048576]⟩ 32) : Fin NPix → BitVec 32 := fun r => t (ValueIdx.ix1 r)

/-- The image, flattened to pixels by channels, as a function of pixel and channel. -/
def Gof (g : FVec Ideal ⟨2, ![1048576, 3]⟩ .f32) : Fin NPix → Fin 3 → EReal := fun r k => g (ValueIdx.ix2 r k)

/-- The sum of `f` over the pixel numbers `a ≤ r < b`. -/
def seg (f : ℕ → EReal) (a b : ℕ) : EReal := ∑ r ∈ Finset.Ico a b, f r

theorem seg_self (f : ℕ → EReal) (a : ℕ) : seg f a a = 0 := by
  unfold seg; rw [Finset.Ico_self, Finset.sum_empty]

/-- Consecutive intervals add. -/
theorem seg_add (f : ℕ → EReal) {a b c : ℕ} (hab : a ≤ b) (hbc : b ≤ c) : seg f a b + seg f b c = seg f a c :=
  Finset.sum_Ico_consecutive f hab hbc

/-- A run of `K` consecutive pixels from `a`, summed by its offset, is the interval's sum. -/
theorem sum_fin_eq_seg (f : ℕ → EReal) (a K : ℕ) : ∑ q : Fin K, f (a + q.val) = seg f a (a + K) := by
  unfold seg
  rw [Finset.sum_Ico_eq_sum_range, Nat.add_sub_cancel_left, Finset.sum_range]

/-- The sum over all pixels, by pixel number. -/
theorem sum_all_eq_seg (f : ℕ → EReal) : ∑ r : Fin NPix, f r.val = seg f 0 NPix := by
  have := sum_fin_eq_seg f 0 NPix
  simpa using this

end Cert.SegLoss

end
-- ==== Proof.KStepSums.lean ====
import proofs.«403517_j57982058496130_3_alg».proof.Proof.KSteps
import proofs.«403517_j57982058496130_3_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The two per-label image sums' accumulator updates, read at an index

At the ideal values a float is an extended real and every operation the exact one. A grid point adds to the
accumulator of the per-label image sums, at label `l` and channel `k`, the 8192 contributions
`[label of pixel = l] · pixel's channel k` of its block, as two halves of 4096: in each half the one-hot matrix of the
labels (4096 × 100, a compare of the label with the lane number, read as the number 1 or 0) is multiplied, contracting the
4096 rows, with the half's pixels (4096 × 3), or with their squares. This module reads that at one `(l, k)`:
`step1 x1 x2 acc (l, k) = acc (l, k) + ∑ over the block's pixels`, the sum written as the sum over the interval of pixel
numbers `a … a + 8191` of any function that is the contribution there; likewise `step2` with the squared pixel. It
also reads the stored zeros and the outputs' re-laying with a leading unit axis.
-/

noncomputable section

open scoped BigOperators

namespace Cert.KernelIdeal.KV
open Cert.KernelIdeal Cert.KernelIdeal.Gen Cert.SegLoss Idealize.ShloMosaic Idealize.ShloMosaic.ValueIdx

/-- The stored zeros. -/
theorem pay8_apply (l : Fin 100) (k : Fin 3) : (k0_pay8 (F := Ideal)) (ix2 l k) = 0 := by
  unfold k0_pay8
  rw [shapeCast_self]
  exact Ideal.ofBits_zero_f32

theorem pay9_apply (l : Fin 100) (k : Fin 3) : (k0_pay9 (F := Ideal)) (ix2 l k) = 0 := by
  unfold k0_pay9
  rw [shapeCast_self]
  exact Ideal.ofBits_zero_f32

/-- The outputs' re-laying with a leading unit axis. -/
theorem pay5_apply (v : Vec Ideal S100x3 .f32) (l : Fin 100) (k : Fin 3) : k0_pay5 v (ix3 0 l k) = v (ix2 l k) := by
  unfold k0_pay5
  exact shapeCast_ab_1ab_apply v _ 0 l k

theorem pay6_apply (v : Vec Ideal S100x3 .f32) (l : Fin 100) (k : Fin 3) : k0_pay6 v (ix3 0 l k) = v (ix2 l k) := by
  unfold k0_pay6
  exact shapeCast_ab_1ab_apply v _ 0 l k

namespace Sums

/-- A one-bit compare for equality, widened to 32 bits and read as a signed integer, is 1 where the words are equal and 0
    where they are not. -/
theorem hot_word (t u : BitVec 32) :
    (((BitVec.setWidth 32 (IntOp.cmpi .eq t u)).toInt : ℝ) : EReal) = if t = u then 1 else 0 := by
  by_cases h : t = u
  · subst h
    have e : IntOp.cmpi .eq t t = 1#1 := by simp [IntOp.cmpi]
    rw [e, if_pos rfl]
    simp
  · have hb : (t == u) = false := beq_eq_false_iff_ne.mpr h
    have e : IntOp.cmpi .eq t u = 0#1 := by simp [IntOp.cmpi, hb]
    rw [e, if_neg h]
    simp

/-- The label compare of the first half at row q, lane l. -/
theorem pay12_apply (t : Vec Ideal S4096x1 .i32) (q : Fin 4096) (l : Fin 100) :
    k0_pay12 (F := Ideal) t (ix2 q l) = IntOp.cmpi .eq (t (ix2 q 0)) (BitVec.ofNat 32 l.val) := by
  unfold k0_pay12
  show IntOp.cmpi .eq (broadcastTo S4096x100 (shapeCast S4096x1 t _) _ (ix2 q l)) (iota .tc S4096x100 32 [1] _ (ix2 q l)) = _
  rw [shapeCast_self, iota_single_apply,
    broadcastTo_apply t _ (ix2 q l) (ix2 q 0) (fun a => by
      match a with
      | ⟨0, _⟩ => rfl
      | ⟨1, _⟩ => rfl)]

/-- The same compare in the second half. -/
theorem pay20_apply (t : Vec Ideal S4096x1 .i32) (q : Fin 4096) (l : Fin 100) :
    k0_pay20 (F := Ideal) t (ix2 q l) = IntOp.cmpi .eq (t (ix2 q 0)) (BitVec.ofNat 32 l.val) := by
  unfold k0_pay20
  show IntOp.cmpi .eq (broadcastTo S4096x100 (shapeCast S4096x1 t _) _ (ix2 q l)) (iota .tc S4096x100 32 [1] _ (ix2 q l)) = _
  rw [shapeCast_self, iota_single_apply,
    broadcastTo_apply t _ (ix2 q l) (ix2 q 0) (fun a => by
      match a with
      | ⟨0, _⟩ => rfl
      | ⟨1, _⟩ => rfl)]

/-- The one-hot matrix of the first half's labels: at row q, lane l it is `[label of row q = l]`. -/
theorem pay14_apply (t : Vec Ideal S4096x1 .i32) (q : Fin 4096) (l : Fin 100) :
    k0_pay14 (F := Ideal) t (ix2 q l) = hot (t (ix2 q 0)) l := by
  unfold k0_pay14
  show (((BitVec.setWidth 32 (k0_pay12 (F := Ideal) t (ix2 q l))).toInt : ℝ) : EReal) = _
  rw [pay12_apply]
  exact hot_word _ _

/-- The one-hot matrix of the second half's labels. -/
theorem pay2_apply (t : Vec Ideal S4096x1 .i32) (q : Fin 4096) (l : Fin 100) :
    k0_pay2 (F := Ideal) (k0_pay20 (F := Ideal) t) (ix2 q l) = hot (t (ix2 q 0)) l := by
  unfold k0_pay2
  show (((BitVec.setWidth 32 (k0_pay20 (F := Ideal) t (ix2 q l))).toInt : ℝ) : EReal) = _
  rw [pay20_apply]
  exact hot_word _ _

/-! The matrix product's operand indices, axis by axis. -/

theorem lhs_mm_0 (i : S100x3.Idx) (q : dot_S4096x100_S4096x3_S100x3_0_0_1_1_n_n.contr.Idx) :
    (dot_S4096x100_S4096x3_S100x3_0_0_1_1_n_n.lhsIdx i q 0).val = (q ⟨0, by decide⟩).val :=
  dot_S4096x100_S4096x3_S100x3_0_0_1_1_n_n.lhsIdx_val_of_single rfl i q

theorem lhs_mm_1 (i : S100x3.Idx) (q : dot_S4096x100_S4096x3_S100x3_0_0_1_1_n_n.contr.Idx) :
    (dot_S4096x100_S4096x3_S100x3_0_0_1_1_n_n.lhsIdx i q 1).val = (i 0).val := by
  unfold DotDims.lhsIdx
  rw [dif_neg (show ¬(1 : Fin S4096x100.rank) ∈ dot_S4096x100_S4096x3_S100x3_0_0_1_1_n_n.lhsBatch by decide),
    dif_pos (show (1 : Fin S4096x100.rank) ∈ dot_S4096x100_S4096x3_S100x3_0_0_1_1_n_n.lhsNonContracting by decide)]
  rfl

theorem rhs_mm_0 (i : S100x3.Idx) (q : dot_S4096x100_S4096x3_S100x3_0_0_1_1_n_n.contr.Idx) :
    (dot_S4096x100_S4096x3_S100x3_0_0_1_1_n_n.rhsIdx i q 0).val = (q ⟨0, by decide⟩).val :=
  dot_S4096x100_S4096x3_S100x3_0_0_1_1_n_n.rhsIdx_val_of_single rfl i q

theorem rhs_mm_1 (i : S100x3.Idx) (q : dot_S4096x100_S4096x3_S100x3_0_0_1_1_n_n.contr.Idx) :
    (dot_S4096x100_S4096x3_S100x3_0_0_1_1_n_n.rhsIdx i q 1).val = (i 1).val := by
  unfold DotDims.rhsIdx
  rw [dif_neg (show ¬(1 : Fin S4096x3.rank) ∈ dot_S4096x100_S4096x3_S100x3_0_0_1_1_n_n.rhsBatch by decide),
    dif_pos (show (1 : Fin S4096x3.rank) ∈ dot_S4096x100_S4096x3_S100x3_0_0_1_1_n_n.rhsNonContracting by decide)]
  rfl

/-- The matrix product contracts the 4096 rows of both operands: at label l, channel k it is the accumulator there plus
    the sum over the rows of the products. -/
theorem mm_apply (A : FVec Ideal S4096x100 .bf16) (B : FVec Ideal S4096x3 .bf16) (acc : FVec Ideal S100x3 .f32)
    (l : Fin 100) (k : Fin 3) :
    matmul dot_S4096x100_S4096x3_S100x3_0_0_1_1_n_n none A B acc (ix2 l k) = acc (ix2 l k) + ∑ q : Fin 4096, A (ix2 q l) * B (ix2 q k) := by
  show FloatOps.matmul dot_S4096x100_S4096x3_S100x3_0_0_1_1_n_n none A B acc (ix2 l k) = _
  rw [Ideal.matmul_apply, ← Equiv.sum_comp (contrEquiv1 dot_S4096x100_S4096x3_S100x3_0_0_1_1_n_n 4096 rfl rfl).symm]
  refine congrArg (acc (ix2 l k) + ·) (Finset.sum_congr rfl fun q _ => ?_)
  have hk := contrEquiv1_symm_val dot_S4096x100_S4096x3_S100x3_0_0_1_1_n_n 4096 rfl rfl q
  have el : dot_S4096x100_S4096x3_S100x3_0_0_1_1_n_n.lhsIdx (ix2 l k) ((contrEquiv1 dot_S4096x100_S4096x3_S100x3_0_0_1_1_n_n 4096 rfl rfl).symm q) = ix2 q l :=
    funext fun a => Fin.ext (by
      match a with
      | ⟨0, _⟩ => exact (lhs_mm_0 _ _).trans hk
      | ⟨1, _⟩ => exact lhs_mm_1 _ _)
  have er : dot_S4096x100_S4096x3_S100x3_0_0_1_1_n_n.rhsIdx (ix2 l k) ((contrEquiv1 dot_S4096x100_S4096x3_S100x3_0_0_1_1_n_n 4096 rfl rfl).symm q) = ix2 q k :=
    funext fun a => Fin.ext (by
      match a with
      | ⟨0, _⟩ => exact (rhs_mm_0 _ _).trans hk
      | ⟨1, _⟩ => exact rhs_mm_1 _ _)
  rw [el, er]

/-! The payloads around the matrix product, read at an index. -/

theorem pay15_apply (g : Vec Ideal S4096x3 .f32) (q : Fin 4096) (k : Fin 3) :
    k0_pay15 g (ix2 q k) = g (ix2 q k) := by
  unfold k0_pay15 k0_pay11
  rw [shapeCast_self]
  rfl

theorem pay16_apply (g : Vec Ideal S4096x3 .f32) (q : Fin 4096) (k : Fin 3) :
    k0_pay16 g (ix2 q k) = g (ix2 q k) * g (ix2 q k) := by
  unfold k0_pay16 k0_pay11
  rw [shapeCast_self]
  rfl

theorem pay19_apply (g : Vec Ideal S4096x3 .f32) (q : Fin 4096) (k : Fin 3) :
    k0_pay19 g (ix2 q k) = g (ix2 q k) := by
  unfold k0_pay19
  rw [shapeCast_self]

theorem pay17_apply (A : FVec Ideal S4096x100 .bf16) (B : FVec Ideal S4096x3 .bf16) (acc : Vec Ideal S100x3 .f32)
    (l : Fin 100) (k : Fin 3) :
    k0_pay17 A B (constant (F := Ideal) S100x3 .f32 0#32) acc (ix2 l k)
      = acc (ix2 l k) + ∑ q : Fin 4096, A (ix2 q l) * B (ix2 q k) := by
  unfold k0_pay17
  rw [shapeCast_self]
  show acc (ix2 l k) + matmul dot_S4096x100_S4096x3_S100x3_0_0_1_1_n_n none A B (constant (F := Ideal) S100x3 .f32 0#32) (ix2 l k) = _
  rw [mm_apply]
  show acc (ix2 l k) + (Ideal.ofBits .f32 0x00000000#32 + _) = _
  rw [Ideal.ofBits_zero_f32, zero_add]

theorem pay18_apply (A : FVec Ideal S4096x100 .bf16) (B : FVec Ideal S4096x3 .bf16) (acc : Vec Ideal S100x3 .f32)
    (l : Fin 100) (k : Fin 3) :
    k0_pay18 A B acc (ix2 l k) = acc (ix2 l k) + ∑ q : Fin 4096, A (ix2 q l) * B (ix2 q k) := by
  unfold k0_pay18
  rw [shapeCast_self]
  show acc (ix2 l k) + matmul dot_S4096x100_S4096x3_S100x3_0_0_1_1_n_n none A B (constant (F := Ideal) S100x3 .f32 0x00000000#32) (ix2 l k) = _
  rw [mm_apply]
  show acc (ix2 l k) + (Ideal.ofBits .f32 0x00000000#32 + _) = _
  rw [Ideal.ofBits_zero_f32, zero_add]

theorem pay3_apply (g : FVec Ideal S4096x3 .f32) (c : IVec S4096x100 1) (acc : Vec Ideal S100x3 .f32)
    (l : Fin 100) (k : Fin 3) :
    k0_pay3 g c acc (ix2 l k) = acc (ix2 l k) + ∑ q : Fin 4096, k0_pay2 (F := Ideal) c (ix2 q l) * g (ix2 q k) := by
  unfold k0_pay3
  rw [shapeCast_self]
  show acc (ix2 l k) + matmul dot_S4096x100_S4096x3_S100x3_0_0_1_1_n_n none (k0_pay2 (F := Ideal) c) (truncf .bf16 g _)
    (constant (F := Ideal) S100x3 .f32 0x00000000#32) (ix2 l k) = _
  rw [mm_apply]
  show acc (ix2 l k) + (Ideal.ofBits .f32 0x00000000#32 + _) = _
  rw [Ideal.ofBits_zero_f32, zero_add]
  rfl

theorem pay4_apply (g : FVec Ideal S4096x3 .f32) (c : IVec S4096x100 1) (acc : Vec Ideal S100x3 .f32)
    (l : Fin 100) (k : Fin 3) :
    k0_pay4 g c acc (ix2 l k)
      = acc (ix2 l k) + ∑ q : Fin 4096, k0_pay2 (F := Ideal) c (ix2 q l) * (g (ix2 q k) * g (ix2 q k)) := by
  unfold k0_pay4
  rw [shapeCast_self]
  show acc (ix2 l k) + matmul dot_S4096x100_S4096x3_S100x3_0_0_1_1_n_n none (k0_pay2 (F := Ideal) c) (truncf .bf16 (mulf g g) _)
    (constant (F := Ideal) S100x3 .f32 0x00000000#32) (ix2 l k) = _
  rw [mm_apply]
  show acc (ix2 l k) + (Ideal.ofBits .f32 0x00000000#32 + _) = _
  rw [Ideal.ofBits_zero_f32, zero_add]
  rfl

/-! One half's contribution to each accumulator. -/

theorem sum1_lo (t : Vec Ideal S4096x1 .i32) (g : Vec Ideal S4096x3 .f32) (acc : Vec Ideal S100x3 .f32)
    (l : Fin 100) (k : Fin 3) :
    k0_pay17 (k0_pay14 t) (k0_pay15 g) (constant (F := Ideal) S100x3 .f32 0#32) acc (ix2 l k)
      = acc (ix2 l k) + ∑ q : Fin 4096, hot (t (ix2 q 0)) l * g (ix2 q k) := by
  rw [pay17_apply]
  refine congrArg (acc (ix2 l k) + ·) (Finset.sum_congr rfl fun q _ => ?_)
  rw [pay14_apply, pay15_apply]

theorem sum1_hi (t : Vec Ideal S4096x1 .i32) (g : Vec Ideal S4096x3 .f32) (acc : Vec Ideal S100x3 .f32)
    (l : Fin 100) (k : Fin 3) :
    k0_pay3 (k0_pay19 g) (k0_pay20 t) acc (ix2 l k)
      = acc (ix2 l k) + ∑ q : Fin 4096, hot (t (ix2 q 0)) l * g (ix2 q k) := by
  rw [pay3_apply]
  refine congrArg (acc (ix2 l k) + ·) (Finset.sum_congr rfl fun q _ => ?_)
  rw [pay2_apply, pay19_apply]

theorem sum2_lo (t : Vec Ideal S4096x1 .i32) (g : Vec Ideal S4096x3 .f32) (acc : Vec Ideal S100x3 .f32)
    (l : Fin 100) (k : Fin 3) :
    k0_pay18 (k0_pay14 t) (k0_pay16 g) acc (ix2 l k)
      = acc (ix2 l k) + ∑ q : Fin 4096, hot (t (ix2 q 0)) l * (g (ix2 q k) * g (ix2 q k)) := by
  rw [pay18_apply]
  refine congrArg (acc (ix2 l k) + ·) (Finset.sum_congr rfl fun q _ => ?_)
  rw [pay14_apply, pay16_apply]

theorem sum2_hi (t : Vec Ideal S4096x1 .i32) (g : Vec Ideal S4096x3 .f32) (acc : Vec Ideal S100x3 .f32)
    (l : Fin 100) (k : Fin 3) :
    k0_pay4 (k0_pay19 g) (k0_pay20 t) acc (ix2 l k)
      = acc (ix2 l k) + ∑ q : Fin 4096, hot (t (ix2 q 0)) l * (g (ix2 q k) * g (ix2 q k)) := by
  rw [pay4_apply]
  refine congrArg (acc (ix2 l k) + ·) (Finset.sum_congr rfl fun q _ => ?_)
  rw [pay2_apply, pay19_apply]

/-! The halves of a block read at a row. -/

theorem lo1_apply (x1 : Vec Ideal S8192x1 .i32) (q : Fin 4096) :
    lo1 x1 (ix2 q 0) = x1 (ix2 (⟨q.val, by have := q.isLt; omega⟩ : Fin 8192) 0) :=
  congrArg x1 (funext fun a => Fin.ext (by
    match a with
    | ⟨0, _⟩ => show 0 + 1 * q.val = q.val; omega
    | ⟨1, _⟩ => rfl))

theorem hi1_apply (x1 : Vec Ideal S8192x1 .i32) (q : Fin 4096) :
    hi1 x1 (ix2 q 0) = x1 (ix2 (⟨4096 + q.val, by have := q.isLt; omega⟩ : Fin 8192) 0) :=
  congrArg x1 (funext fun a => Fin.ext (by
    match a with
    | ⟨0, _⟩ => show 4096 + 1 * q.val = 4096 + q.val; omega
    | ⟨1, _⟩ => rfl))

theorem lo2_apply (x2 : Vec Ideal S8192x3 .f32) (q : Fin 4096) (k : Fin 3) :
    lo2 x2 (ix2 q k) = x2 (ix2 (⟨q.val, by have := q.isLt; omega⟩ : Fin 8192) k) :=
  congrArg x2 (funext fun a => Fin.ext (by
    match a with
    | ⟨0, _⟩ => show 0 + 1 * q.val = q.val; omega
    | ⟨1, _⟩ => show 0 + 1 * k.val = k.val; omega))

theorem hi2_apply (x2 : Vec Ideal S8192x3 .f32) (q : Fin 4096) (k : Fin 3) :
    hi2 x2 (ix2 q k) = x2 (ix2 (⟨4096 + q.val, by have := q.isLt; omega⟩ : Fin 8192) k) :=
  congrArg x2 (funext fun a => Fin.ext (by
    match a with
    | ⟨0, _⟩ => show 4096 + 1 * q.val = 4096 + q.val; omega
    | ⟨1, _⟩ => show 0 + 1 * k.val = k.val; omega))

/-- Two runs of 4096 consecutive pixels, the second starting where the first ends, sum to the run of 8192. -/
theorem two_halves (f : ℕ → EReal) (a : ℕ) (F₀ F₁ : Fin 4096 → EReal)
    (h0 : ∀ q : Fin 4096, F₀ q = f (a + q.val)) (h1 : ∀ q : Fin 4096, F₁ q = f (a + (4096 + q.val)))
    (z : EReal) : (z + ∑ q, F₀ q) + ∑ q, F₁ q = z + seg f a (a + 8192) := by
  have e0 : ∑ q, F₀ q = seg f a (a + 4096) := by
    rw [← sum_fin_eq_seg]
    exact Finset.sum_congr rfl fun q _ => h0 q
  have e1 : ∑ q, F₁ q = seg f (a + 4096) (a + 8192) := by
    have h := sum_fin_eq_seg f (a + 4096) 4096
    rw [show a + 4096 + 4096 = a + 8192 by omega] at h
    rw [← h]
    refine Finset.sum_congr rfl fun q _ => ?_
    rw [h1 q, Nat.add_assoc]
  rw [e0, e1, add_assoc, seg_add f (by omega) (by omega)]

end Sums

open Sums

/-- The image-sum update at label l, channel k: the accumulator plus the block's 8192 contributions [label = l] · pixel,
    written as the sum over the pixel numbers a … a + 8191 of any function f that is that contribution there. -/
theorem step1_apply (x1 : Vec Ideal S8192x1 .i32) (x2 : Vec Ideal S8192x3 .f32) (acc : Vec Ideal S100x3 .f32) (l : Fin 100) (k : Fin 3)
    (f : ℕ → EReal) (a : ℕ) (hf : ∀ q : Fin 8192, f (a + q.val) = hot (x1 (ix2 q 0)) l * x2 (ix2 q k)) :
    step1 x1 x2 acc (ix2 l k) = acc (ix2 l k) + seg f a (a + 8192) := by
  unfold step1
  rw [sum1_hi, sum1_lo]
  refine two_halves f a _ _ (fun q => ?_) (fun q => ?_) _
  · rw [lo1_apply, lo2_apply]
    exact (hf ⟨q.val, by have := q.isLt; omega⟩).symm
  · rw [hi1_apply, hi2_apply]
    exact (hf ⟨4096 + q.val, by have := q.isLt; omega⟩).symm

/-- The same for the squared image. -/
theorem step2_apply (x1 : Vec Ideal S8192x1 .i32) (x2 : Vec Ideal S8192x3 .f32) (acc : Vec Ideal S100x3 .f32) (l : Fin 100) (k : Fin 3)
    (f : ℕ → EReal) (a : ℕ) (hf : ∀ q : Fin 8192, f (a + q.val) = hot (x1 (ix2 q 0)) l * (x2 (ix2 q k) * x2 (ix2 q k))) :
    step2 x1 x2 acc (ix2 l k) = acc (ix2 l k) + seg f a (a + 8192) := by
  unfold step2
  rw [sum2_hi, sum2_lo]
  refine two_halves f a _ _ (fun q => ?_) (fun q => ?_) _
  · rw [lo1_apply, lo2_apply]
    exact (hf ⟨q.val, by have := q.isLt; omega⟩).symm
  · rw [hi1_apply, hi2_apply]
    exact (hf ⟨4096 + q.val, by have := q.isLt; omega⟩).symm

end Cert.KernelIdeal.KV

end
-- ==== Proof.KStepNll.lean ====
import proofs.«403517_j57982058496130_3_alg».proof.Proof.KSteps
import proofs.«403517_j57982058496130_3_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# The cross-entropy accumulator's update, read at its one index

At a grid point the kernel adds to the `1 × 1` cross-entropy accumulator the cross entropies of the point's 8192
pixels, as two halves of 4096 rows. For each half it takes, row by row, the maximum `M` of the row's 100 scores, the
logarithm of `∑ₗ exp (xₗ − M)` plus `M`, and subtracts the row's score at the row's label, written as the sum over the
lanes of the scores masked by "this lane is the label"; the 4096 results are summed over the rows. The first half's sum
is added to the accumulator, the second half's to that.

This module reads that update at the accumulator's index over the extended reals: each row's result is the
specification's `rowNll` of the row, each half's sum a sum over 4096 consecutive pixel numbers, and the two halves
join into the sum over the block's 8192 consecutive pixel numbers.
-/

noncomputable section

open scoped BigOperators

namespace Cert.KernelIdeal.KV
open Cert.KernelIdeal Cert.KernelIdeal.Gen Cert.SegLoss Idealize.ShloMosaic Idealize.ShloMosaic.ValueIdx

/-! ## Layout operations of the payload, read at an index -/

/-- A vector of `a` entries re-laid as a column `[a, 1]` reads, at `(i, u)`, the vector at `i`. -/
theorem nll_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the lanes to `[a, b]` reads, at `(p, c)`, the column at `(p, 0)`. -/
theorem nll_bcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane maximum of a `4096 × 100` block at row `q`: the row's maximum. -/
theorem nll_lanemax_apply (v : FVec Ideal S4096x100 .f32) (q : Fin 4096) :
    multiReduction (F := Ideal) .maximumf [1] S4096 v 0xFF800000#32 reduces_S4096x100_S4096 (.inl rfl) rfl (ix1 q)
      = rowMax (fun l => v (ix2 q l)) := by
  refine (Ideal.multiReduction_maximumf_single v 0xFF800000#32 reduces_S4096x100_S4096 (.inl rfl) rfl (ix1 q)).trans ?_
  have hbot : FloatOps.ofBits (F := Ideal) .f32 0xFF800000#32 = (⊥ : EReal) := by
    simp [Ideal.ofBits, Ideal.ieee]
  have e : (v ∘ reduces_S4096x100_S4096.lift (ix1 q)) = fun l : Fin 100 => v (ix2 q l) :=
    funext fun l => congrArg v (funext fun a => by fin_cases a <;> rfl)
  unfold rowMax
  rw [hbot, e]
  rfl

/-- The lane sum of a `4096 × 100` block at row `q`: the sum of the row's 100 entries. -/
theorem nll_lanesum_apply (v : FVec Ideal S4096x100 .f32) (q : Fin 4096) :
    multiReduction (F := Ideal) .add [1] S4096 v 0x00000000#32 reduces_S4096x100_S4096 (.inl rfl) rfl (ix1 q)
      = ∑ l : Fin 100, v (ix2 q l) := by
  refine (Ideal.multiReduction_add_single v 0x00000000#32 reduces_S4096x100_S4096 (.inl rfl) rfl (ix1 q)).trans ?_
  exact Finset.sum_congr rfl fun l _ => congrArg v (funext fun a => by fin_cases a <;> rfl)

/-- The sum over the rows of a column `[4096, 1]`, at its one index: the sum of the column's 4096 entries. -/
theorem nll_rowsum_apply (v : FVec Ideal S4096x1 .f32) :
    multiReduction (F := Ideal) .add [0] S1 v 0x00000000#32 reduces_S4096x1_S1 (.inl rfl) rfl (ix1 0)
      = ∑ q : Fin 4096, v (ix2 q 0) := by
  refine (Ideal.multiReduction_add_single v 0x00000000#32 reduces_S4096x1_S1 (.inl rfl) rfl (ix1 0)).trans ?_
  exact Finset.sum_congr rfl fun q _ => congrArg v (funext fun a => by fin_cases a <;> rfl)

/-! ## The pointwise operations of the payload, read at an index -/

/-- An exponential at an index is the exponential of the element. -/
theorem nll_exp_apply {s : Shape} {φ : FTy} (a : FVec Ideal s φ) (i : s.Idx) : exp a i = Ideal.exp (a i) := rfl
/-- A logarithm at an index is the logarithm of the element. -/
theorem nll_log_apply {s : Shape} {φ : FTy} (a : FVec Ideal s φ) (i : s.Idx) : log a i = Ideal.log (a i) := rfl

/-- The stored zero word is the extended real `0`. -/
theorem nll_zero : Scalar.ofBits (F := Ideal) .f32 0x00000000#32 = (0 : EReal) := Ideal.ofBits_zero_f32

/-- A select on "these two words are equal" is the `if` on their equality. -/
theorem nll_select_eq {α : Type} (t w : BitVec 32) (A B : α) :
    Scalar.select (IntOp.cmpi .eq t w) A B = if t = w then A else B := by
  unfold Scalar.select IntOp.cmpi
  by_cases h : t = w
  · subst h; simp
  · have hb : (t == w) = false := beq_false_of_ne h
    simp [hb, h]

/-- The one-hot mask at `(q, l)`: the row's label compared with the lane number. -/
theorem nll_mask_apply (v4 : Vec Ideal S4096x1 .i32) (q : Fin 4096) (l : Fin 100) :
    k0_pay12 (F := Ideal) v4 (ix2 q l) = IntOp.cmpi .eq (v4 (ix2 q 0)) (BitVec.ofNat 32 l.val) := by
  unfold k0_pay12
  show IntOp.cmpi .eq
      (broadcastTo S4096x100 (shapeCast S4096x1 v4 shapeCasts_S4096x1_S4096x1) broadcasts_S4096x1_S4096x100 (ix2 q l))
      (iota .tc S4096x100 32 [1] iota_S4096x100_d1_w32 (ix2 q l)) = _
  rw [nll_bcast_apply, shapeCast_self, iota_single_apply]

/-! ## The column of per-pixel cross entropies of a half block -/

section Column
variable {F : FTy → Type} [FloatOps F]

/-- The column `[4096, 1]` of the rows' maxima. -/
def nllMaxCol (v3 : Vec F S4096x100 .f32) : FVec F S4096x1 .f32 :=
  shapeCast S4096x1 (multiReduction .maximumf [1] S4096 v3 0xFF800000#32 reduces_S4096x100_S4096 (.inl rfl) rfl)
    shapeCasts_S4096_S4096x1

/-- The column of the rows' `logsumexp`: the logarithm of the summed exponentials of the scores less the row maximum,
    plus the row maximum. -/
def nllLseCol (v3 : Vec F S4096x100 .f32) : FVec F S4096x1 .f32 :=
  addf (log (shapeCast S4096x1
      (multiReduction .add [1] S4096 (exp (subf v3 (broadcastTo S4096x100 (nllMaxCol v3) broadcasts_S4096x1_S4096x100)))
        0x00000000#32 reduces_S4096x100_S4096 (.inl rfl) rfl) shapeCasts_S4096_S4096x1)) (nllMaxCol v3)

/-- The column of the rows' picked scores: the lane sum of the scores masked by "this lane is the row's label". -/
def nllPickCol (v3 : Vec F S4096x100 .f32) (v4 : Vec F S4096x1 .i32) : FVec F S4096x1 .f32 :=
  shapeCast S4096x1
    (multiReduction .add [1] S4096 (select (k0_pay12 v4) v3 (broadcast S4096x100 (Scalar.ofBits .f32 0x00000000#32)))
      0x00000000#32 reduces_S4096x100_S4096 (.inl rfl) rfl) shapeCasts_S4096_S4096x1

/-- The column a half block's scores and labels are reduced to before the sum over the rows. -/
def nllColumn (v3 : Vec F S4096x100 .f32) (v4 : Vec F S4096x1 .i32) : FVec F S4096x1 .f32 :=
  subf (nllLseCol v3) (nllPickCol v3 v4)

/-- The first half's payload is the accumulator plus the sum over the rows of that column. -/
theorem nll_pay13_eq (v3 : Vec F S4096x100 .f32) (v4 : Vec F S4096x1 .i32) (v25 : Vec F S1x1 .f32) :
    k0_pay13 v3 v4 v25
      = shapeCast S1x1 (addf v25 (shapeCast S1x1
          (multiReduction .add [0] S1 (nllColumn v3 v4) 0x00000000#32 reduces_S4096x1_S1 (.inl rfl) rfl) shapeCasts_S1_S1x1))
          shapeCasts_S1x1_S1x1 := rfl

/-- The second half's payload is the sum over the rows of that column. -/
theorem nll_pay21_eq (v50 : Vec F S4096x100 .f32) (v51 : Vec F S4096x1 .i32) :
    k0_pay21 v50 v51
      = multiReduction .add [0] S1 (nllColumn v50 v51) 0x00000000#32 reduces_S4096x1_S1 (.inl rfl) rfl := rfl

end Column

/-- The maxima's column at row `q` is the row's maximum. -/
theorem nllMaxCol_apply (v3 : Vec Ideal S4096x100 .f32) (q : Fin 4096) (u : Fin 1) :
    nllMaxCol v3 (ix2 q u) = rowMax (fun l => v3 (ix2 q l)) := by
  unfold nllMaxCol
  rw [nll_col_apply, nll_lanemax_apply]

/-- The `logsumexp` column at row `q` is the row's `logsumexp`. -/
theorem nllLseCol_apply (v3 : Vec Ideal S4096x100 .f32) (q : Fin 4096) :
    nllLseCol v3 (ix2 q 0) = rowLse (fun l => v3 (ix2 q l)) := by
  unfold nllLseCol
  rw [addf_apply, nll_log_apply, nll_col_apply, nllMaxCol_apply, nll_lanesum_apply]
  unfold rowLse
  refine congrArg (fun s => Ideal.log s + rowMax fun l => v3 (ix2 q l)) (Finset.sum_congr rfl fun l _ => ?_)
  rw [nll_exp_apply, subf_apply, nll_bcast_apply, nllMaxCol_apply]

/-- The picked-score column at row `q` is the row's score at the row's label. -/
theorem nllPickCol_apply (v3 : Vec Ideal S4096x100 .f32) (v4 : Vec Ideal S4096x1 .i32) (q : Fin 4096) :
    nllPickCol v3 v4 (ix2 q 0) = rowPick (fun l => v3 (ix2 q l)) (v4 (ix2 q 0)) := by
  unfold nllPickCol
  rw [nll_col_apply, nll_lanesum_apply]
  unfold rowPick
  refine Finset.sum_congr rfl fun l _ => ?_
  rw [select_apply, broadcast_apply, nll_mask_apply, nll_select_eq, nll_zero]

/-- The column at row `q` is the cross entropy of that row's scores against that row's label. -/
theorem nllColumn_apply (v3 : Vec Ideal S4096x100 .f32) (v4 : Vec Ideal S4096x1 .i32) (q : Fin 4096) :
    nllColumn v3 v4 (ix2 q 0) = rowNll (fun l => v3 (ix2 q l)) (v4 (ix2 q 0)) := by
  unfold nllColumn rowNll
  rw [subf_apply, nllLseCol_apply, nllPickCol_apply]

/-! ## The two half payloads and the joining add, read at the accumulator's one index -/

/-- The first half: the accumulator plus the sum over the half's 4096 rows of the row's cross entropy. -/
theorem nll_pay13_apply (v3 : Vec Ideal S4096x100 .f32) (v4 : Vec Ideal S4096x1 .i32) (v25 : Vec Ideal S1x1 .f32) :
    k0_pay13 v3 v4 v25 (ix2 0 0)
      = v25 (ix2 0 0) + ∑ q : Fin 4096, rowNll (fun l => v3 (ix2 q l)) (v4 (ix2 q 0)) := by
  rw [nll_pay13_eq, shapeCast_self, addf_apply, nll_col_apply, nll_rowsum_apply]
  exact congrArg (v25 (ix2 0 0) + ·) (Finset.sum_congr rfl fun q _ => nllColumn_apply v3 v4 q)

/-- The second half: the sum over the half's 4096 rows of the row's cross entropy. -/
theorem nll_pay21_apply (v50 : Vec Ideal S4096x100 .f32) (v51 : Vec Ideal S4096x1 .i32) :
    k0_pay21 v50 v51 (ix1 0) = ∑ q : Fin 4096, rowNll (fun l => v50 (ix2 q l)) (v51 (ix2 q 0)) := by
  rw [nll_pay21_eq, nll_rowsum_apply]
  exact Finset.sum_congr rfl fun q _ => nllColumn_apply v50 v51 q

/-- The joining add: the first half's result plus the second half's sum. -/
theorem nll_pay1_apply (v72 : Vec Ideal S1x1 .f32) (v73 : FVec Ideal S1 .f32) :
    k0_pay1 v72 v73 (ix2 0 0) = v72 (ix2 0 0) + v73 (ix1 0) := by
  unfold k0_pay1
  show shapeCast S1x1 (addf v72 (shapeCast S1x1 v73 shapeCasts_S1_S1x1)) shapeCasts_S1x1_S1x1 (ix2 0 0) = _
  rw [shapeCast_self, addf_apply, nll_col_apply]

/-- The stored zero. -/
theorem pay10_apply : (k0_pay10 (F := Ideal)) (ix2 0 0) = 0 := by
  unfold k0_pay10
  show shapeCast S1x1 (broadcast S1x1 (Scalar.ofBits (F := Ideal) .f32 0x00000000#32)) shapeCasts_S1x1_S1x1 (ix2 0 0) = 0
  rw [shapeCast_self, broadcast_apply, nll_zero]

/-- The output's re-laying with a leading unit axis. -/
theorem pay7_apply (v : Vec Ideal S1x1 .f32) : k0_pay7 v (ix3 0 0 0) = v (ix2 0 0) := by
  unfold k0_pay7
  exact shapeCast_ab_1ab_apply v shapeCasts_S1x1_S1x1x1 0 0 0

/-! ## The halves of a block, read at an index -/

/-- Row `q` of the first half of the scores is row `q` of the block. -/
theorem nll_lo0_apply (x0 : Vec Ideal S8192x100 .f32) (q : Fin 4096) (l : Fin 100) :
    lo0 x0 (ix2 q l) = x0 (ix2 (⟨q.val, Nat.lt_trans q.isLt (by decide)⟩ : Fin 8192) l) :=
  congrArg x0 (funext fun a => Fin.ext (by
    match a with
    | ⟨0, _⟩ => show 0 + 1 * q.val = q.val; omega
    | ⟨1, _⟩ => show 0 + 1 * l.val = l.val; omega))

/-- Row `q` of the first half of the labels is row `q` of the block. -/
theorem nll_lo1_apply (x1 : Vec Ideal S8192x1 .i32) (q : Fin 4096) :
    lo1 x1 (ix2 q 0) = x1 (ix2 (⟨q.val, Nat.lt_trans q.isLt (by decide)⟩ : Fin 8192) 0) :=
  congrArg x1 (funext fun a => Fin.ext (by
    match a with
    | ⟨0, _⟩ => show 0 + 1 * q.val = q.val; omega
    | ⟨1, _⟩ => rfl))

/-- Row `q` of the second half of the scores is row `4096 + q` of the block. -/
theorem nll_hi0_apply (x0 : Vec Ideal S8192x100 .f32) (q : Fin 4096) (l : Fin 100) :
    hi0 x0 (ix2 q l) = x0 (ix2 (⟨4096 + q.val, by have := q.isLt; omega⟩ : Fin 8192) l) :=
  congrArg x0 (funext fun a => Fin.ext (by
    match a with
    | ⟨0, _⟩ => show 4096 + 1 * q.val = 4096 + q.val; omega
    | ⟨1, _⟩ => show 0 + 1 * l.val = l.val; omega))

/-- Row `q` of the second half of the labels is row `4096 + q` of the block. -/
theorem nll_hi1_apply (x1 : Vec Ideal S8192x1 .i32) (q : Fin 4096) :
    hi1 x1 (ix2 q 0) = x1 (ix2 (⟨4096 + q.val, by have := q.isLt; omega⟩ : Fin 8192) 0) :=
  congrArg x1 (funext fun a => Fin.ext (by
    match a with
    | ⟨0, _⟩ => show 4096 + 1 * q.val = 4096 + q.val; omega
    | ⟨1, _⟩ => rfl))

/-! ## The update -/

/-- The cross-entropy update: the accumulator plus the block's 8192 per-pixel cross entropies, written as the sum over
    the pixel numbers a … a + 8191 of any function f that is the pixel's cross entropy there. -/
theorem stepN_apply (x0 : Vec Ideal S8192x100 .f32) (x1 : Vec Ideal S8192x1 .i32) (acc : Vec Ideal S1x1 .f32)
    (f : ℕ → EReal) (a : ℕ) (hf : ∀ q : Fin 8192, f (a + q.val) = rowNll (fun l => x0 (ix2 q l)) (x1 (ix2 q 0))) :
    stepN x0 x1 acc (ix2 0 0) = acc (ix2 0 0) + seg f a (a + 8192) := by
  have h0 : ∀ q : Fin 4096, rowNll (fun l => lo0 x0 (ix2 q l)) (lo1 x1 (ix2 q 0)) = f (a + q.val) := fun q => by
    rw [nll_lo1_apply, funext fun l => nll_lo0_apply x0 q l]
    exact (hf ⟨q.val, Nat.lt_trans q.isLt (by decide)⟩).symm
  have h1 : ∀ q : Fin 4096, rowNll (fun l => hi0 x0 (ix2 q l)) (hi1 x1 (ix2 q 0)) = f (a + 4096 + q.val) := fun q => by
    rw [nll_hi1_apply, funext fun l => nll_hi0_apply x0 q l, Nat.add_assoc]
    exact (hf ⟨4096 + q.val, by have := q.isLt; omega⟩).symm
  unfold stepN
  rw [nll_pay1_apply, nll_pay13_apply, nll_pay21_apply, Finset.sum_congr rfl fun q _ => h0 q,
    Finset.sum_congr rfl fun q _ => h1 q, sum_fin_eq_seg f a 4096, sum_fin_eq_seg f (a + 4096) 4096, add_assoc,
    seg_add f (Nat.le_add_right _ _) (Nat.le_add_right _ _), Nat.add_assoc]

end Cert.KernelIdeal.KV

end
-- ==== Proof.KBlocks.lean ====
import proofs.«403517_j57982058496130_3_alg».proof.Proof.Gen.KernelIdeal.Frame
import proofs.«403517_j57982058496130_3_alg».proof.Proof.Spec
import proofs.«403517_j57982058496130_3_alg».proof.Proof.KBlk
import Idealize.ShloMosaic.Lib.Pipeline.Value
import Idealize.ShloMosaic.Lib.ValueIdx
import Idealize.ShloMosaic.Lib.ValueLayout
import Idealize.ShloMosaic.Lib.StableHlo.Run

/-!
# What the three input windows read

The grid has 128 points, numbered row-major over its two axes (2 by 64), and every input window's block
index at point `t` is `(t, 0)`: block `t` of an array with 1048576 rows is its rows
`t · 8192 … t · 8192 + 8191`, all columns. A block's entry `(q, l)` is therefore the array's entry
`(t · 8192 + q, l)`: a block coordinate is the block index times the block size plus the coordinate inside.

The scores are read as launched. The labels are read through a recast of the label vector to one column,
whose row `r` is the vector's entry `r` (both have row-major position `r`). The image is read through
its recast from 1024 × 1024 × 3 to 1048576 × 3, which is kept as one named array.
-/

set_option maxRecDepth 16384

noncomputable section

namespace Cert.KernelIdeal.KV
open Cert.KernelIdeal Cert.KernelIdeal.Gen Cert.SegLoss Idealize.ShloMosaic Idealize.ShloMosaic.TcCoe Idealize.SL.Sem Idealize.ShloMosaic.ValueIdx

variable (m : (ℓ : Loc nD τ sig) → Buf (Elt Ideal) ℓ)

/-- The flattened image as the region finds it. -/
abbrev flatImg (c : Dev nD) : FVec Ideal S1048576x3 .f32 := V m c main_v0

/-- It is the launched image recast to pixels by channels. -/
theorem flatImg_eq (c : Dev nD) : flatImg m c = shapeCast S1048576x3 (m ((c : Thread nD τ).loc main_arg2)) shapeCasts_S1024x1024x3_S1048576x3 := by
  show StableHlo.after hostOps0 (fun b => m (c, b)) (Proc.devRef .tc main_v0) = _
  after_results
  rfl

/-- The label column as the region finds it: the label vector recast to one column. -/
theorem labelCol_eq (c : Dev nD) : (V m c main_v1 : S1048576x1.Idx → BitVec 32)
    = shapeCast S1048576x1 (m ((c : Thread nD τ).loc main_arg1)) shapeCasts_S1048576_S1048576x1 := by
  show StableHlo.after hostOps0 (fun b => m (c, b)) (Proc.devRef .tc main_v1) = _
  after_results
  rfl

/-- A pixel number inside block t: t < 128 and q < 8192 give t · 8192 + q < 1048576. -/
theorem pix_lt (t : Fin cfg0.N) (q : Fin 8192) : t.val * 8192 + q.val < NPix := by
  have h := t.isLt
  have hN : cfg0.N = 128 := N_0
  have hq := q.isLt
  show t.val * 8192 + q.val < 1048576
  omega

/-- Window 0's block index at point t is (t, 0); likewise windows 1 and 2. -/
theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = t.val ∧ win0_2.index t (1 : Fin 2) = 0 := by decide +kernel

/-- A vector recast to one column reads, at row r of the column, the vector's entry r. -/
theorem col_read (x : IVec S1048576 32) (h : S1048576.ShapeCasts S1048576x1) (j : S1048576x1.Idx) (r : Fin 1048576)
    (hj : (j 0).val = r.val) : shapeCast S1048576x1 x h j = x (ix1 r) :=
  shapeCast_apply x h j (ix1 r) (by
    rw [Shape.rowMajor_val_one, Shape.rowMajor_val_two]
    have h1 : (j 1).val < 1 := (j 1).isLt
    show r.val = (j 0).val * 1 + (j 1).val
    omega)

/-- Entry (q, l) of block t of the scores is the score of pixel t · 8192 + q for label l. -/
theorem blk0_apply (c : Dev nD) (t : Fin cfg0.N) (q : Fin 8192) (l : Fin 100) :
    blk0 m c t (ix2 q l) = Xof (m ((c : Thread nD τ).loc main_arg0)) ⟨t.val * 8192 + q.val, pix_lt t q⟩ l := by
  show iblk m c 0 t (ix2 q l) = _
  unfold iblk
  rw [View.read_apply]
  show V m c main_arg0 (((cfg0.win 0).blk t).view.emb (ix2 q l))
    = m ((c : Thread nD τ).loc main_arg0) (ix2 ⟨t.val * 8192 + q.val, pix_lt t q⟩ l)
  rw [V_main_arg0]
  congr 1
  funext a
  apply Fin.ext
  match a with
  | ⟨0, _⟩ => show win0_0.index t 0 * 8192 + 1 * q.val = t.val * 8192 + q.val; rw [(idx0 t).1]; omega
  | ⟨1, _⟩ => show win0_0.index t 1 * 100 + 1 * l.val = l.val; rw [(idx0 t).2]; omega

/-- Entry (q, 0) of block t of the label column is the label of pixel t · 8192 + q. -/
theorem blk1_apply (c : Dev nD) (t : Fin cfg0.N) (q : Fin 8192) :
    blk1 m c t (ix2 q 0) = Tof (m ((c : Thread nD τ).loc main_arg1)) ⟨t.val * 8192 + q.val, pix_lt t q⟩ := by
  show iblk m c 1 t (ix2 q 0) = _
  unfold iblk
  rw [View.read_apply]
  show (V m c main_v1 : S1048576x1.Idx → BitVec 32) (((cfg0.win 1).blk t).view.emb (ix2 q 0))
    = m ((c : Thread nD τ).loc main_arg1) (ix1 ⟨t.val * 8192 + q.val, pix_lt t q⟩)
  rw [labelCol_eq]
  exact col_read _ _ _ ⟨t.val * 8192 + q.val, pix_lt t q⟩ (by
    show win0_1.index t 0 * 8192 + 1 * q.val = t.val * 8192 + q.val
    rw [(idx1 t).1]; omega)

/-- Entry (q, k) of block t of the flattened image is channel k of pixel t · 8192 + q. -/
theorem blk2_apply (c : Dev nD) (t : Fin cfg0.N) (q : Fin 8192) (k : Fin 3) :
    blk2 m c t (ix2 q k) = Gof (flatImg m c) ⟨t.val * 8192 + q.val, pix_lt t q⟩ k := by
  show iblk m c 2 t (ix2 q k) = _
  unfold iblk
  rw [View.read_apply]
  show V m c main_v0 (((cfg0.win 2).blk t).view.emb (ix2 q k))
    = V m c main_v0 (ix2 ⟨t.val * 8192 + q.val, pix_lt t q⟩ k)
  congr 1
  funext a
  apply Fin.ext
  match a with
  | ⟨0, _⟩ => show win0_2.index t 0 * 8192 + 1 * q.val = t.val * 8192 + q.val; rw [(idx2 t).1]; omega
  | ⟨1, _⟩ => show win0_2.index t 1 * 3 + 1 * k.val = k.val; rw [(idx2 t).2]; omega

end Cert.KernelIdeal.KV
end
-- ==== Proof.KInvariant.lean ====
import proofs.«403517_j57982058496130_3_alg».proof.Proof.KComponents
import proofs.«403517_j57982058496130_3_alg».proof.Proof.KStepSums
import proofs.«403517_j57982058496130_3_alg».proof.Proof.KStepNll
import proofs.«403517_j57982058496130_3_alg».proof.Proof.KBlocks
import proofs.«403517_j57982058496130_3_alg».proof.Proof.Spec

/-!
# The accumulators after every grid point

Grid point `n` (of 128) belongs to the run of core `n / 64`, which starts at pixel `(n / 64) · 524288`;
point `n` itself covers the pixels `n · 8192 … (n + 1) · 8192 − 1`. By induction on `n`: after point `n`
each of the three accumulators holds the sum, over the pixels from the start of the run to the end of
point `n`'s block, of its per-pixel contribution — the image-sum accumulators `[label = l] · pixel`
and `[label = l] · pixel²` at each label `l` and channel, the third the pixel's cross entropy. The first
point of a run starts from zero; every other point adds its block's interval to the interval before it.
-/

set_option maxRecDepth 16384

noncomputable section

open Idealize.ShloMosaic Idealize.ShloMosaic.TcCoe Idealize.SL.Sem

namespace Cert.KernelIdeal.KV

open Cert.KernelIdeal Cert.KernelIdeal.Gen Cert.SegLoss Idealize.ShloMosaic.ValueIdx

variable (m : (ℓ : Loc nD τ sig) → Buf (Elt Ideal) ℓ)

/-- The scores, the labels and the flattened image as functions of the pixel. -/
abbrev Xk (c : Dev nD) : Fin NPix → Fin 100 → EReal := Xof (m ((c : Thread nD τ).loc main_arg0))
abbrev Tk (c : Dev nD) : Fin NPix → BitVec 32 := Tof (m ((c : Thread nD τ).loc main_arg1))
abbrev Gk (c : Dev nD) : Fin NPix → Fin 3 → EReal := Gof (flatImg m c)

/-- The first pixel of the run point `n` belongs to, and the pixel after point `n`'s block. -/
def lo (n : ℕ) : ℕ := n / 64 * 524288
def hi (n : ℕ) : ℕ := n * 8192 + 8192

/-- Pixel `t · 8192 + q`'s contributions are what block `t` holds at row `q`. -/
theorem f1_at (c : Dev nD) (t : Fin cfg0.N) (l : Fin 100) (k : Fin 3) (q : Fin 8192) :
    s1At (Tk m c) (Gk m c) l k (t.val * 8192 + q.val) = hot (blk1 m c t (ix2 q 0)) l * blk2 m c t (ix2 q k) := by
  unfold s1At
  rw [dif_pos (pix_lt t q), blk1_apply, blk2_apply]

theorem f2_at (c : Dev nD) (t : Fin cfg0.N) (l : Fin 100) (k : Fin 3) (q : Fin 8192) :
    s2At (Tk m c) (Gk m c) l k (t.val * 8192 + q.val)
      = hot (blk1 m c t (ix2 q 0)) l * (blk2 m c t (ix2 q k) * blk2 m c t (ix2 q k)) := by
  unfold s2At
  rw [dif_pos (pix_lt t q), blk1_apply, blk2_apply]

theorem fN_at (c : Dev nD) (t : Fin cfg0.N) (q : Fin 8192) :
    nllAt (Xk m c) (Tk m c) (t.val * 8192 + q.val)
      = rowNll (fun l => blk0 m c t (ix2 q l)) (blk1 m c t (ix2 q 0)) := by
  unfold nllAt
  rw [dif_pos (pix_lt t q), blk1_apply]
  congr 1
  funext l
  exact (blk0_apply m c t q l).symm

/-- THE INVARIANT: after point `n` the three accumulators hold their contributions summed from the start of the run to the end of block `n`. -/
theorem acc_inv (c : Dev nD) : ∀ (n : ℕ) (hn : n < cfg0.N),
    (∀ (l : Fin 100) (k : Fin 3), (outsAt0 m c n hn).2.2.2.1 (ix2 l k) = seg (s1At (Tk m c) (Gk m c) l k) (lo n) (hi n))
    ∧ (∀ (l : Fin 100) (k : Fin 3), (outsAt0 m c n hn).2.2.2.2.1 (ix2 l k) = seg (s2At (Tk m c) (Gk m c) l k) (lo n) (hi n))
    ∧ (outsAt0 m c n hn).2.2.2.2.2 (ix2 0 0) = seg (nllAt (Xk m c) (Tk m c)) (lo n) (hi n)
  | n, hn => by
    have hN : cfg0.N = 128 := N_0
    by_cases h0 : n % 64 = 0
    · -- the first point of a run: from zero
      have h1 : ¬n % 64 = 63 := by omega
      have ea : n * 8192 = lo n := by unfold lo; omega
      have eb : n * 8192 + 8192 = hi n := rfl
      refine ⟨fun l k => ?_, fun l k => ?_, ?_⟩
      · rw [acc0_A m c ⟨n, hn⟩ h0 h1,
          step1_apply _ _ _ l k (s1At (Tk m c) (Gk m c) l k) (n * 8192) (fun q => f1_at m c ⟨n, hn⟩ l k q),
          pay8_apply, zero_add, eb, ea]
      · rw [acc1_A m c ⟨n, hn⟩ h0 h1,
          step2_apply _ _ _ l k (s2At (Tk m c) (Gk m c) l k) (n * 8192) (fun q => f2_at m c ⟨n, hn⟩ l k q),
          pay9_apply, zero_add, eb, ea]
      · rw [acc2_A m c ⟨n, hn⟩ h0 h1,
          stepN_apply _ _ _ (nllAt (Xk m c) (Tk m c)) (n * 8192) (fun q => fN_at m c ⟨n, hn⟩ q),
          pay10_apply, zero_add, eb, ea]
    · -- a later point: the interval before it, then its own block
      have hpos : 0 < n := Nat.pos_of_ne_zero (fun h => h0 (by rw [h]))
      have hn' : n - 1 < cfg0.N := by omega
      obtain ⟨ih1, ih2, ihN⟩ := acc_inv c (n - 1) hn'
      have e1 : lo (n - 1) = lo n := by unfold lo; omega
      have e2 : hi (n - 1) = n * 8192 := by unfold hi; omega
      have e3 : n * 8192 + 8192 = hi n := rfl
      have hab : lo n ≤ n * 8192 := by unfold lo; omega
      have hbc : n * 8192 ≤ hi n := by unfold hi; omega
      have hp : prevAt m c ⟨n, hn⟩ = outsAt0 m c (n - 1) hn' := rfl
      rw [e1, e2] at ih1 ih2 ihN
      by_cases h1 : n % 64 = 63
      · refine ⟨fun l k => ?_, fun l k => ?_, ?_⟩
        · rw [acc0_C m c ⟨n, hn⟩ h0 h1,
            step1_apply _ _ _ l k (s1At (Tk m c) (Gk m c) l k) (n * 8192) (fun q => f1_at m c ⟨n, hn⟩ l k q),
            hp, ih1 l k, e3]
          exact seg_add _ hab hbc
        · rw [acc1_C m c ⟨n, hn⟩ h0 h1,
            step2_apply _ _ _ l k (s2At (Tk m c) (Gk m c) l k) (n * 8192) (fun q => f2_at m c ⟨n, hn⟩ l k q),
            hp, ih2 l k, e3]
          exact seg_add _ hab hbc
        · rw [acc2_C m c ⟨n, hn⟩ h0 h1,
            stepN_apply _ _ _ (nllAt (Xk m c) (Tk m c)) (n * 8192) (fun q => fN_at m c ⟨n, hn⟩ q),
            hp, ihN, e3]
          exact seg_add _ hab hbc
      · refine ⟨fun l k => ?_, fun l k => ?_, ?_⟩
        · rw [acc0_B m c ⟨n, hn⟩ h0 h1,
            step1_apply _ _ _ l k (s1At (Tk m c) (Gk m c) l k) (n * 8192) (fun q => f1_at m c ⟨n, hn⟩ l k q),
            hp, ih1 l k, e3]
          exact seg_add _ hab hbc
        · rw [acc1_B m c ⟨n, hn⟩ h0 h1,
            step2_apply _ _ _ l k (s2At (Tk m c) (Gk m c) l k) (n * 8192) (fun q => f2_at m c ⟨n, hn⟩ l k q),
            hp, ih2 l k, e3]
          exact seg_add _ hab hbc
        · rw [acc2_B m c ⟨n, hn⟩ h0 h1,
            stepN_apply _ _ _ (nllAt (Xk m c) (Tk m c)) (n * 8192) (fun q => fN_at m c ⟨n, hn⟩ q),
            hp, ihN, e3]
          exact seg_add _ hab hbc
  termination_by n => n
  decreasing_by omega

end Cert.KernelIdeal.KV

end
-- ==== Proof.KOutDefs.lean ====
import proofs.«403517_j57982058496130_3_alg».proof.Proof.KInvariant

/-!
# What the region leaves in its three output arrays, and the sums the host takes of them

Each output array has one block per core; a core's last grid point writes its accumulators there.
So the first output ends holding, at core `a`, label `l`, channel `k`, the sum over the core's half of
the pixels (`a · 524288 … a · 524288 + 524287`) of `[label = l] · pixel`; the second the same with the
pixel squared; the third, at core `a`, the core's summed cross entropy. After the region the host adds
the two cores' blocks of each array.
-/

set_option maxRecDepth 16384

noncomputable section

open Idealize.ShloMosaic Idealize.ShloMosaic.TcCoe Idealize.SL.Sem

namespace Cert.KernelIdeal.KV

open Cert.KernelIdeal Cert.KernelIdeal.Gen Cert.SegLoss Idealize.ShloMosaic.ValueIdx

variable (m : (ℓ : Loc nD τ sig) → Buf (Elt Ideal) ℓ)

/-- What the three output arrays end holding: at core `a = i 0`, the core's half of the pixels summed. -/
def P1 (c : Dev nD) : Buf (Elt Ideal) ((c : Thread nD τ).loc main_v2_0) := fun i =>
  seg (s1At (Tk m c) (Gk m c) ⟨(i 1).val, (i 1).isLt⟩ ⟨(i 2).val, (i 2).isLt⟩) ((i 0).val * 524288) ((i 0).val * 524288 + 524288)
def P2 (c : Dev nD) : Buf (Elt Ideal) ((c : Thread nD τ).loc main_v2_1) := fun i =>
  seg (s2At (Tk m c) (Gk m c) ⟨(i 1).val, (i 1).isLt⟩ ⟨(i 2).val, (i 2).isLt⟩) ((i 0).val * 524288) ((i 0).val * 524288 + 524288)
def PN (c : Dev nD) : Buf (Elt Ideal) ((c : Thread nD τ).loc main_v2_2) := fun i =>
  seg (nllAt (Xk m c) (Tk m c)) ((i 0).val * 524288) ((i 0).val * 524288 + 524288)

theorem P1_apply (c : Dev nD) (a : Fin 2) (l : Fin 100) (k : Fin 3) :
    P1 m c (ix3 a l k) = seg (s1At (Tk m c) (Gk m c) l k) (a.val * 524288) (a.val * 524288 + 524288) := rfl
theorem P2_apply (c : Dev nD) (a : Fin 2) (l : Fin 100) (k : Fin 3) :
    P2 m c (ix3 a l k) = seg (s2At (Tk m c) (Gk m c) l k) (a.val * 524288) (a.val * 524288 + 524288) := rfl
theorem PN_apply (c : Dev nD) (a : Fin 2) (u : Fin 1) (v : Fin 1) :
    PN m c (ix3 a u v) = seg (nllAt (Xk m c) (Tk m c)) (a.val * 524288) (a.val * 524288 + 524288) := rfl

/-- The host's sums over the two cores. -/
def K1 (c : Dev nD) : FVec Ideal S100x3 .f32 :=
  Host.reduceAdd (F := Ideal) (P1 m c) (constant (F := Ideal) S_ .f32 0x00000000#32) reducesTo_S2x100x3_S100x3_d0 h_S_
def K2 (c : Dev nD) : FVec Ideal S100x3 .f32 :=
  Host.reduceAdd (F := Ideal) (P2 m c) (constant (F := Ideal) S_ .f32 0x00000000#32) reducesTo_S2x100x3_S100x3_d0 h_S_
def KN (c : Dev nD) : FVec Ideal S_ .f32 :=
  Host.reduceAdd (F := Ideal) (PN m c) (constant (F := Ideal) S_ .f32 0x00000000#32) reducesTo_S2x1x1_S_d0_1_2 h_S_

/-- The output windows' block index at point `t` is `(t / 64, 0, 0)`: the core. -/
theorem out_idx : ∀ t : Fin cfg0.N,
    (win0_3.index t (0 : Fin 3) = t.val / 64 ∧ win0_3.index t (1 : Fin 3) = 0 ∧ win0_3.index t (2 : Fin 3) = 0)
    ∧ (win0_4.index t (0 : Fin 3) = t.val / 64 ∧ win0_4.index t (1 : Fin 3) = 0 ∧ win0_4.index t (2 : Fin 3) = 0)
    ∧ (win0_5.index t (0 : Fin 3) = t.val / 64 ∧ win0_5.index t (1 : Fin 3) = 0 ∧ win0_5.index t (2 : Fin 3) = 0) :=
  (by decide +kernel : ∀ t : Fin grid0.N, _)

end Cert.KernelIdeal.KV

end
-- ==== Proof.KCover.lean ====
import proofs.«403517_j57982058496130_3_alg».proof.Proof.KOutDefs
import Idealize.ShloMosaic.Lib.Pipeline.Value

/-!
# Every entry of the three output arrays is written back

Each output array has two blocks along its first axis, one per value `a` of that coordinate, and a
block holds every index with that first coordinate. Block `a` is the block of the grid points
`a · 64 … a · 64 + 63`, and the last of them, `a · 64 + 63`, writes it back. So the entry at an index
`i` is written back by point `(i 0) · 64 + 63`: that point is congruent to 63 modulo 64, its block
index is `((i 0) · 64 + 63) / 64 = i 0` on the first axis and `0` on the others, and the block's
extents on the other axes are the array's.
-/

set_option maxRecDepth 16384

noncomputable section

namespace Cert.KernelIdeal.KV
open Cert.KernelIdeal Cert.KernelIdeal.Gen Idealize.ShloMosaic Idealize.ShloMosaic.TcCoe Idealize.SL.Sem

/-- Every index of output array 0 lies in the block of a point that writes it back. -/
theorem cover3 (i : S2x100x3.Idx) : ∃ t : Fin cfg0.N, (cfg0.win 3).flush t = true ∧ i ∈ ((cfg0.win 3).blk t).view.set := by
  have h0 : (i 0).val < 2 := (i 0).isLt
  have h1 : (i 1).val < 100 := (i 1).isLt
  have h2 : (i 2).val < 3 := (i 2).isLt
  have hN : cfg0.N = 128 := N_0
  obtain ⟨t, ht⟩ : ∃ t : Fin cfg0.N, t.val = (i 0).val * 64 + 63 := ⟨⟨(i 0).val * 64 + 63, by omega⟩, rfl⟩
  have e0 : win0_3.index t (0 : Fin 3) = t.val / 64 := (out_idx t).1.1
  have e1 : win0_3.index t (1 : Fin 3) = 0 := (out_idx t).1.2.1
  have e2 : win0_3.index t (2 : Fin 3) = 0 := (out_idx t).1.2.2
  refine ⟨t, (flush0_3 t).mpr (by omega), ?_⟩
  show i ∈ ((View.whole main_v2_0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [e0]; omega
  | ⟨1, _⟩ =>
    show win0_3.index t 1 * 100 ≤ (i 1).val ∧ (i 1).val < win0_3.index t 1 * 100 + 100
    rw [e1]; omega
  | ⟨2, _⟩ =>
    show win0_3.index t 2 * 3 ≤ (i 2).val ∧ (i 2).val < win0_3.index t 2 * 3 + 3
    rw [e2]; omega

/-- Every index of output array 1 lies in the block of a point that writes it back. -/
theorem cover4 (i : S2x100x3.Idx) : ∃ t : Fin cfg0.N, (cfg0.win 4).flush t = true ∧ i ∈ ((cfg0.win 4).blk t).view.set := by
  have h0 : (i 0).val < 2 := (i 0).isLt
  have h1 : (i 1).val < 100 := (i 1).isLt
  have h2 : (i 2).val < 3 := (i 2).isLt
  have hN : cfg0.N = 128 := N_0
  obtain ⟨t, ht⟩ : ∃ t : Fin cfg0.N, t.val = (i 0).val * 64 + 63 := ⟨⟨(i 0).val * 64 + 63, by omega⟩, rfl⟩
  have e0 : win0_4.index t (0 : Fin 3) = t.val / 64 := (out_idx t).2.1.1
  have e1 : win0_4.index t (1 : Fin 3) = 0 := (out_idx t).2.1.2.1
  have e2 : win0_4.index t (2 : Fin 3) = 0 := (out_idx t).2.1.2.2
  refine ⟨t, (flush0_4 t).mpr (by omega), ?_⟩
  show i ∈ ((View.whole main_v2_1).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [e0]; omega
  | ⟨1, _⟩ =>
    show win0_4.index t 1 * 100 ≤ (i 1).val ∧ (i 1).val < win0_4.index t 1 * 100 + 100
    rw [e1]; omega
  | ⟨2, _⟩ =>
    show win0_4.index t 2 * 3 ≤ (i 2).val ∧ (i 2).val < win0_4.index t 2 * 3 + 3
    rw [e2]; omega

/-- Every index of output array 2 lies in the block of a point that writes it back. -/
theorem cover5 (i : S2x1x1.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  have hN : cfg0.N = 128 := N_0
  obtain ⟨t, ht⟩ : ∃ t : Fin cfg0.N, t.val = (i 0).val * 64 + 63 := ⟨⟨(i 0).val * 64 + 63, by omega⟩, rfl⟩
  have e0 : win0_5.index t (0 : Fin 3) = t.val / 64 := (out_idx t).2.2.1
  have e1 : win0_5.index t (1 : Fin 3) = 0 := (out_idx t).2.2.2.1
  have e2 : win0_5.index t (2 : Fin 3) = 0 := (out_idx t).2.2.2.2
  refine ⟨t, (flush0_5 t).mpr (by omega), ?_⟩
  show i ∈ ((View.whole main_v2_2).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [e0]; omega
  | ⟨1, _⟩ =>
    show win0_5.index t 1 * 1 ≤ (i 1).val ∧ (i 1).val < win0_5.index t 1 * 1 + 1
    rw [e1]; omega
  | ⟨2, _⟩ =>
    show win0_5.index t 2 * 1 ≤ (i 2).val ∧ (i 2).val < win0_5.index t 2 * 1 + 1
    rw [e2]; omega

end Cert.KernelIdeal.KV

end
-- ==== Proof.KFlush.lean ====
import proofs.«403517_j57982058496130_3_alg».proof.Proof.KOutDefs
import proofs.«403517_j57982058496130_3_alg».proof.Proof.KCover
import Idealize.ShloMosaic.Lib.Pipeline.Value

/-!
# The three output arrays after the run

A core's last grid point (`t % 64 = 63`) writes its three accumulators back through the output
windows; by the invariant they hold the sums over the core's whole half of the pixels. Every element of
each output array lies in the block of exactly such a point, so after the run the arrays are `P1`, `P2`
and `PN`.
-/

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen Cert.SegLoss Idealize.ShloMosaic.ValueIdx

variable (m : (ℓ : Loc nD τ sig) → Buf (Elt Ideal) ℓ)

/-- What a core's last point writes back through output window 3: the core's block of `P1`. -/
theorem flushed3_eq (c : Dev nD) (t : Fin cfg0.N) (hf : (cfg0.win 3).flush t = true) :
    (dats m 0 c).flushed 3 t = ((cfg0.win 3).blk t).view.read (Elt Ideal) (P1 m c) := by
  have hN : cfg0.N = 128 := N_0
  have h63 : t.val % 64 = 63 := (flush0_3 t).mp hf
  have h0 : ¬t.val % 64 = 0 := by omega
  obtain ⟨⟨e0, e1, e2⟩, -, -⟩ := out_idx t
  show (cfg0.win 3).cut (grid0.coords t) ((dats m 0 c).after 3 t) = _
  rw [after0_3, out3_C m c t h0 h63]
  funext j
  obtain ⟨a, l, k, rfl⟩ : ∃ (a : Fin 1) (l : Fin 100) (k : Fin 3), j = ix3 a l k := ⟨j 0, j 1, j 2, eq_ix3 j⟩
  obtain rfl : a = 0 := Subsingleton.elim _ _
  rw [View.read_apply]
  have hemb : ((cfg0.win 3).blk t).view.emb (ix3 (0 : Fin 1) l k) = ix3 (⟨t.val / 64, by omega⟩ : Fin 2) l k := by
    funext a; apply Fin.ext
    match a with
    | ⟨0, _⟩ => show win0_3.index t (0 : Fin 3) * 1 + 1 * (0 : ℕ) = t.val / 64; omega
    | ⟨1, _⟩ => show win0_3.index t (1 : Fin 3) * 100 + 1 * l.val = l.val; omega
    | ⟨2, _⟩ => show win0_3.index t (2 : Fin 3) * 3 + 1 * k.val = k.val; omega
  rw [hemb]
  generalize hX : k0_pay5 (step1 (blk1 m c t) (blk2 m c t) (prevAt m c t).2.2.2.1) = X
  generalize hY : P1 m c (ix3 (⟨t.val / 64, by omega⟩ : Fin 2) l k) = Y
  have hx : (cfg0.win 3).xinj (grid0.coords t) (ix3 (0 : Fin 1) l k) = (ix3 (0 : Fin 1) l k : S1x100x3.Idx) := funext fun a => Fin.ext rfl
  show X ((cfg0.win 3).xinj (grid0.coords t) (ix3 (0 : Fin 1) l k)) = cast _ Y
  rw [hx, cast_eq]
  subst hX hY
  rw [pay5_apply, ← acc0_C m c t h0 h63, (acc_inv m c t.val t.isLt).1 l k, P1_apply]
  have ehi : hi t.val = t.val / 64 * 524288 + 524288 := by unfold hi; omega
  rw [ehi]
  rfl

/-- What a core's last point writes back through output window 4: the core's block of `P2`. -/
theorem flushed4_eq (c : Dev nD) (t : Fin cfg0.N) (hf : (cfg0.win 4).flush t = true) :
    (dats m 0 c).flushed 4 t = ((cfg0.win 4).blk t).view.read (Elt Ideal) (P2 m c) := by
  have hN : cfg0.N = 128 := N_0
  have h63 : t.val % 64 = 63 := (flush0_4 t).mp hf
  have h0 : ¬t.val % 64 = 0 := by omega
  obtain ⟨-, ⟨e0, e1, e2⟩, -⟩ := out_idx t
  show (cfg0.win 4).cut (grid0.coords t) ((dats m 0 c).after 4 t) = _
  rw [after0_4, out4_C m c t h0 h63]
  funext j
  obtain ⟨a, l, k, rfl⟩ : ∃ (a : Fin 1) (l : Fin 100) (k : Fin 3), j = ix3 a l k := ⟨j 0, j 1, j 2, eq_ix3 j⟩
  obtain rfl : a = 0 := Subsingleton.elim _ _
  rw [View.read_apply]
  have hemb : ((cfg0.win 4).blk t).view.emb (ix3 (0 : Fin 1) l k) = ix3 (⟨t.val / 64, by omega⟩ : Fin 2) l k := by
    funext a; apply Fin.ext
    match a with
    | ⟨0, _⟩ => show win0_4.index t (0 : Fin 3) * 1 + 1 * (0 : ℕ) = t.val / 64; omega
    | ⟨1, _⟩ => show win0_4.index t (1 : Fin 3) * 100 + 1 * l.val = l.val; omega
    | ⟨2, _⟩ => show win0_4.index t (2 : Fin 3) * 3 + 1 * k.val = k.val; omega
  rw [hemb]
  generalize hX : k0_pay6 (step2 (blk1 m c t) (blk2 m c t) (prevAt m c t).2.2.2.2.1) = X
  generalize hY : P2 m c (ix3 (⟨t.val / 64, by omega⟩ : Fin 2) l k) = Y
  have hx : (cfg0.win 4).xinj (grid0.coords t) (ix3 (0 : Fin 1) l k) = (ix3 (0 : Fin 1) l k : S1x100x3.Idx) := funext fun a => Fin.ext rfl
  show X ((cfg0.win 4).xinj (grid0.coords t) (ix3 (0 : Fin 1) l k)) = cast _ Y
  rw [hx, cast_eq]
  subst hX hY
  rw [pay6_apply, ← acc1_C m c t h0 h63, (acc_inv m c t.val t.isLt).2.1 l k, P2_apply]
  have ehi : hi t.val = t.val / 64 * 524288 + 524288 := by unfold hi; omega
  rw [ehi]
  rfl

/-- What a core's last point writes back through output window 5: the core's block of `PN`. -/
theorem flushed5_eq (c : Dev nD) (t : Fin cfg0.N) (hf : (cfg0.win 5).flush t = true) :
    (dats m 0 c).flushed 5 t = ((cfg0.win 5).blk t).view.read (Elt Ideal) (PN m c) := by
  have hN : cfg0.N = 128 := N_0
  have h63 : t.val % 64 = 63 := (flush0_5 t).mp hf
  have h0 : ¬t.val % 64 = 0 := by omega
  obtain ⟨-, -, ⟨e0, e1, e2⟩⟩ := out_idx t
  show (cfg0.win 5).cut (grid0.coords t) ((dats m 0 c).after 5 t) = _
  rw [after0_5, out5_C m c t h0 h63]
  funext j
  obtain ⟨a, u, v, rfl⟩ : ∃ (a : Fin 1) (u : Fin 1) (v : Fin 1), j = ix3 a u v := ⟨j 0, j 1, j 2, eq_ix3 j⟩
  obtain rfl : a = 0 := Subsingleton.elim _ _
  obtain rfl : u = 0 := Subsingleton.elim _ _
  obtain rfl : v = 0 := Subsingleton.elim _ _
  rw [View.read_apply]
  have hemb : ((cfg0.win 5).blk t).view.emb (ix3 (0 : Fin 1) (0 : Fin 1) (0 : Fin 1)) = ix3 (⟨t.val / 64, by omega⟩ : Fin 2) (0 : Fin 1) (0 : Fin 1) := by
    funext a; apply Fin.ext
    match a with
    | ⟨0, _⟩ => show win0_5.index t (0 : Fin 3) * 1 + 1 * (0 : ℕ) = t.val / 64; omega
    | ⟨1, _⟩ => show win0_5.index t (1 : Fin 3) * 1 + 1 * (0 : ℕ) = 0; omega
    | ⟨2, _⟩ => show win0_5.index t (2 : Fin 3) * 1 + 1 * (0 : ℕ) = 0; omega
  rw [hemb]
  generalize hX : k0_pay7 (stepN (blk0 m c t) (blk1 m c t) (prevAt m c t).2.2.2.2.2) = X
  generalize hY : PN m c (ix3 (⟨t.val / 64, by omega⟩ : Fin 2) (0 : Fin 1) (0 : Fin 1)) = Y
  have hx : (cfg0.win 5).xinj (grid0.coords t) (ix3 (0 : Fin 1) (0 : Fin 1) (0 : Fin 1)) = (ix3 (0 : Fin 1) (0 : Fin 1) (0 : Fin 1) : S1x1x1.Idx) := funext fun a => Fin.ext rfl
  show X ((cfg0.win 5).xinj (grid0.coords t) (ix3 (0 : Fin 1) (0 : Fin 1) (0 : Fin 1))) = cast _ Y
  rw [hx, cast_eq]
  subst hX hY
  rw [pay7_apply, ← acc2_C m c t h0 h63, (acc_inv m c t.val t.isLt).2.2, PN_apply]
  have ehi : hi t.val = t.val / 64 * 524288 + 524288 := by unfold hi; omega
  rw [ehi]
  rfl

/-- The output arrays after the run. -/
theorem final3 (c : Dev nD) : (dats m 0 c).arrAt 3 cfg0.N = P1 m c :=
  (dats m 0 c).arrAt_eq_of_cover 3 (P1 m c) (flushed3_eq m c) cover3
theorem final4 (c : Dev nD) : (dats m 0 c).arrAt 4 cfg0.N = P2 m c :=
  (dats m 0 c).arrAt_eq_of_cover 4 (P2 m c) (flushed4_eq m c) cover4
theorem final5 (c : Dev nD) : (dats m 0 c).arrAt 5 cfg0.N = PN m c :=
  (dats m 0 c).arrAt_eq_of_cover 5 (PN m c) (flushed5_eq m c) cover5

end Cert.KernelIdeal.KV

end
-- ==== Proof.Tail.lean ====
import Idealize.ShloMosaic.PureOps
import Idealize.ShloMosaic.PureOps.Ideal

/-!
# The closing arithmetic, shared by the two programs

Both programs end with the same arithmetic on three quantities: the per-label sums `s1` and `s2` of
the image and of its square (100 labels by 3 channels) and the summed cross entropy `n`. With
`N = 1048576` pixels,

  `mean = s1 / N`, `var = max (s2 / N − mean²) 0`, `std = ∑ √var`,
  `loss = 0.7 · (n / N) + 0.3 · (1 / (1 + exp (−std)))`.

It is stated once here, over the extended reals, so that each program's result can be written as this
function of its own three quantities, and the two results compared by comparing the quantities.
-/

noncomputable section

namespace Cert.SegLoss

open Idealize.ShloMosaic

/-- The closing arithmetic of the loss, as a function of the two per-label sums and the summed cross entropy. -/
def tail (hb : (⟨0, ![]⟩ : Shape).BroadcastsInDim ⟨2, ![100, 3]⟩ (![] : Fin 0 → Fin 2))
    (hr : (⟨2, ![100, 3]⟩ : Shape).ReducesTo [0, 1] ⟨0, ![]⟩) (h0 : 0 < (⟨0, ![]⟩ : Shape).numel)
    (s1 s2 : FVec Ideal ⟨2, ![100, 3]⟩ .f32) (n : FVec Ideal ⟨0, ![]⟩ .f32) : FVec Ideal ⟨0, ![]⟩ .f32 :=
  addf
    (mulf (constant (F := Ideal) ⟨0, ![]⟩ .f32 0x3F333333#32)
      (Host.divf (F := Ideal) n (constant (F := Ideal) ⟨0, ![]⟩ .f32 0x49800000#32)))
    (mulf (constant (F := Ideal) ⟨0, ![]⟩ .f32 0x3E99999A#32)
      (Host.divf (F := Ideal) (constant (F := Ideal) ⟨0, ![]⟩ .f32 0x3F800000#32)
        (addf (constant (F := Ideal) ⟨0, ![]⟩ .f32 0x3F800000#32)
          (Host.exp (F := Ideal)
            (Host.negf (F := Ideal)
              (Host.reduceAdd (F := Ideal)
                (Host.sqrt (F := Ideal)
                  (maximumf
                    (subf
                      (Host.divf (F := Ideal) s2
                        (broadcastInDim ⟨2, ![100, 3]⟩ ![] hb (constant (F := Ideal) ⟨0, ![]⟩ .f32 0x49800000#32)))
                      (mulf
                        (Host.divf (F := Ideal) s1
                          (broadcastInDim ⟨2, ![100, 3]⟩ ![] hb (constant (F := Ideal) ⟨0, ![]⟩ .f32 0x49800000#32)))
                        (Host.divf (F := Ideal) s1
                          (broadcastInDim ⟨2, ![100, 3]⟩ ![] hb (constant (F := Ideal) ⟨0, ![]⟩ .f32 0x49800000#32)))))
                    (broadcastInDim ⟨2, ![100, 3]⟩ ![] hb (constant (F := Ideal) ⟨0, ![]⟩ .f32 0x00000000#32))))
                (constant (F := Ideal) ⟨0, ![]⟩ .f32 0x00000000#32) hr h0))))))

end Cert.SegLoss

end
-- ==== Proof.KTail.lean ====
import proofs.«403517_j57982058496130_3_alg».proof.Proof.KOutDefs
import proofs.«403517_j57982058496130_3_alg».proof.Proof.Tail
import Idealize.ShloMosaic.Lib.StableHlo.Run
import Idealize.ShloMosaic.Lib.Pipeline.Value
import Idealize.ShloMosaic.Lib.Pipeline.FrameSuffix

/-!
# The kernel program's result

After the region the program adds the two cores' blocks of each of the three output arrays and applies the closing
arithmetic to the three sums. The buffers' contents after those operations are the operations' fold from what the
region leaves: each output array at what the run's last point left there, every other buffer as before the region.
Read at the result buffer, that fold is the closing arithmetic `tail` applied to the host's sums `K1`, `K2`, `KN` of
the three arrays, once each array is known.
-/

set_option maxRecDepth 16384

noncomputable section

namespace Cert.KernelIdeal.KV
open Cert.KernelIdeal Cert.KernelIdeal.Gen Cert.SegLoss Idealize.ShloMosaic Idealize.ShloMosaic.TcCoe Idealize.SL.Sem Idealize.ShloMosaic.StableHlo

variable (m : (ℓ : Loc nD τ sig) → Buf (Elt Ideal) ℓ)

/-- The program's result, once the three output arrays are known. -/
theorem tail_eq (c : Dev nD)
    (h3 : (dats m 0 c).arrAt 3 cfg0.N = P1 m c) (h4 : (dats m 0 c).arrAt 4 cfg0.N = P2 m c) (h5 : (dats m 0 c).arrAt 5 cfg0.N = PN m c) :
    Pipeline.afterTail₀ cfgs (dats m) 0 (V0 m) [hostOps1] c main_v23
      = tail bcast_S_S100x3 reducesTo_S100x3_S_d0_1 h_S_ (K1 m c) (K2 m c) (KN m c) := by
  -- what the region leaves, read at each output array, is that array after the last point
  have e3 : Pipeline.withArrays (cfgs 0).spec c (V0 m c) (fun w => (dats m 0 c).arrAt w (cfgs 0).N) (Proc.devRef .tc main_v2_0)
      = P1 m c :=
    (Pipeline.withArrays_arr spec0 launch0.win.arr_inj c (V0 m c) (fun w => (dats m 0 c).arrAt w cfg0.N) 3).trans h3
  have e4 : Pipeline.withArrays (cfgs 0).spec c (V0 m c) (fun w => (dats m 0 c).arrAt w (cfgs 0).N) (Proc.devRef .tc main_v2_1)
      = P2 m c :=
    (Pipeline.withArrays_arr spec0 launch0.win.arr_inj c (V0 m c) (fun w => (dats m 0 c).arrAt w cfg0.N) 4).trans h4
  have e5 : Pipeline.withArrays (cfgs 0).spec c (V0 m c) (fun w => (dats m 0 c).arrAt w (cfgs 0).N) (Proc.devRef .tc main_v2_2)
      = PN m c :=
    (Pipeline.withArrays_arr spec0 launch0.win.arr_inj c (V0 m c) (fun w => (dats m 0 c).arrAt w cfg0.N) 5).trans h5
  -- the fold of the 33 operations, read at the result buffer, is their composition over the three arrays
  unfold Pipeline.afterTail₀
  simp only [hostOps1, List.flatten_cons, List.flatten_nil, List.append_nil]
  after_results_simp
  rw [e3, e4, e5]
  rfl

end Cert.KernelIdeal.KV

end
-- ==== Proof.KRun.lean ====
import proofs.«403517_j57982058496130_3_alg».proof.Proof.KFlush
import proofs.«403517_j57982058496130_3_alg».proof.Proof.KTail

/-!
# The kernel program's run, with its result named

Every weakly fair execution of the idealized kernel program terminates; the three arguments end
unchanged, and the result is the closing arithmetic of the three sums the host takes of the region's
output arrays.
-/

set_option maxRecDepth 16384

noncomputable section

open Idealize.ShloMosaic Idealize.ShloMosaic.TcCoe Idealize.SL.Sem

namespace Cert.KernelIdeal.KV

open Cert.KernelIdeal Cert.KernelIdeal.Gen Cert.SegLoss

variable (m : (ℓ : Loc nD τ sig) → Buf (Elt Ideal) ℓ) (ρ : Dev nD → PrngReg)

/-- The run: the result buffer at the closing arithmetic of `K1`, `K2`, `KN`; the arguments unchanged. -/
theorem run_value : θ_run (defs (F := Ideal)) (onTc (τ := τ) (main (F := Ideal))) ⟨m, fun _ => 0, ρ⟩ (fun r => ∀ c : Dev nD,
      r.2.mem ((c.tc : Thread nD τ).loc main_v23)
        = tail bcast_S_S100x3 reducesTo_S100x3_S_d0_1 h_S_ (K1 m c) (K2 m c) (KN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v23 (Pipeline.mem_restRefs_of main_v23 (by decide) (by decide))).trans
          (tail_eq m c (final3 m c) (final4 m c) (final5 m c)),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KV

end
-- ==== Proof.RowLaw.lean ====
import proofs.«403517_j57982058496130_3_alg».proof.Proof.Spec
import Mathlib.Analysis.SpecialFunctions.Log.Basic
import Mathlib.Data.EReal.Basic

/-!
# One pixel's cross entropy, two spellings

For a row of finite scores `x` and a label `k` in range, the cross entropy
`(log (∑ₗ exp (xₗ − M)) + M) − x_k` — `M` the row maximum, the picked score written as a masked sum —
equals `−((x_k − M) − log (∑ₗ exp (xₗ − M)))`, the negated log-softmax at `k`. Both are the same real
number: the maximum of finitely many reals is one of them, the sum of exponentials is a positive real,
so its logarithm is real, and what remains is a rearrangement of a sum of three reals.
-/

noncomputable section

open scoped BigOperators

namespace Cert.SegLoss

open Idealize.ShloMosaic

/-- A finite sum of reals, summed as extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The row maximum is one of the row's scores. -/
theorem rowMax_mem (x : Fin 100 → EReal) : ∃ k : Fin 100, rowMax x = x k := by
  have h : rowMax x = (Finset.univ : Finset (Fin 100)).sup x := rfl
  obtain ⟨k, -, hk⟩ := Finset.exists_mem_eq_sup (Finset.univ : Finset (Fin 100)) ⟨0, Finset.mem_univ _⟩ x
  exact ⟨k, h.trans hk⟩

/-- Distinct labels below 100 are distinct 32-bit words. -/
theorem ofNat_label_inj (k l : Fin 100) (h : BitVec.ofNat 32 k.val = BitVec.ofNat 32 l.val) : k = l := by
  have := congrArg BitVec.toNat h
  simp only [BitVec.toNat_ofNat] at this
  have hk := k.isLt
  have hl := l.isLt
  apply Fin.ext
  omega

/-- The masked sum picks the label's own score. -/
theorem rowPick_eq (x : Fin 100 → EReal) (k : Fin 100) : rowPick x (BitVec.ofNat 32 k.val) = x k := by
  unfold rowPick
  rw [Finset.sum_eq_single k]
  · rw [if_pos rfl]
  · intro l _ hl
    rw [if_neg]
    intro h
    exact hl (ofNat_label_inj k l h).symm
  · intro h; exact absurd (Finset.mem_univ k) h

/-- THE ROW LAW: for finite scores and a label in range, the cross entropy is the negated log-softmax at the label. -/
theorem rowNll_eq (x : Fin 100 → EReal) (hx : ∀ l, ∃ r : ℝ, x l = (r : EReal)) (k : Fin 100) :
    rowNll x (BitVec.ofNat 32 k.val)
      = -((x k - rowMax x) - Ideal.log (∑ l : Fin 100, Ideal.exp (x l - rowMax x))) := by
  choose xr hxr using hx
  obtain ⟨j, hj⟩ := rowMax_mem x
  have hM : rowMax x = ((xr j : ℝ) : EReal) := hj.trans (hxr j)
  have hS : ∑ l : Fin 100, Ideal.exp (x l - rowMax x) = ((∑ l : Fin 100, Real.exp (xr l - xr j) : ℝ) : EReal) := by
    rw [← coe_sum]
    refine Finset.sum_congr rfl fun l _ => ?_
    rw [hM, hxr l, ← EReal.coe_sub, Ideal.exp_coe]
  have hpos : 0 < ∑ l : Fin 100, Real.exp (xr l - xr j) :=
    Finset.sum_pos (fun l _ => Real.exp_pos _) ⟨0, Finset.mem_univ _⟩
  unfold rowNll rowLse
  rw [rowPick_eq, hS, Ideal.log_coe, if_neg (not_le.mpr hpos), hM, hxr k]
  rw [← EReal.coe_add, ← EReal.coe_sub, ← EReal.coe_sub, ← EReal.coe_sub, ← EReal.coe_neg]
  congr 1
  ring

end Cert.SegLoss

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.RefValue.lean ====
import proofs.«403517_j57982058496130_3_alg».proof.Proof.RefRead
import proofs.«403517_j57982058496130_3_alg».proof.Proof.Spec
import proofs.«403517_j57982058496130_3_alg».proof.Proof.Tail
import proofs.«403517_j57982058496130_3_alg».proof.Proof.RowLaw
import proofs.«403517_j57982058496130_3_alg».proof.Proof.LibScatterGatherRows
import Idealize.ShloMosaic.Lib.ValueIdx
import Idealize.ShloMosaic.Lib.Pipeline.Value
import Idealize.ShloMosaic.PureOps.Reduce
import Idealize.ShloMosaic.PureOps.Ideal.Laws
import Mathlib.Algebra.BigOperators.Fin

noncomputable section

open scoped BigOperators

namespace Cert.ReferenceIdeal.RefValue
open Cert.ReferenceIdeal Cert.ReferenceIdeal.Gen Cert.ReferenceIdeal.ReadP Cert.SegLoss Idealize.ShloMosaic Idealize.ShloMosaic.ValueIdx

/-!
# The reference program's result, read as sums over pixels

The reference computes a per-pixel cross entropy (a log-softmax over the 100 labels, the label's entry
picked by a batched gather), sums it over the pixels, and computes per-label sums of the image and of its
square by two scatter-adds; the closing arithmetic turns the three quantities into the loss. This module
reads the result as that closing arithmetic of three quantities and each quantity as a sum over the pixel
numbers: `s1 l k = ∑ᵣ [T r = l] · G r k`, `s2 l k = ∑ᵣ [T r = l] · (G r k)²`, `n = ∑ᵣ nll r`.
-/

/-! ## Words: a label below 100 as a signed word, and the index arithmetic's comparisons -/

/-- A word read signed is the label `l` exactly when it is the word of `l`. -/
theorem toInt_eq_label (t : BitVec 32) (l : Fin 100) : t.toInt = (l.val : ℤ) ↔ t = BitVec.ofNat 32 l.val := by
  have hl := l.isLt
  have ht := t.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    have : l.val % 2 ^ 32 = l.val := Nat.mod_eq_of_lt (by omega)
    rw [this]
    split <;> omega

/-- A label in range is the word of an element of `Fin 100`, and clamping it into `[0, 99]` changes nothing. -/
theorem label_fin (t : BitVec 32) (h0 : 0 ≤ t.toInt) (h1 : t.toInt < 100) :
    ∃ k : Fin 100, t = BitVec.ofNat 32 k.val ∧ min t.toInt.toNat (100 - 1) = k.val := by
  refine ⟨⟨t.toInt.toNat, by omega⟩, ?_, ?_⟩
  · exact (toInt_eq_label t ⟨t.toInt.toNat, by omega⟩).mp (by show t.toInt = ((t.toInt.toNat : ℕ) : ℤ); omega)
  · show min t.toInt.toNat (100 - 1) = t.toInt.toNat
    omega

/-- A word that is not negative is not below zero. -/
theorem cmpi_slt_zero (t : BitVec 32) (h : 0 ≤ t.toInt) : IntOp.cmpi .slt t 0#32 = 0#1 := by
  have : t.slt 0#32 = false := by
    simp only [BitVec.slt, decide_eq_false_iff_not, not_lt]
    exact h
  simp only [IntOp.cmpi, this]
  rfl

/-- A word that is not negative is at least zero. -/
theorem cmpi_sge_zero (t : BitVec 32) (h : 0 ≤ t.toInt) : IntOp.cmpi .sge t 0#32 = 1#1 := by
  have : (0#32 : BitVec 32).sle t = true := by
    simp only [BitVec.sle, decide_eq_true_eq]
    exact h
  simp only [IntOp.cmpi, this]
  rfl

/-- A word below 100 is at most 99. -/
theorem cmpi_sle_99 (t : BitVec 32) (h : t.toInt < 100) : IntOp.cmpi .sle t 99#32 = 1#1 := by
  have : t.sle 99#32 = true := by
    simp only [BitVec.sle, decide_eq_true_eq]
    have : (99#32 : BitVec 32).toInt = 99 := by decide
    omega
  simp only [IntOp.cmpi, this]
  rfl

/-- The pattern of minus infinity is the bottom element. -/
theorem ofBits_neg_inf : Ideal.ofBits .f32 0xFF800000#32 = ⊥ := by simp [Ideal.ofBits, Ideal.ieee]

/-! ## Sums: a filtered sum as a masked sum, a sum over a one-column index set -/

/-- The sum of `g` over the rows whose label word, read signed, is `l`, is the sum over all rows of the
    indicator times `g`. -/
theorem filter_sum_eq_hot {n : Nat} (T : Fin n → BitVec 32) (g : Fin n → EReal) (l : Fin 100) :
    ∑ e ∈ Finset.univ.filter (fun e : Fin n => (T e).toInt = (l.val : ℤ)), g e = ∑ e : Fin n, hot (T e) l * g e := by
  rw [Finset.sum_filter]
  refine Finset.sum_congr rfl fun e _ => ?_
  unfold hot
  by_cases h : T e = BitVec.ofNat 32 l.val
  · rw [if_pos ((toInt_eq_label _ _).mpr h), if_pos h, one_mul]
  · rw [if_neg (fun h' => h ((toInt_eq_label _ _).mp h')), if_neg h, zero_mul]

/-- A sum over the index set of an `N × 1` array is the sum over its rows. -/
theorem sum_col {M : Type*} [AddCommMonoid M] {N : Nat} (f : (⟨2, ![N, 1]⟩ : Shape).Idx → M) :
    ∑ j, f j = ∑ r : Fin N, f (ix2 r 0) := by
  rw [sum_idx2]
  refine Finset.sum_congr rfl fun r _ => ?_
  exact Fin.sum_univ_one (fun b : Fin 1 => f (ix2 r b))

/-! ## The batched gather, and the two one-axis reductions, read at an index -/

/-- THE BATCHED GATHER AT ROW `e` (along the columns, one index word per row): the operand
    at row `e`, column "the row's index word, read signed and clamped into `[0, D − 1]`". On the row axis (a
    batching axis) the operand coordinate is the result's row; on the column axis (collapsed, start-indexed)
    it is the clamped start. -/
theorem gather_batched {α : Type} {N D w : Nat} (d : GatherDims ⟨2, ![N, D]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, D]⟩ : Shape).Idx → α) (idx : IVec ⟨3, ![N, 1, 1]⟩ w) (e : Fin N) (hD : 0 < D) :
    Host.gather d x idx (ix2 e 0) = x (ix2 e ⟨min (idx (ix3 e 0 0)).toInt.toNat (D - 1), by omega⟩) := by
  -- the collapsed column axis has slice size 1, so the clamp's upper end is D − 1
  have hsl : d.sliceSizes 1 = 1 := d.slice_collapsed 1 (by rw [hcoll]; exact List.mem_singleton.mpr rfl)
  obtain ⟨off, coll, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the row axis: start 0, the batching coordinate the result's row, offset 0
    show 0 + e.val + 0 = e.val
    omega
  | ⟨1, _⟩ =>
    -- the start index of result element (e, 0) is read at (e, 0, 0) of the index array
    have hsi : ∀ c, (GatherDims.siIdx ⟨[], [1], [0], [0], [1], 2, ss, wf⟩ (ix2 e 0) c : (⟨3, ![N, 1, 1]⟩ : Shape).Idx)
        = ix3 e 0 0 := by
      intro c
      funext b
      apply Fin.ext
      match b with
      | ⟨0, _⟩ => rfl
      | ⟨1, _⟩ => rfl
      | ⟨2, _⟩ =>
        have := c.isLt
        simp only [List.length_singleton] at this
        show c.val = 0
        omega
    show min (idx (GatherDims.siIdx _ _ _)).toInt.toNat (D - ss 1) + 0 + 0 = min (idx (ix3 e 0 0)).toInt.toNat (D - 1)
    rw [hsi, hsl]
    rfl

/-- Row `r` with column `l` inserted. -/
theorem lift_row {N D : Nat} (h : Shape.Reduces ⟨2, ![N, D]⟩ [(1 : Fin 2)] ⟨1, ![N]⟩) (r : Fin N) (l : Fin D) :
    h.lift (ix1 r) l = ix2 r l := by
  funext c
  apply Fin.ext
  match c with
  | ⟨0, _⟩ => rfl
  | ⟨1, _⟩ => rfl

/-- Element `(r, 0)` with the last coordinate inserted. -/
theorem lift_unit {N : Nat} (h : Shape.Reduces ⟨3, ![N, 1, 1]⟩ [(2 : Fin 3)] ⟨2, ![N, 1]⟩) (r : Fin N) (k : Fin 1) :
    h.lift (ix2 r 0) k = ix3 r 0 k := by
  funext c
  apply Fin.ext
  match c with
  | ⟨0, _⟩ => rfl
  | ⟨1, _⟩ => rfl
  | ⟨2, _⟩ => rfl

/-- A maximum-reduction over the columns of a matrix of extended reals, at row `r`: the fold of `max` over the row. -/
theorem reduce_max_row {φ : FTy} {N D : Nat} (x : FVec Ideal ⟨2, ![N, D]⟩ φ) (init : (⟨0, ![]⟩ : Shape).Idx → Ideal φ)
    (h' : Shape.ReducesTo ⟨2, ![N, D]⟩ [(1 : Fin 2)] ⟨1, ![N]⟩) (h : Shape.Reduces ⟨2, ![N, D]⟩ [(1 : Fin 2)] ⟨1, ![N]⟩)
    (hu : 0 < (⟨0, ![]⟩ : Shape).numel) (r : Fin N) :
    Host.reduce FloatOps.maximumf x init h' hu (ix1 r)
      = (Finset.univ : Finset (Fin D)).fold max (init (Shape.Idx.first hu)) (fun l => x (ix2 r l)) := by
  rw [Host.reduce_eq_fold_single FloatOps.maximumf x init h' h hu (ix1 r)]
  show (Finset.univ : Finset (Fin D)).fold max (init (Shape.Idx.first hu)) (fun l => x (h.lift (ix1 r) l)) = _
  congr 1
  funext l
  exact congrArg x (lift_row h r l)

/-- An and-reduction over a unit axis reads the one element. -/
theorem reduce_and_unit {N w : Nat} (x : IVec ⟨3, ![N, 1, 1]⟩ w) (init : (⟨0, ![]⟩ : Shape).Idx → BitVec w)
    (h' : Shape.ReducesTo ⟨3, ![N, 1, 1]⟩ [(2 : Fin 3)] ⟨2, ![N, 1]⟩) (h : Shape.Reduces ⟨3, ![N, 1, 1]⟩ [(2 : Fin 3)] ⟨2, ![N, 1]⟩)
    (hu : 0 < (⟨0, ![]⟩ : Shape).numel) (r : Fin N) :
    Host.reduce IntOp.andi x init h' hu (ix2 r 0) = IntOp.andi (x (ix3 r 0 0)) (init (Shape.Idx.first hu)) := by
  refine (Host.reduce_eq_fold_single IntOp.andi x init h' h hu (ix2 r 0)).trans ?_
  exact (Finset.fold_singleton (op := IntOp.andi) (b := init (Shape.Idx.first hu))
    (f := fun k : Fin 1 => x (h.lift (ix2 r 0) k)) (a := (0 : Fin 1))).trans
    (congrArg (fun y => IntOp.andi (x y) (init (Shape.Idx.first hu))) (lift_unit h r 0))

/-! ## The result as the closing arithmetic of three quantities -/

section Result

variable (x0 : FVec Ideal S1048576x100 .f32) (x1 : IVec S1048576 32) (x2 : FVec Ideal S1024x1024x3 .f32)

/-- The reference's result is the shared closing arithmetic of its two segment sums and its summed cross entropy. -/
theorem result_eq_tail : val_main_v30 (F := Ideal) x0 x1 x2
    = tail bcast_S_S100x3 reducesTo_S100x3_S_d0_1 h_S_ (val_main_v9 (F := Ideal) x1 x2) (val_main_v13 (F := Ideal) x1 x2)
        (val_main_v4 (F := Ideal) x0 x1) := by
  unfold val_main_v30 val_main_v29 val_main_v28 val_main_v27 val_main_v26 val_main_v25 val_main_v24 val_main_v23
    val_main_v22 val_main_v21 val_main_v20 val_main_v19 val_main_v18 val_main_v17 val_main_v16 val_main_v15 val_main_v14
    val_main_v5 tail
  generalize val_main_v9 (F := Ideal) x1 x2 = s1
  generalize val_main_v13 (F := Ideal) x1 x2 = s2
  generalize val_main_v4 (F := Ideal) x0 x1 = n
  rfl

/-- The flattened image is the reshape of the image. -/
theorem flat_eq : val_main_v6 (F := Ideal) x2 = shapeCast S1048576x3 x2 shapeCasts_S1024x1024x3_S1048576x3 := rfl

end Result

/-! ## The two segment sums -/

section Segments

variable (x1 : IVec S1048576 32) (x2 : FVec Ideal S1024x1024x3 .f32)

/-- The label column of the first scatter reads the pixel's label. -/
theorem lab8_apply (e : Fin NPix) : val_main_v8 (F := Ideal) x1 (ix2 e 0) = x1 (ix1 e) :=
  (val_main_v8_apply x1 (ix2 e 0)).trans (congrArg x1 (funext fun a => match a with | ⟨0, _⟩ => rfl))

/-- The label column of the second scatter reads the pixel's label. -/
theorem lab12_apply (e : Fin NPix) : val_main_v12 (F := Ideal) x1 (ix2 e 0) = x1 (ix1 e) :=
  (val_main_v12_apply x1 (ix2 e 0)).trans (congrArg x1 (funext fun a => match a with | ⟨0, _⟩ => rfl))

/-- The first scatter's operand is zero. -/
theorem zero7_apply (i : S100x3.Idx) : val_main_v7 (F := Ideal) i = 0 := by
  rw [val_main_v7_apply, val_main_cst_1_apply, Ideal.ofBits_def, Ideal.ofBits_zero_f32]

/-- The second scatter's operand is zero. -/
theorem zero11_apply (i : S100x3.Idx) : val_main_v11 (F := Ideal) i = 0 := by
  rw [val_main_v11_apply, val_main_cst_2_apply, Ideal.ofBits_def, Ideal.ofBits_zero_f32]

/-- A scatter-add of the rows of `upd` into a zero table by the pixels' labels, at `(l, k)`: the sum over all
    pixels of the indicator "the pixel's label is `l`" times the pixel's entry `k`. -/
theorem scatter_masked (z : FVec Ideal S100x3 .f32) (hz : ∀ i, z i = 0) (idx : IVec S1048576x1 32)
    (hidx : ∀ e : Fin NPix, idx (ix2 e 0) = x1 (ix1 e)) (upd : FVec Ideal S1048576x3 .f32) (l : Fin 100) (k : Fin 3) :
    Host.scatterAdd (F := Ideal) scatter_S100x3_S1048576x1_S1048576x3_1_0_0_1 z idx upd (ix2 l k)
      = ∑ e : Fin NPix, hot (x1 (ix1 e)) l * upd (ix2 e k) := by
  rw [Cert.LibScatterGatherRows.scatterAdd_rows scatter_S100x3_S1048576x1_S1048576x3_1_0_0_1 rfl rfl rfl rfl z idx upd l k,
    hz, zero_add]
  simp only [hidx]
  exact filter_sum_eq_hot (fun e : Fin NPix => x1 (ix1 e)) (fun e : Fin NPix => upd (ix2 e k)) l

/-- Label `l`'s segment sum of channel `k`: the sum over all pixels of `[label = l] · pixel`. -/
theorem s1_apply (l : Fin 100) (k : Fin 3) :
    val_main_v9 (F := Ideal) x1 x2 (ix2 l k) = seg (s1At (Tof x1) (Gof (val_main_v6 (F := Ideal) x2)) l k) 0 NPix := by
  unfold val_main_v9
  generalize val_main_v6 (F := Ideal) x2 = g
  rw [scatter_masked x1 _ zero7_apply _ (lab8_apply x1) g l k, ← sum_all_eq_seg]
  refine Finset.sum_congr rfl fun e _ => ?_
  unfold s1At Tof Gof
  rw [dif_pos e.isLt]

/-- Label `l`'s segment sum of the square of channel `k`: the sum over all pixels of `[label = l] · pixel²`. -/
theorem s2_apply (l : Fin 100) (k : Fin 3) :
    val_main_v13 (F := Ideal) x1 x2 (ix2 l k) = seg (s2At (Tof x1) (Gof (val_main_v6 (F := Ideal) x2)) l k) 0 NPix := by
  unfold val_main_v13 val_main_v10
  generalize val_main_v6 (F := Ideal) x2 = g
  rw [scatter_masked x1 _ zero11_apply _ (lab12_apply x1) (mulf g g) l k, ← sum_all_eq_seg]
  refine Finset.sum_congr rfl fun e _ => ?_
  unfold s2At Tof Gof
  rw [dif_pos e.isLt]
  rfl

end Segments

/-! ## The cross entropy of one pixel -/

section Row

variable (x0 : FVec Ideal S1048576x100 .f32) (x1 : IVec S1048576 32)

/-- The row maximum (`max` of minus infinity and the maximum-reduction over the labels), at pixel `r`. -/
theorem max_apply (r : Fin NPix) : val_main_call0_v2 (F := Ideal) x0 (ix1 r) = rowMax (Xof x0 r) := by
  rw [val_main_call0_v2_apply, Ideal.maximumf_def, val_main_call0_v1_apply, val_main_call0_cst_0_apply, Ideal.ofBits_def,
    ofBits_neg_inf, max_bot_left]
  unfold val_main_call0_v0
  rw [reduce_max_row x0 _ reducesTo_S1048576x100_S1048576_d1 (by decide) h_S_ r, val_main_call0_cst_apply,
    Ideal.ofBits_def, ofBits_neg_inf]
  rfl

/-- The score with the row maximum shifted out, at `(r, l)`. -/
theorem shift_apply (r : Fin NPix) (l : Fin 100) :
    val_main_call0_v5 (F := Ideal) x0 (ix2 r l) = x0 (ix2 r l) - rowMax (Xof x0 r) := by
  have e : idx_main_call0_v3 (idx_main_call0_v4 (ix2 r l)) = ix1 r := funext fun a => match a with | ⟨0, _⟩ => rfl
  rw [val_main_call0_v5_apply, Ideal.subf_def, val_main_call0_v4_apply, val_main_call0_v3_apply, e, max_apply]

/-- The logarithm of the sum of the exponentials of the row's shifted scores, broadcast to `(r, k)`. -/
theorem lse_apply (r : Fin NPix) (k : Fin 100) :
    val_main_call0_v10 (F := Ideal) x0 (ix2 r k)
      = Ideal.log (∑ l : Fin 100, Ideal.exp (x0 (ix2 r l) - rowMax (Xof x0 r))) := by
  have e : idx_main_call0_v8 (idx_main_call0_v10 (ix2 r k)) = ix1 r := funext fun a => match a with | ⟨0, _⟩ => rfl
  rw [val_main_call0_v10_apply, val_main_call0_v9_apply, Ideal.hostUnary_log_def, val_main_call0_v8_apply, e,
    val_main_call0_v7_apply, val_main_call0_cst_1_apply, Ideal.ofBits_def, Ideal.ofBits_zero_f32, zero_add]
  congr 1
  refine Finset.sum_congr rfl fun l _ => ?_
  have e' : idx_main_call0_v7 (ix1 r) l = ix2 r l := funext fun a => match a with | ⟨0, _⟩ => rfl | ⟨1, _⟩ => rfl
  rw [e', val_main_call0_v6_apply, Ideal.hostUnary_exp_def, shift_apply]

/-- The log-softmax at `(r, k)`. -/
theorem lsm_apply (r : Fin NPix) (k : Fin 100) :
    val_main_v0 (F := Ideal) x0 (ix2 r k)
      = (x0 (ix2 r k) - rowMax (Xof x0 r)) - Ideal.log (∑ l : Fin 100, Ideal.exp (x0 (ix2 r l) - rowMax (Xof x0 r))) := by
  rw [val_main_v0_apply, Ideal.subf_def, shift_apply, lse_apply]

/-- The label column reads the pixel's label. -/
theorem lab1_apply (r : Fin NPix) : val_main_v1 (F := Ideal) x1 (ix2 r 0) = x1 (ix1 r) :=
  (val_main_v1_apply x1 (ix2 r 0)).trans (congrArg x1 (funext fun a => match a with | ⟨0, _⟩ => rfl))

/-- The index wrapped from the end (`t + 100` for a negative `t`) is the label itself when the label is not negative. -/
theorem wrap_apply (r : Fin NPix) (h0 : 0 ≤ (x1 (ix1 r)).toInt) :
    val_main_call1_v4 (F := Ideal) x1 (ix2 r 0) = x1 (ix1 r) := by
  rw [val_main_call1_v4_apply, val_main_call1_v1_apply, lab1_apply, val_main_call1_v0_apply, val_main_call1_c_apply,
    cmpi_slt_zero _ h0, select_zero]

/-- The gather's start index for pixel `r` is the pixel's label. -/
theorem start_apply (r : Fin NPix) (h0 : 0 ≤ (x1 (ix1 r)).toInt) :
    val_main_call1_v5 (F := Ideal) x1 (ix3 r 0 0) = x1 (ix1 r) := by
  have e : idx_main_call1_v5 (ix3 r 0 0) = ix2 r 0 := funext fun a => match a with
    | ⟨0, _⟩ => Fin.ext (by show ((r.val * 1 + 0) * 1 + 0) / 1 = r.val; omega)
    | ⟨1, _⟩ => rfl
  rw [val_main_call1_v5_apply, e, wrap_apply x1 r h0]

/-- The in-range mask is true at a pixel whose label is in `[0, 99]`. -/
theorem mask_apply (r : Fin NPix) (h0 : 0 ≤ (x1 (ix1 r)).toInt) (h1 : (x1 (ix1 r)).toInt < 100) :
    val_main_call1_v12 (F := Ideal) x1 (ix2 r 0) = 1#1 := by
  unfold val_main_call1_v12
  rw [reduce_and_unit (val_main_call1_v11 (F := Ideal) x1) _ reducesTo_S1048576x1x1_S1048576x1_d2 (by decide) h_S_ r,
    val_main_call1_c_3_apply, val_main_call1_v11_apply, val_main_call1_v7_apply, val_main_call1_v10_apply,
    start_apply x1 r h0, val_main_call1_v6_apply, val_main_call1_c_2_apply, val_main_call1_v9_apply,
    val_main_call1_v8_apply, val_main_call1_c_1_apply, cmpi_sge_zero _ h0, cmpi_sle_99 _ h1]
  rfl

/-- The gathered entry of pixel `r` is the log-softmax at the pixel's label `k`. -/
theorem pick_apply (r : Fin NPix) (k : Fin 100) (h0 : 0 ≤ (x1 (ix1 r)).toInt)
    (hk : min (x1 (ix1 r)).toInt.toNat (100 - 1) = k.val) :
    val_main_call1_v13 (F := Ideal) x0 x1 (ix2 r 0) = val_main_v0 (F := Ideal) x0 (ix2 r k) := by
  unfold val_main_call1_v13
  generalize val_main_v0 (F := Ideal) x0 = y
  refine (gather_batched gather_S1048576x100_S1048576x1x1_S1048576x1_n_1_0_0_1_2_11 rfl rfl rfl rfl rfl rfl y
    (val_main_call1_v5 (F := Ideal) x1) r (by decide)).trans ?_
  refine congrArg (fun q : Fin 100 => y (ix2 r q)) (Fin.ext ?_)
  show min (val_main_call1_v5 (F := Ideal) x1 (ix3 r 0 0)).toInt.toNat (100 - 1) = k.val
  rw [start_apply x1 r h0]
  exact hk

/-- THE ROW: at a pixel with finite scores and a label in range, the negated masked gather of the log-softmax
    is the pixel's cross entropy. -/
theorem row_apply (hx : ∀ i, ∃ v : ℝ, x0 i = (v : EReal)) (r : Fin NPix) (h0 : 0 ≤ (x1 (ix1 r)).toInt)
    (h1 : (x1 (ix1 r)).toInt < 100) :
    val_main_v3 (F := Ideal) x0 x1 (ix2 r 0) = rowNll (Xof x0 r) (Tof x1 r) := by
  obtain ⟨k, hk, hmin⟩ := label_fin (x1 (ix1 r)) h0 h1
  rw [val_main_v3_apply, Ideal.hostNegf_def, Ideal.negf_def, val_main_v2_apply, mask_apply x1 r h0 h1, select_one,
    pick_apply x0 x1 r k h0 hmin, lsm_apply]
  have hT : Tof x1 r = BitVec.ofNat 32 k.val := hk
  rw [hT, rowNll_eq (Xof x0 r) (fun l => hx (ix2 r l)) k]
  rfl

end Row

/-! ## The summed cross entropy -/

section Nll

variable (x0 : FVec Ideal S1048576x100 .f32) (x1 : IVec S1048576 32)

/-- The summed cross entropy, for finite scores and labels in range. -/
theorem nll_apply (hx : ∀ i, ∃ r : ℝ, x0 i = (r : EReal)) (ht : ∀ i, 0 ≤ (x1 i).toInt ∧ (x1 i).toInt < 100) (i : S_.Idx) :
    val_main_v4 (F := Ideal) x0 x1 i = seg (nllAt (Xof x0) (Tof x1)) 0 NPix := by
  rw [val_main_v4_apply, val_main_cst_apply, Ideal.ofBits_def, Ideal.ofBits_zero_f32, zero_add, sum_col, ← sum_all_eq_seg]
  refine Finset.sum_congr rfl fun r _ => ?_
  rw [row_apply x0 x1 hx r (ht (ix1 r)).1 (ht (ix1 r)).2]
  unfold nllAt
  rw [dif_pos r.isLt]

end Nll

end Cert.ReferenceIdeal.RefValue

end
-- ==== Proof.KSums.lean ====
import proofs.«403517_j57982058496130_3_alg».proof.Proof.KOutDefs
import Idealize.ShloMosaic.PureOps.Ideal.Laws
import Idealize.ShloMosaic.Lib.ValueIdx
import Mathlib.Algebra.BigOperators.Fin

/-!
# The host's sums over the two cores, read at an index

After the region each output array holds one block per core: at core `a` the sum of the per-pixel contribution over the
core's half of the pixels, `a · 524288 … a · 524288 + 524287`. The host adds the two blocks — for the two image-sum
arrays a sum over the leading axis, for the cross entropy a sum over all three axes of a 2 × 1 × 1 array — starting from
the zero word. At the ideal values that sum is the exact one, so each result is the first half's interval sum plus the
second half's, which is the sum over all 1048576 pixels.
-/

noncomputable section

open scoped BigOperators

namespace Cert.KernelIdeal.KV
open Cert.KernelIdeal Cert.KernelIdeal.Gen Cert.SegLoss Idealize.ShloMosaic Idealize.ShloMosaic.TcCoe Idealize.SL.Sem Idealize.ShloMosaic.ValueIdx

namespace HostSums

/-- The host's sum over the first axis of a 2 × 100 × 3 array from the zero word: at (l, k) the two blocks' entries added. -/
theorem sum_axis0 (P : FVec Ideal S2x100x3 .f32) (h' : S2x100x3.ReducesTo [0] S100x3) (hu : 0 < S_.numel)
    (l : Fin 100) (k : Fin 3) :
    Host.reduceAdd (F := Ideal) P (constant (F := Ideal) S_ .f32 0x00000000#32) h' hu (ix2 l k)
      = P (ix3 0 l k) + P (ix3 1 l k) := by
  have h : S2x100x3.Reduces [0] S100x3 := by decide
  simp only [Host.reduceAdd, Ideal.hostReduceAdd_def]
  rw [Ideal.hostReduceAdd_single h' h]
  show Ideal.ofBits .f32 0x00000000#32 + ∑ a : Fin 2, P (h.lift (ix2 l k) a) = _
  rw [Ideal.ofBits_zero_f32, zero_add, Fin.sum_univ_two]
  have e0 : h.lift (ix2 l k) (0 : Fin 2) = ix3 0 l k := funext fun c => Fin.ext (by
    match c with
    | ⟨0, _⟩ => rfl
    | ⟨1, _⟩ => rfl
    | ⟨2, _⟩ => rfl)
  have e1 : h.lift (ix2 l k) (1 : Fin 2) = ix3 1 l k := funext fun c => Fin.ext (by
    match c with
    | ⟨0, _⟩ => rfl
    | ⟨1, _⟩ => rfl
    | ⟨2, _⟩ => rfl)
  rw [e0, e1]

/-- An index of a 2 × 1 × 1 array is its first coordinate. -/
def coreEquiv : (⟨3, ![2, 1, 1]⟩ : Shape).Idx ≃ Fin 2 where
  toFun i := i 0
  invFun a := ix3 a (0 : Fin 1) (0 : Fin 1)
  left_inv i := by
    have h1 : (i 1).val < 1 := (i 1).isLt
    have h2 : (i 2).val < 1 := (i 2).isLt
    funext c
    apply Fin.ext
    match c with
    | ⟨0, _⟩ => rfl
    | ⟨1, _⟩ => show (0 : ℕ) = (i 1).val; omega
    | ⟨2, _⟩ => show (0 : ℕ) = (i 2).val; omega
  right_inv _ := rfl

/-- The host's sum over every axis of a 2 × 1 × 1 array from the zero word: the two entries added. -/
theorem sum_all (P : FVec Ideal S2x1x1 .f32) (h' : S2x1x1.ReducesTo [0, 1, 2] S_) (hu : 0 < S_.numel) (i : S_.Idx) :
    Host.reduceAdd (F := Ideal) P (constant (F := Ideal) S_ .f32 0x00000000#32) h' hu i
      = P (ix3 0 0 0) + P (ix3 1 0 0) := by
  simp only [Host.reduceAdd, Ideal.hostReduceAdd_def]
  rw [Ideal.hostReduceAdd_total h' (fun b => b.elim0)]
  show Ideal.ofBits .f32 0x00000000#32 + ∑ j : (⟨3, ![2, 1, 1]⟩ : Shape).Idx, P j = _
  rw [Ideal.ofBits_zero_f32, zero_add, ← Equiv.sum_comp coreEquiv.symm P, Fin.sum_univ_two]
  rfl

end HostSums

open HostSums

variable (m : (ℓ : Loc nD τ sig) → Buf (Elt Ideal) ℓ)

/-- The summed image per label and channel: both cores' halves, all pixels. -/
theorem K1_apply (c : Dev nD) (l : Fin 100) (k : Fin 3) : K1 m c (ix2 l k) = seg (s1At (Tk m c) (Gk m c) l k) 0 NPix := by
  unfold K1
  refine (sum_axis0 (P1 m c) _ _ l k).trans ?_
  rw [P1_apply, P1_apply]
  show seg _ 0 524288 + seg _ 524288 1048576 = seg _ 0 1048576
  exact seg_add _ (by omega) (by omega)

/-- The same for the squared image. -/
theorem K2_apply (c : Dev nD) (l : Fin 100) (k : Fin 3) : K2 m c (ix2 l k) = seg (s2At (Tk m c) (Gk m c) l k) 0 NPix := by
  unfold K2
  refine (sum_axis0 (P2 m c) _ _ l k).trans ?_
  rw [P2_apply, P2_apply]
  show seg _ 0 524288 + seg _ 524288 1048576 = seg _ 0 1048576
  exact seg_add _ (by omega) (by omega)

/-- The summed cross entropy over all pixels. -/
theorem KN_apply (c : Dev nD) (i : S_.Idx) : KN m c i = seg (nllAt (Xk m c) (Tk m c)) 0 NPix := by
  unfold KN
  refine (sum_all (PN m c) _ _ i).trans ?_
  rw [PN_apply, PN_apply]
  show seg _ 0 524288 + seg _ 524288 1048576 = seg _ 0 1048576
  exact seg_add _ (by omega) (by omega)

end Cert.KernelIdeal.KV

end
-- ==== Proof.PreDecode.lean ====
import proofs.«403517_j57982058496130_3_alg».proof.Pre_finite_inputs
import proofs.«403517_j57982058496130_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

/-!
  The precondition, decoded. The printed predicate is the conjunction of four universally quantified
  statements: every score has absolute value below +∞, every image entry likewise, every label is at
  least 0 as a signed word, and every label is below 100 as a signed word. Each "for all" is an
  and-reduction of a one-bit array to a single bit; a reduction by "and" that comes out 1 met a 1 at every
  index. An extended real whose absolute value max x (−x) is strictly below +∞ is neither +∞ nor −∞
  (for −∞ the negation is +∞), hence a real number. A signed comparison against a constant array reads
  the constant at every index, so the two label conjuncts say 0 ≤ label < 100 entry by entry. The image
  conjunct is not used.
-/

namespace Cert.SegLoss

open Idealize.ShloMosaic Cert.Pre_finite_inputs

/-- The rank-0 shape has exactly one index. -/
instance subsingleton_scalar_idx : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real with |x| < +∞ is a real number: at +∞ the maximum is +∞, at −∞ the negation is +∞. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition every score is a real number and every label is a signed integer in [0, 100). -/
theorem pre_decode (a0 : FVec Ideal Cert.Pre_finite_inputs.S1048576x100 .f32) (a1 : IVec Cert.Pre_finite_inputs.S1048576 32)
    (a2 : FVec Ideal Cert.Pre_finite_inputs.S1024x1024x3 .f32)
    (h : Cert.Pre_finite_inputs.fn (F := Ideal) a0 a1 a2 = fun _ => 1#1) :
    (∀ i, ∃ r : ℝ, a0 i = (r : EReal)) ∧ (∀ i, 0 ≤ (a1 i).toInt ∧ (a1 i).toInt < 100) := by
  have e := congrFun h ValueIdx.ix0
  dsimp only [Cert.Pre_finite_inputs.fn, Cert.Pre_finite_inputs.fn_part1] at e
  simp only [andi, IntOp.andi_eq_one] at e
  obtain ⟨⟨⟨hscore, -⟩, hge⟩, hlt⟩ := e
  refine ⟨fun i => ?_, fun i => ⟨?_, ?_⟩⟩
  · exact real_of_abs_lt_inf (a0 i) (Host.reduce_andi_all _ _ _ _ _ hscore i)
  · have c := Host.reduce_andi_all _ _ _ _ _ hge i
    have c' : IntOp.cmpi .sge (a1 i) (0#32) = 1#1 := c
    exact IntOp.cmpi_sge.1 c'
  · have c := Host.reduce_andi_all _ _ _ _ _ hlt i
    have c' : IntOp.cmpi .slt (a1 i) (100#32) = 1#1 := c
    exact IntOp.cmpi_slt.1 c'

end Cert.SegLoss
-- ==== Proof.Bridge.lean ====
import proofs.«403517_j57982058496130_3_alg».proof.Proof.RefValue
import proofs.«403517_j57982058496130_3_alg».proof.Proof.KSums
import proofs.«403517_j57982058496130_3_alg».proof.Proof.PreDecode
import Idealize.ShloMosaic.Lib.ValueIdx

/-!
# The two programs' results are the same extended real

Each program's result is the shared closing arithmetic of three quantities: the per-label sums of the image and of its
square, and the summed cross entropy. On each side every quantity has been read as the sum over all 1048576 pixel
numbers of the same per-pixel contribution, a function of the scores, the labels and the flattened image; the two
programs flatten the same image by the same reshape, and under the precondition (every score a real number, every label
in 0 … 99) the reference's cross entropy is that sum too. So from memories that agree on the three arguments the three
quantities are equal index by index, and the results, the same function of them, are equal.
-/

noncomputable section

namespace Cert.SegLoss
open Idealize.ShloMosaic Idealize.ShloMosaic.TcCoe Idealize.SL.Sem Idealize.ShloMosaic.ValueIdx

namespace Agree

variable (m : (ℓ : Loc Cert.KernelIdeal.nD Cert.KernelIdeal.τ Cert.KernelIdeal.sig) → Buf (Elt Ideal) ℓ)
  (c : Dev Cert.KernelIdeal.nD)

/-- The two programs flatten the same image in the same way. -/
theorem flat_agree :
    Gof (Cert.ReferenceIdeal.ReadP.val_main_v6 (F := Ideal) (m ((c.tc : Thread Cert.KernelIdeal.nD Cert.KernelIdeal.τ).loc Cert.KernelIdeal.main_arg2))) = Cert.KernelIdeal.KV.Gk m c := by
  show Gof _ = Gof (Cert.KernelIdeal.KV.flatImg m c)
  rw [Cert.ReferenceIdeal.RefValue.flat_eq, Cert.KernelIdeal.KV.flatImg_eq]

/-- The per-label image sums agree. -/
theorem s1_agree :
    Cert.ReferenceIdeal.ReadP.val_main_v9 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = Cert.KernelIdeal.KV.K1 m c := by
  funext j
  obtain ⟨l, k, rfl⟩ : ∃ (l : Fin 100) (k : Fin 3), j = ix2 l k := ⟨j 0, j 1, eq_ix2 j⟩
  refine (Cert.ReferenceIdeal.RefValue.s1_apply _ _ l k).trans (Eq.trans ?_ (Cert.KernelIdeal.KV.K1_apply m c l k).symm)
  exact congrArg (fun G => seg (s1At (Cert.KernelIdeal.KV.Tk m c) G l k) 0 NPix) (flat_agree m c)

/-- The per-label sums of the squared image agree. -/
theorem s2_agree :
    Cert.ReferenceIdeal.ReadP.val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = Cert.KernelIdeal.KV.K2 m c := by
  funext j
  obtain ⟨l, k, rfl⟩ : ∃ (l : Fin 100) (k : Fin 3), j = ix2 l k := ⟨j 0, j 1, eq_ix2 j⟩
  refine (Cert.ReferenceIdeal.RefValue.s2_apply _ _ l k).trans (Eq.trans ?_ (Cert.KernelIdeal.KV.K2_apply m c l k).symm)
  exact congrArg (fun G => seg (s2At (Cert.KernelIdeal.KV.Tk m c) G l k) 0 NPix) (flat_agree m c)

/-- Under the precondition the summed cross entropies agree. -/
theorem nll_agree
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1) :
    Cert.ReferenceIdeal.ReadP.val_main_v4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) = Cert.KernelIdeal.KV.KN m c := by
  obtain ⟨hx, ht⟩ := pre_decode _ _ _ hpre
  funext i
  exact (Cert.ReferenceIdeal.RefValue.nll_apply _ _ hx ht i).trans (Cert.KernelIdeal.KV.KN_apply m c i).symm

end Agree

/-- Under the precondition, from memories that agree on the three arguments, the reference's last stage is the kernel's closing arithmetic of its three sums. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.ReadP.val_main_v30 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = tail Cert.KernelIdeal.Gen.bcast_S_S100x3 Cert.KernelIdeal.Gen.reducesTo_S100x3_S_d0_1 Cert.KernelIdeal.Gen.h_S_
          (Cert.KernelIdeal.KV.K1 m c) (Cert.KernelIdeal.KV.K2 m c) (Cert.KernelIdeal.KV.KN m c) := by
  rw [h0, h1, h2]
  refine (Cert.ReferenceIdeal.RefValue.result_eq_tail _ _ _).trans ?_
  rw [Agree.s1_agree m c, Agree.s2_agree m c, Agree.nll_agree m c hpre]

end Cert.SegLoss

end
-- ==== Proof.lean ====
/-
  The loss of a segmentation net's output against a label image and a colour image,

    0.7 · (mean cross entropy of the per-pixel scores against the labels)
      + 0.3 · sigmoid (∑ over labels and channels of the population standard deviation of the label's masked image),

  computed by a kernel that streams the 1048576 pixels in 128 blocks of 8192 over two cores, and by a
  plain array program. Over the extended reals, for finite scores and labels in [0, 100), they are the
  same number.

  * Both programs end with the same closing arithmetic (Tail.lean) of three quantities: the per-label
    sums of the image and of its square (100 × 3 each) and the summed cross entropy.
  * The kernel (KSteps … KRun): each grid point adds its block's contributions to three accumulators
    (one-hot matrix products for the two image sums; log-sum-exp minus the picked score, summed, for
    the cross entropy); by induction on the grid point the accumulators hold sums over intervals of
    pixels; a core's last point writes them out; the host adds the two cores. Each quantity is the sum
    over all pixels of its per-pixel contribution.
  * The reference (RefStages, RefValue): a segment sum is, label by label, the sum over the pixels with
    that label — the sum over all pixels of [label = l] · pixel; the negated log-softmax picked at the
    pixel's label is the pixel's cross entropy (RowLaw.lean: finiteness of the scores is used here, and
    the label's range makes the pick a real pick and the one-hot mask non-empty).
  * Bridge.lean compares the three quantities index by index.
  The frames of the two kernel programs are the generated ones; the reference's is its generated run.
  The idealization rewrote nothing, so `preserves` is trivial.
-/
import proofs.«403517_j57982058496130_3_alg».proof.Defs
import proofs.«403517_j57982058496130_3_alg».proof.Proof.Gen.Kernel
import proofs.«403517_j57982058496130_3_alg».proof.Proof.Gen.Kernel.Frame
import proofs.«403517_j57982058496130_3_alg».proof.Proof.Gen.KernelIdeal
import proofs.«403517_j57982058496130_3_alg».proof.Proof.Gen.KernelIdeal.Frame
import proofs.«403517_j57982058496130_3_alg».proof.Proof.Gen.ReferenceIdeal
import proofs.«403517_j57982058496130_3_alg».proof.Proof.Gen.Pre_finite_inputs
import proofs.«403517_j57982058496130_3_alg».proof.Proof.RefRun
import proofs.«403517_j57982058496130_3_alg».proof.Proof.RefStages
import proofs.«403517_j57982058496130_3_alg».proof.Proof.KRun
import proofs.«403517_j57982058496130_3_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- Both runs end at the closing arithmetic of the kernel's three sums: the kernel's by its run, the reference's because
    its fold of operations is its last stage (stretch by stretch), which the bridge identifies with the kernel's value. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KV.run_value m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.RefStages.fold_eq]
  exact Cert.SegLoss.results_agree m m' c (hpre c) (hagree c).1 (hagree c).2.1 (hagree c).2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
